-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v7_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v7_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S512x1024 : Shape := ⟨2, ![512, 1024]⟩
abbrev S50257x1024 : Shape := ⟨2, ![50257, 1024]⟩
abbrev S512x2048 : Shape := ⟨2, ![512, 2048]⟩
abbrev S512 : Shape := ⟨1, ![512]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S50257x1024 : S_.BroadcastsInDim S50257x1024 (![] : Fin 0 → Fin S50257x1024.rank)
  reducesTo_S50257x1024_S_d0_1 : S50257x1024.ReducesTo [0, 1] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S50257 : S_.BroadcastsInDim S50257 (![] : Fin 0 → Fin S50257.rank)
  reducesTo_S50257_S_d0 : S50257.ReducesTo [0] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v65 : IVec S1 1) (main_v67 : IVec S1 1) : IVec S_ 1 :=
  let main_v68 : IVec S1 1 := andi main_v65 main_v67
  let main_c_26 : IVec S_ 1 := constantI S_ 1 1#1
  let main_v69 : IVec S_ 1 := (fun x v => Host.reduce IntOp.andi x v reducesTo_S1_S_d0 h_S_) main_v68 main_c_26
  let main_v70 : IVec S_ 1 := andi main_v63 main_v69
  main_v70

def fn_part3 {F : FTy → Type} [FloatOps F] (main_arg0 : IVec S1 32) (main_arg12 : FVec F S50257x1024 .f32) (main_arg13 : FVec F S50257 .f32) (main_v48 : IVec S_ 1) (main_v49 : FVec F S3072 .f32) (main_v50 : FVec F S3072 .f32) : IVec S_ 1 :=
  let main_v51 : IVec S3072 1 := cmpf .olt main_v49 main_v50
  let main_c_19 : IVec S_ 1 := constantI S_ 1 1#1
  let main_v52 : IVec S_ 1 := (fun x v => Host.reduce IntOp.andi x v reducesTo_S3072_S_d0 h_S_) main_v51 main_c_19
  let main_v53 : IVec S_ 1 := andi main_v48 main_v52
  let main_v54 : FVec F S50257x1024 .f32 := Host.absf main_arg12
  let main_cst_20 : FVec F S_ .f32 := constant S_ .f32 0x7F800000#32
  let main_v55 : FVec F S50257x1024 .f32 := broadcastInDim S50257x1024 ![] bcast_S_S50257x1024 main_cst_20
  let main_v56 : IVec S50257x1024 1 := cmpf .olt main_v54 main_v55
  let main_c_21 : IVec S_ 1 := constantI S_ 1 1#1
  let main_v57 : IVec S_ 1 := (fun x v => Host.reduce IntOp.andi x v reducesTo_S50257x1024_S_d0_1 h_S_) main_v56 main_c_21
  let main_v58 : IVec S_ 1 := andi main_v53 main_v57
  let main_v59 : FVec F S50257 .f32 := Host.absf main_arg13
  let main_cst_22 : FVec F S_ .f32 := constant S_ .f32 0x7F800000#32
  let main_v60 : FVec F S50257 .f32 := broadcastInDim S50257 ![] bcast_S_S50257 main_cst_22
  let main_v61 : IVec S50257 1 := cmpf .olt main_v59 main_v60
  let main_c_23 : IVec S_ 1 := constantI S_ 1 1#1
  let main_v62 : IVec S_ 1 := (fun x v => Host.reduce IntOp.andi x v reducesTo_S50257_S_d0 h_S_) main_v61 main_c_23
  let main_v63 : IVec S_ 1 := andi main_v58 main_v62
  let main_c_24 : IVec S_ 32 := constantI S_ 32 4294917039#32
  let main_v64 : IVec S1 32 := broadcastInDim S1 ![] bcast_S_S1 main_c_24
  let main_v65 : IVec S1 1 := cmpi .sge main_arg0 main_v64
  let main_c_25 : IVec S_ 32 := constantI S_ 32 50257#32
  let main_v66 : IVec S1 32 := broadcastInDim S1 ![] bcast_S_S1 main_c_25
  let main_v67 : IVec S1 1 := cmpi .slt main_arg0 main_v66
  fn_part4 (F := F) main_v63 main_v65 main_v67

def fn_part2 {F : FTy → Type} [FloatOps F] (main_arg0 : IVec S1 32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v33 : IVec S_ 1) : IVec S_ 1 :=
  let main_v34 : FVec F S3072x1024 .f32 := Host.absf main_arg8
  let main_cst_12 : FVec F S_ .f32 := constant S_ .f32 0x7F800000#32
  let main_v35 : FVec F S3072x1024 .f32 := broadcastInDim S3072x1024 ![] bcast_S_S3072x1024 main_cst_12
  let main_v36 : IVec S3072x1024 1 := cmpf .olt main_v34 main_v35
  let main_c_13 : IVec S_ 1 := constantI S_ 1 1#1
  let main_v37 : IVec S_ 1 := (fun x v => Host.reduce IntOp.andi x v reducesTo_S3072x1024_S_d0_1 h_S_) main_v36 main_c_13
  let main_v38 : IVec S_ 1 := andi main_v33 main_v37
  let main_v39 : FVec F S3072x1024 .f32 := Host.absf main_arg9
  let main_cst_14 : FVec F S_ .f32 := constant S_ .f32 0x7F800000#32
  let main_v40 : FVec F S3072x1024 .f32 := broadcastInDim S3072x1024 ![] bcast_S_S3072x1024 main_cst_14
  let main_v41 : IVec S3072x1024 1 := cmpf .olt main_v39 main_v40
  let main_c_15 : IVec S_ 1 := constantI S_ 1 1#1
  let main_v42 : IVec S_ 1 := (fun x v => Host.reduce IntOp.andi x v reducesTo_S3072x1024_S_d0_1 h_S_) main_v41 main_c_15
  let main_v43 : IVec S_ 1 := andi main_v38 main_v42
  let main_v44 : FVec F S3072 .f32 := Host.absf main_arg10
  let main_cst_16 : FVec F S_ .f32 := constant S_ .f32 0x7F800000#32
  let main_v45 : FVec F S3072 .f32 := broadcastInDim S3072 ![] bcast_S_S3072 main_cst_16
  let main_v46 : IVec S3072 1 := cmpf .olt main_v44 main_v45
  let main_c_17 : IVec S_ 1 := constantI S_ 1 1#1
  let main_v47 : IVec S_ 1 := (fun x v => Host.reduce IntOp.andi x v reducesTo_S3072_S_d0 h_S_) main_v46 main_c_17
  let main_v48 : IVec S_ 1 := andi main_v43 main_v47
  let main_v49 : FVec F S3072 .f32 := Host.absf main_arg11
  let main_cst_18 : FVec F S_ .f32 := constant S_ .f32 0x7F800000#32
  let main_v50 : FVec F S3072 .f32 := broadcastInDim S3072 ![] bcast_S_S3072 main_cst_18
  fn_part3 (F := F) main_arg0 main_arg12 main_arg13 main_v48 main_v49 main_v50

def fn_part1 {F : FTy → Type} [FloatOps F] (main_arg0 : IVec S1 32) (main_arg5 : FVec F S512 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1024x2048 .f32 := Host.absf main_arg6
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg0 main_arg8 main_arg9 main_arg10 main_arg11 main_arg12 main_arg13 main_v33

def fn {F : FTy → Type} [FloatOps F] (main_arg0 : IVec S1 32) (main_arg1 : FVec F S1x1x1024 .f32) (main_arg2 : FVec F S512x1024 .f32) (main_arg3 : FVec F S50257x1024 .f32) (main_arg4 : FVec F S512x2048 .f32) (main_arg5 : FVec F S512 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S512x1024 .f32 := Host.absf main_arg2
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S50257x1024 .f32 := Host.absf main_arg3
  let main_cst_2 : FVec F S_ .f32 := constant S_ .f32 0x7F800000#32
  let main_v10 : FVec F S50257x1024 .f32 := broadcastInDim S50257x1024 ![] bcast_S_S50257x1024 main_cst_2
  let main_v11 : IVec S50257x1024 1 := cmpf .olt main_v9 main_v10
  let main_c_3 : IVec S_ 1 := constantI S_ 1 1#1
  let main_v12 : IVec S_ 1 := (fun x v => Host.reduce IntOp.andi x v reducesTo_S50257x1024_S_d0_1 h_S_) main_v11 main_c_3
  let main_v13 : IVec S_ 1 := andi main_v8 main_v12
  let main_v14 : FVec F S512x2048 .f32 := Host.absf main_arg4
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_arg0 main_arg5 main_arg6 main_arg7 main_arg8 main_arg9 main_arg10 main_arg11 main_arg12 main_arg13 main_v13 main_v16
-- ==== Kernel.lean ====
abbrev S1 : Shape := ⟨1, ![1]⟩
abbrev S1x1x1024 : Shape := ⟨3, ![1, 1, 1024]⟩
abbrev S512x1024 : Shape := ⟨2, ![512, 1024]⟩
abbrev S50257x1024 : Shape := ⟨2, ![50257, 1024]⟩
abbrev S512x2048 : Shape := ⟨2, ![512, 2048]⟩
abbrev S512 : Shape := ⟨1, ![512]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x512 : Shape := ⟨2, ![1, 512]⟩
abbrev S1x3072 : Shape := ⟨2, ![1, 3072]⟩
abbrev S1x50257 : Shape := ⟨2, ![1, 50257]⟩
abbrev S1x2048 : Shape := ⟨2, ![1, 2048]⟩

abbrev nBuf : Space → Nat
  | .hbm => 61
  | .vmem => 20
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S512x1024, .f32⟩
  | .hbm, ⟨3, _⟩ => ⟨S50257x1024, .f32⟩
  | .hbm, ⟨4, _⟩ => ⟨S512x2048, .f32⟩
  | .hbm, ⟨5, _⟩ => ⟨S512, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1, .i32⟩
  | .hbm, ⟨23, _⟩ => ⟨S_, .i32⟩
  | .hbm, ⟨24, _⟩ => ⟨S1x1, .i32⟩
  | .hbm, ⟨25, _⟩ => ⟨S1x1, .i1⟩
  | .hbm, ⟨26, _⟩ => ⟨S1x1, .i32⟩
  | .hbm, ⟨27, _⟩ => ⟨S1x1, .i1⟩
  | .hbm, ⟨28, _⟩ => ⟨S1x1, .i1⟩
  | .hbm, ⟨29, _⟩ => ⟨S_, .i1⟩
  | .hbm, ⟨30, _⟩ => ⟨S1, .i1⟩
  | .hbm, ⟨31, _⟩ => ⟨S1x1024, .f32⟩
  | .hbm, ⟨32, _⟩ => ⟨S1x1024, .i1⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x512, .f32⟩
  | .hbm, ⟨38, _⟩ => ⟨S1x1024, .f32⟩
  | .hbm, ⟨39, _⟩ => ⟨S1x3072, .f32⟩
  | .hbm, ⟨40, _⟩ => ⟨S1x3072, .f32⟩
  | .hbm, ⟨41, _⟩ => ⟨S1x50257, .f32⟩
  | .hbm, ⟨42, _⟩ => ⟨S1x512, .f32⟩
  | .hbm, ⟨43, _⟩ => ⟨S1x1024, .f32⟩
  | .hbm, ⟨44, _⟩ => ⟨S1x50257, .f32⟩
  | .hbm, ⟨45, _⟩ => ⟨S_, .f32⟩
  | .hbm, ⟨46, _⟩ => ⟨S1, .f32⟩
  | .hbm, ⟨47, _⟩ => ⟨S_, .f32⟩
  | .hbm, ⟨48, _⟩ => ⟨S1, .f32⟩
  | .hbm, ⟨49, _⟩ => ⟨S1, .f32⟩
  | .hbm, ⟨50, _⟩ => ⟨S1x1, .f32⟩
  | .hbm, ⟨51, _⟩ => ⟨S1x50257, .f32⟩
  | .hbm, ⟨52, _⟩ => ⟨S1x50257, .f32⟩
  | .hbm, ⟨53, _⟩ => ⟨S1x50257, .f32⟩
  | .hbm, ⟨54, _⟩ => ⟨S_, .f32⟩
  | .hbm, ⟨55, _⟩ => ⟨S1, .f32⟩
  | .hbm, ⟨56, _⟩ => ⟨S1x1, .f32⟩
  | .hbm, ⟨57, _⟩ => ⟨S1x1, .f32⟩
  | .hbm, ⟨58, _⟩ => ⟨S1x50257, .f32⟩
  | .hbm, ⟨59, _⟩ => ⟨S1x50257, .f32⟩
  | .hbm, ⟨60, _⟩ => ⟨S1x1x1024, .f32⟩
  | .local _ .vmem, ⟨0, _⟩ => ⟨S1x1024, .f32⟩
  | .local _ .vmem, ⟨1, _⟩ => ⟨S1x1024, .f32⟩
  | .local _ .vmem, ⟨2, _⟩ => ⟨S512x1024, .f32⟩
  | .local _ .vmem, ⟨3, _⟩ => ⟨S512x2048, .f32⟩
  | .local _ .vmem, ⟨4, _⟩ => ⟨S1x512, .f32⟩
  | .local _ .vmem, ⟨5, _⟩ => ⟨S1024x2048, .f32⟩
  | .local _ .vmem, ⟨6, _⟩ => ⟨S1x1024, .f32⟩
  | .local _ .vmem, ⟨7, _⟩ => ⟨S3072x1024, .f32⟩
  | .local _ .vmem, ⟨8, _⟩ => ⟨S3072x1024, .f32⟩
  | .local _ .vmem, ⟨9, _⟩ => ⟨S1x3072, .f32⟩
  | .local _ .vmem, ⟨10, _⟩ => ⟨S1x3072, .f32⟩
  | .local _ .vmem, ⟨11, _⟩ => ⟨S1x512, .f32⟩
  | .local _ .vmem, ⟨12, _⟩ => ⟨S1x1024, .f32⟩
  | .local _ .vmem, ⟨13, _⟩ => ⟨S1x1024, .f32⟩
  | .local _ .vmem, ⟨14, _⟩ => ⟨S3072x1024, .f32⟩
  | .local _ .vmem, ⟨15, _⟩ => ⟨S3072x1024, .f32⟩
  | .local _ .vmem, ⟨16, _⟩ => ⟨S1x3072, .f32⟩
  | .local _ .vmem, ⟨17, _⟩ => ⟨S1x3072, .f32⟩
  | .local _ .vmem, ⟨18, _⟩ => ⟨S1x3072, .f32⟩
  | .local _ .vmem, ⟨19, _⟩ => ⟨S1x3072, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_c_3 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_cst : Ref sig .tc := ⟨.hbm, 33, rfl⟩
abbrev main_call0_v14 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7_0 : Ref sig .tc := ⟨.hbm, 42, rfl⟩
abbrev main_v7_1 : Ref sig .tc := ⟨.hbm, 43, rfl⟩
abbrev main_v8 : Ref sig .tc := ⟨.hbm, 44, rfl⟩
abbrev main_call1_cst : Ref sig .tc := ⟨.hbm, 45, rfl⟩
abbrev main_call1_v0 : Ref sig .tc := ⟨.hbm, 46, rfl⟩
abbrev main_call1_cst_0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_cst_1 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_v9 : Ref sig .tc := ⟨.hbm, 59, rfl⟩
abbrev main_v10 : Ref sig .tc := ⟨.hbm, 60, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc1_sem0_0 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3072x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3072x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev grid1 : Pipeline.Grid := ⟨1, ![17], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S3072x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x3072 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x3072 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1 : S_.BroadcastsInDim S1 (![] : Fin 0 → Fin S1.rank)
  bcast_S1_S1x1_0 : S1.BroadcastsInDim S1x1 (![0] : Fin 1 → Fin S1x1.rank)
  bcast_S_S1x1 : S_.BroadcastsInDim S1x1 (![] : Fin 0 → Fin S1x1.rank)
  bcast_S1_S1x1_1 : S1.BroadcastsInDim S1x1 (![1] : Fin 1 → Fin S1x1.rank)
  reducesTo_S1x1_S1_d1 : S1x1.ReducesTo [1] S1
  h_S_ : 0 < S_.numel
  bcast_S1_S1x1024_0 : S1.BroadcastsInDim S1x1024 (![0] : Fin 1 → Fin S1x1024.rank)
  bcast_S_S1x1024 : S_.BroadcastsInDim S1x1024 (![] : Fin 0 → Fin S1x1024.rank)
  shapeCasts_S1x1x1024_S1x1024 : S1x1x1024.ShapeCasts S1x1024
  shapeCasts_S512_S1x512 : S512.ShapeCasts S1x512
  shapeCasts_S1024_S1x1024 : S1024.ShapeCasts S1x1024
  shapeCasts_S3072_S1x3072 : S3072.ShapeCasts S1x3072
  shapeCasts_S50257_S1x50257 : S50257.ShapeCasts S1x50257
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  concatenates_S1x1024_S1x1024_S1x2048_d1 : Shape.Concatenates [S1x1024, S1x1024] S1x2048 1
  inb_S512x2048_S512x2048_0_0 : ∀ a, (![0, 0] : Fin 2 → Nat) a + S512x2048.size a ≤ S512x2048.size a
  h_S512x2048 : 0 < S512x2048.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  bitsLt_bf16_f32 : FTy.bits .bf16 < FTy.bits .f32
  reduces_S1x512_S1 : S1x512.Reduces [1] S1
  shapeCasts_S1_S1x1 : S1.ShapeCasts S1x1
  broadcasts_S1x1_S1x512 : S1x1.Broadcasts S1x512
  inb_S512x1024_S512x1024_0_0 : ∀ a, (![0, 0] : Fin 2 → Nat) a + S512x1024.size a ≤ S512x1024.size a
  h_S512x1024 : 0 < S512x1024.numel
  inb_S1024x2048_S1024x2048_0_0 : ∀ a, (![0, 0] : Fin 2 → Nat) a + S1024x2048.size a ≤ S1024x2048.size a
  h_S1024x2048 : 0 < S1024x2048.numel
  inb_S3072x1024_S3072x1024_0_0 : ∀ a, (![0, 0] : Fin 2 → Nat) a + S3072x1024.size a ≤ S3072x1024.size a
  h_S3072x1024 : 0 < S3072x1024.numel
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  slices_S1x3072_o0_0_S1x1024 : S1x3072.Slices ![0, 0] S1x1024
  slices_S1x3072_o0_1024_S1x1024 : S1x3072.Slices ![0, 1024] S1x1024
  slices_S1x3072_o0_2048_S1x1024 : S1x3072.Slices ![0, 2048] S1x1024
  iota_S1x3072_d1_w32 : S1x3072.Iotas .tc 32 [1]
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x2048_S512x2048_S1x512_1_1_0_0_n_n_wf : DotDims.WF S1x2048 S512x2048 S1x512 [1] [1] [0] [0] [] []
  dot_S1x512_S512x1024_S1x1024_1_0_0_1_n_n_wf : DotDims.WF S1x512 S512x1024 S1x1024 [1] [0] [0] [1] [] []
  dot_S1x2048_S1024x2048_S1x1024_1_1_0_0_n_n_wf : DotDims.WF S1x2048 S1024x2048 S1x1024 [1] [1] [0] [0] [] []
  dot_S1x1024_S3072x1024_S1x3072_1_1_0_0_n_n_wf : DotDims.WF S1x1024 S3072x1024 S1x3072 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .f32 = 32 ∨ (Rect.block (s := S512x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .f32 = 32 ∨ (Rect.block (s := S512x2048) S512x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .f32 = 32 ∨ (Rect.block (s := S1024x2048) S1024x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3072x1024.size a ≤ S3072x1024.size a
  hwx0_7 : ∀ i : grid0.Coords, EltTy.bits .f32 = 32 ∨ (Rect.block (s := S3072x1024) S3072x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3072x1024.size a ≤ S3072x1024.size a
  hwx0_8 : ∀ i : grid0.Coords, EltTy.bits .f32 = 32 ∨ (Rect.block (s := S3072x1024) S3072x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x3072.size a ≤ S1x3072.size a
  hwx0_9 : ∀ i : grid0.Coords, EltTy.bits .f32 = 32 ∨ (Rect.block (s := S1x3072) S1x3072.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x3072.size a ≤ S1x3072.size a
  hwx0_10 : ∀ i : grid0.Coords, EltTy.bits .f32 = 32 ∨ (Rect.block (s := S1x3072) S1x3072.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x1024.size a
  hwx1_0 : ∀ i : grid1.Coords, EltTy.bits .f32 = 32 ∨ (Rect.block (s := S1x1024) S1x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S3072x1024.size a < S50257x1024.size a
  hwx1_1 : ∀ i : grid1.Coords, EltTy.bits .f32 = 32 ∨ (Rect.unit (s := S50257x1024) (fun a => cc1_transform_1 i a * S3072x1024.size a) (fun a => (Pipeline.Clip.of (cc1_transform_1 i a) (S3072x1024.size a) (S50257x1024.size a)).extent (S3072x1024.size a)) fun a => Pipeline.Clip.inb (Pipeline.Clip.ok_of (hstart1_1 i a))).WholeWords (EltTy.packing .f32)
  hwxs1_1 : ∀ i : grid1.Coords, EltTy.bits .f32 = 32 ∨ (Rect.unit (s := S3072x1024) (fun _ => 0) (fun a => (Pipeline.Clip.of (cc1_transform_1 i a) (S3072x1024.size a) (S50257x1024.size a)).extent (S3072x1024.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1x3072.size a < S1x50257.size a
  hwx1_2 : ∀ i : grid1.Coords, EltTy.bits .f32 = 32 ∨ (Rect.unit (s := S1x50257) (fun a => cc1_transform_2 i a * S1x3072.size a) (fun a => (Pipeline.Clip.of (cc1_transform_2 i a) (S1x3072.size a) (S1x50257.size a)).extent (S1x3072.size a)) fun a => Pipeline.Clip.inb (Pipeline.Clip.ok_of (hstart1_2 i a))).WholeWords (EltTy.packing .f32)
  hwxs1_2 : ∀ i : grid1.Coords, EltTy.bits .f32 = 32 ∨ (Rect.unit (s := S1x3072) (fun _ => 0) (fun a => (Pipeline.Clip.of (cc1_transform_2 i a) (S1x3072.size a) (S1x50257.size a)).extent (S1x3072.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S1x3072.size a < S1x50257.size a
  hwx1_3 : ∀ i : grid1.Coords, EltTy.bits .f32 = 32 ∨ (Rect.unit (s := S1x50257) (fun a => cc1_transform_3 i a * S1x3072.size a) (fun a => (Pipeline.Clip.of (cc1_transform_3 i a) (S1x3072.size a) (S1x50257.size a)).extent (S1x3072.size a)) fun a => Pipeline.Clip.inb (Pipeline.Clip.ok_of (hstart1_3 i a))).WholeWords (EltTy.packing .f32)
  hwxs1_3 : ∀ i : grid1.Coords, EltTy.bits .f32 = 32 ∨ (Rect.unit (s := S1x3072) (fun _ => 0) (fun a => (Pipeline.Clip.of (cc1_transform_3 i a) (S1x3072.size a) (S1x50257.size a)).extent (S1x3072.size a)) fun a => (Nat.zero_add _).trans_le (Pipeline.Clip.extent_le (Pipeline.Clip.ok_of (hstart1_3 i a)))).WholeWords (EltTy.packing .f32)

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S512x2048_S1x512_1_1_0_0_n_n : DotDims S1x2048 S512x2048 S1x512 where
  lhsContracting := [1]
  rhsContracting := [1]
  lhsNonContracting := [0]
  rhsNonContracting := [0]
  lhsBatch := []
  rhsBatch := []
  wf := dot_S1x2048_S512x2048_S1x512_1_1_0_0_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf
def dot_S1x2048_S1024x2048_S1x1024_1_1_0_0_n_n : DotDims S1x2048 S1024x2048 S1x1024 where
  lhsContracting := [1]
  rhsContracting := [1]
  lhsNonContracting := [0]
  rhsNonContracting := [0]
  lhsBatch := []
  rhsBatch := []
  wf := dot_S1x2048_S1024x2048_S1x1024_1_1_0_0_n_n_wf
def dot_S1x1024_S3072x1024_S1x3072_1_1_0_0_n_n : DotDims S1x1024 S3072x1024 S1x3072 where
  lhsContracting := [1]
  rhsContracting := [1]
  lhsNonContracting := [0]
  rhsNonContracting := [0]
  lhsBatch := []
  rhsBatch := []
  wf := dot_S1x1024_S3072x1024_S1x3072_1_1_0_0_n_n_wf

abbrev win0_0 : Pipeline.Window sig grid0 :=
  Pipeline.Window.ofSpec (Memref.whole main_v0) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1024x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S3072x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S3072x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x3072.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1x3072.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v7_0) S1x512.size cc0_transform_11 reads0_11 true true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7_1) S1x1024.size cc0_transform_12 reads0_12 true true 1 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v7_1) S1x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_arg12) S3072x1024.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v6) S1x3072.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v8) S1x3072.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1 : Shape := ⟨1, ![1]⟩
abbrev S1x1x1024 : Shape := ⟨3, ![1, 1, 1024]⟩
abbrev S512x1024 : Shape := ⟨2, ![512, 1024]⟩
abbrev S50257x1024 : Shape := ⟨2, ![50257, 1024]⟩
abbrev S512x2048 : Shape := ⟨2, ![512, 2048]⟩
abbrev S512 : Shape := ⟨1, ![512]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x2048 : Shape := ⟨2, ![1, 2048]⟩
abbrev S2048x512 : Shape := ⟨2, ![2048, 512]⟩
abbrev S1x512 : Shape := ⟨2, ![1, 512]⟩
abbrev S2048x1024 : Shape := ⟨2, ![2048, 1024]⟩
abbrev S1024x3072 : Shape := ⟨2, ![1024, 3072]⟩
abbrev S1x3072 : Shape := ⟨2, ![1, 3072]⟩
abbrev S1024x50257 : Shape := ⟨2, ![1024, 50257]⟩
abbrev S1x50257 : Shape := ⟨2, ![1, 50257]⟩

abbrev nBuf : Space → Nat
  | .hbm => 113
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S512x1024, .f32⟩
  | .hbm, ⟨3, _⟩ => ⟨S50257x1024, .f32⟩
  | .hbm, ⟨4, _⟩ => ⟨S512x2048, .f32⟩
  | .hbm, ⟨5, _⟩ => ⟨S512, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x1024, .f32⟩
  | .hbm, ⟨23, _⟩ => ⟨S1x1024, .f32⟩
  | .hbm, ⟨24, _⟩ => ⟨S1x2048, .f32⟩
  | .hbm, ⟨25, _⟩ => ⟨S2048x512, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S1x1, .f32⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S_, .f32⟩
  | .hbm, ⟨39, _⟩ => ⟨S1, .f32⟩
  | .hbm, ⟨40, _⟩ => ⟨S1x1, .f32⟩
  | .hbm, ⟨41, _⟩ => ⟨S1x512, .f32⟩
  | .hbm, ⟨42, _⟩ => ⟨S1x512, .f32⟩
  | .hbm, ⟨43, _⟩ => ⟨S1x1024, .f32⟩
  | .hbm, ⟨44, _⟩ => ⟨S1x2048, .f32⟩
  | .hbm, ⟨45, _⟩ => ⟨S2048x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S1024x3072, .f32⟩
  | .hbm, ⟨53, _⟩ => ⟨S1x3072, .f32⟩
  | .hbm, ⟨54, _⟩ => ⟨S1x3072, .f32⟩
  | .hbm, ⟨55, _⟩ => ⟨S1x3072, .f32⟩
  | .hbm, ⟨56, _⟩ => ⟨S1024x3072, .f32⟩
  | .hbm, ⟨57, _⟩ => ⟨S1x3072, .f32⟩
  | .hbm, ⟨58, _⟩ => ⟨S1x3072, .f32⟩
  | .hbm, ⟨59, _⟩ => ⟨S1x3072, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S_, .f32⟩
  | .hbm, ⟨70, _⟩ => ⟨S1x1024, .f32⟩
  | .hbm, ⟨71, _⟩ => ⟨S1x1024, .f32⟩
  | .hbm, ⟨72, _⟩ => ⟨S_, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S_, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S1024x50257, .f32⟩
  | .hbm, ⟨94, _⟩ => ⟨S1x50257, .f32⟩
  | .hbm, ⟨95, _⟩ => ⟨S1x50257, .f32⟩
  | .hbm, ⟨96, _⟩ => ⟨S1x50257, .f32⟩
  | .hbm, ⟨97, _⟩ => ⟨S_, .f32⟩
  | .hbm, ⟨98, _⟩ => ⟨S1, .f32⟩
  | .hbm, ⟨99, _⟩ => ⟨S_, .f32⟩
  | .hbm, ⟨100, _⟩ => ⟨S1, .f32⟩
  | .hbm, ⟨101, _⟩ => ⟨S1, .f32⟩
  | .hbm, ⟨102, _⟩ => ⟨S1x1, .f32⟩
  | .hbm, ⟨103, _⟩ => ⟨S1x50257, .f32⟩
  | .hbm, ⟨104, _⟩ => ⟨S1x50257, .f32⟩
  | .hbm, ⟨105, _⟩ => ⟨S1x50257, .f32⟩
  | .hbm, ⟨106, _⟩ => ⟨S_, .f32⟩
  | .hbm, ⟨107, _⟩ => ⟨S1, .f32⟩
  | .hbm, ⟨108, _⟩ => ⟨S1x1, .f32⟩
  | .hbm, ⟨109, _⟩ => ⟨S1x1, .f32⟩
  | .hbm, ⟨110, _⟩ => ⟨S1x50257, .f32⟩
  | .hbm, ⟨111, _⟩ => ⟨S1x50257, .f32⟩
  | .hbm, ⟨112, _⟩ => ⟨S1x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call0_cst : Ref sig .tc := ⟨.hbm, 49, rfl⟩
abbrev main_call0_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_3 : Ref sig .tc := ⟨.hbm, 69, rfl⟩
abbrev main_v48 : Ref sig .tc := ⟨.hbm, 70, rfl⟩
abbrev main_v49 : Ref sig .tc := ⟨.hbm, 71, rfl⟩
abbrev main_cst_4 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_5 : Ref sig .tc := ⟨.hbm, 78, rfl⟩
abbrev main_v55 : Ref sig .tc := ⟨.hbm, 79, rfl⟩
abbrev main_v56 : Ref sig .tc := ⟨.hbm, 80, rfl⟩
abbrev main_cst_6 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_7 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_call1_cst : Ref sig .tc := ⟨.hbm, 97, rfl⟩
abbrev main_call1_v0 : Ref sig .tc := ⟨.hbm, 98, rfl⟩
abbrev main_call1_cst_0 : Ref sig .tc := ⟨.hbm, 99, rfl⟩
abbrev main_call1_v1 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_call1_v5 : Ref sig .tc := ⟨.hbm, 104, rfl⟩
abbrev main_call1_v6 : Ref sig .tc := ⟨.hbm, 105, rfl⟩
abbrev main_call1_cst_1 : Ref sig .tc := ⟨.hbm, 106, rfl⟩
abbrev main_call1_v7 : Ref sig .tc := ⟨.hbm, 107, rfl⟩
abbrev main_call1_v8 : Ref sig .tc := ⟨.hbm, 108, rfl⟩
abbrev main_call1_v9 : Ref sig .tc := ⟨.hbm, 109, rfl⟩
abbrev main_call1_v10 : Ref sig .tc := ⟨.hbm, 110, rfl⟩
abbrev main_v71 : Ref sig .tc := ⟨.hbm, 111, rfl⟩
abbrev main_v72 : Ref sig .tc := ⟨.hbm, 112, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x1024_S1x1024 : S1x1x1024.ShapeCasts S1x1024
  concatenates_S1x1024_S1x1024_S1x2048_d1 : Shape.Concatenates [S1x1024, S1x1024] S1x2048 1
  transposes_S512x2048_S2048x512_1_0 : S512x2048.Transposes [1, 0] S2048x512
  bcast_S512_S1x512_1 : S512.BroadcastsInDim S1x512 (![1] : Fin 1 → Fin S1x512.rank)
  reducesTo_S1x512_S1_d1 : S1x512.ReducesTo [1] S1
  h_S_ : 0 < S_.numel
  bcast_S1x1_S1x512_0_1 : S1x1.BroadcastsInDim S1x512 (![0, 1] : Fin 2 → Fin S1x512.rank)
  transposes_S1024x2048_S2048x1024_1_0 : S1024x2048.Transposes [1, 0] S2048x1024
  bcast_S1024_S1x1024_1 : S1024.BroadcastsInDim S1x1024 (![1] : Fin 1 → Fin S1x1024.rank)
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  transposes_S50257x1024_S1024x50257_1_0 : S50257x1024.Transposes [1, 0] S1024x50257
  bcast_S50257_S1x50257_1 : S50257.BroadcastsInDim S1x50257 (![1] : Fin 1 → Fin S1x50257.rank)
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x2048_S2048x512_S1x512_1_0_0_1_n_n_wf : DotDims.WF S1x2048 S2048x512 S1x512 [1] [0] [0] [1] [] []
  dot_S1x512_S512x1024_S1x1024_1_0_0_1_n_n_wf : DotDims.WF S1x512 S512x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S1024x50257_S1x50257_1_0_0_1_n_n_wf : DotDims.WF S1x1024 S1024x50257 S1x50257 [1] [0] [0] [1] [] []

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S2048x512_S1x512_1_0_0_1_n_n : DotDims S1x2048 S2048x512 S1x512 where
  lhsContracting := [1]
  rhsContracting := [0]
  lhsNonContracting := [0]
  rhsNonContracting := [1]
  lhsBatch := []
  rhsBatch := []
  wf := dot_S1x2048_S2048x512_S1x512_1_0_0_1_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x50257_S1x50257_1_0_0_1_n_n : DotDims S1x1024 S1024x50257 S1x50257 where
  lhsContracting := [1]
  rhsContracting := [0]
  lhsNonContracting := [0]
  rhsNonContracting := [1]
  lhsBatch := []
  rhsBatch := []
  wf := dot_S1x1024_S1024x50257_S1x50257_1_0_0_1_n_n_wf

class Facts : Prop extends Facts₀ where

variable [Facts]
-- ==== Proof.KBody.lean ====
/-
  The two kernel bodies run on whole staging buffers. The first call's body loads eleven whole blocks, computes the
  attention weights and the new hidden row, and stores each over its whole output buffer; the second call's body loads
  the hidden row, a tile of 3072 rows of the vocabulary matrix and 3072 biases and stores the 3072 projected columns
  (those at or past column 50257 replaced by a filler) over its whole output buffer. Each output buffer therefore ends
  holding one pure function of the loaded blocks, the inputs' buffers unchanged.
-/
import proofs.«421128_j85564338471302_3_alg».proof.Proof.Gen.Kernel.Launch
import proofs.«421128_j85564338471302_3_alg».proof.Proof.Gen.Kernel.Skeleton
import proofs.«421128_j85564338471302_3_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the bodies load and store through -/

abbrev rA : Rect S1x1024 := (Rect.unit (s := S1x1024) ![0, 0] S1x1024.size inb_S1x1024_S1x1024_0_0)
abbrev rEnc : Rect S512x1024 := (Rect.unit (s := S512x1024) ![0, 0] S512x1024.size inb_S512x1024_S512x1024_0_0)
abbrev rAw : Rect S512x2048 := (Rect.unit (s := S512x2048) ![0, 0] S512x2048.size inb_S512x2048_S512x2048_0_0)
abbrev rL : Rect S1x512 := (Rect.unit (s := S1x512) ![0, 0] S1x512.size inb_S1x512_S1x512_0_0)
abbrev rCw : Rect S1024x2048 := (Rect.unit (s := S1024x2048) ![0, 0] S1024x2048.size inb_S1024x2048_S1024x2048_0_0)
abbrev rG : Rect S3072x1024 := (Rect.unit (s := S3072x1024) ![0, 0] S3072x1024.size inb_S3072x1024_S3072x1024_0_0)
abbrev rB : Rect S1x3072 := (Rect.unit (s := S1x3072) ![0, 0] S1x3072.size inb_S1x3072_S1x3072_0_0)

/-! ## The first call -/

/-- The attention-weights buffer after the body: its one whole store, over the loaded embedded row, hidden row,
    attention matrix and attention bias. -/
def attnBuf (x0 x1 : Vec F S1x1024 .f32) (x3 : Vec F S512x2048 .f32) (x4 : Vec F S1x512 .f32) : Vec F S1x512 .f32 :=
  View.canon [⟨rL, k0_pay4 (View.ld x0 rA) (View.ld x1 rA) (View.ld x3 rAw) (View.ld x4 rL)⟩]

/-- The hidden-row buffer after the body: its one whole store, over all eleven loaded blocks. -/
def hidBuf (x0 : Vec F S1x1024 .f32) (x1 : Vec F S1x1024 .f32) (x2 : Vec F S512x1024 .f32) (x3 : Vec F S512x2048 .f32) (x4 : Vec F S1x512 .f32) (x5 : Vec F S1024x2048 .f32) (x6 : Vec F S1x1024 .f32) (x7 : Vec F S3072x1024 .f32) (x8 : Vec F S3072x1024 .f32) (x9 : Vec F S1x3072 .f32) (x10 : Vec F S1x3072 .f32) : Vec F S1x1024 .f32 :=
  View.canon [⟨rA, k0_pay1 (k0_pay3 (View.ld x1 rA))
      (k0_pay5 (View.ld x0 rA) (View.ld x1 rA) (View.ld x3 rAw) (View.ld x4 rL) (View.ld x2 rEnc) (View.ld x5 rCw) (View.ld x6 rA))
      (View.ld x7 rG) (View.ld x9 rB) (View.ld x8 rG) (View.ld x10 rB)⟩]

theorem coverL (p0 : Vec F S1x512 .f32) (y : S1x512.Idx) :
    ∃ pc ∈ ([⟨rL, p0⟩] : List (View.Piece (Elt F) S1x512 .f32)), y ∈ pc.1.set :=
  View.cover_of_tiled [⟨rL, p0⟩] S1x512.size (by rfl) y

theorem coverA (p0 : Vec F S1x1024 .f32) (y : S1x1024.Idx) :
    ∃ pc ∈ ([⟨rA, p0⟩] : List (View.Piece (Elt F) S1x1024 .f32)), y ∈ pc.1.set :=
  View.cover_of_tiled [⟨rA, p0⟩] S1x1024.size (by rfl) y

theorem coverB (p0 : Vec F S1x3072 .f32) (y : S1x3072.Idx) :
    ∃ pc ∈ ([⟨rB, p0⟩] : List (View.Piece (Elt F) S1x3072 .f32)), y ∈ pc.1.set :=
  View.cover_of_tiled [⟨rB, p0⟩] S1x3072.size (by rfl) y

set_option maxHeartbeats 4000000 in
/-- The first call's body on whole staging buffers: the eleven inputs' buffers read and left as they were, the two
    outputs' buffers, whatever they held, left at `attnBuf` and `hidBuf` of the inputs. -/
theorem sound_kernel0 (c : Dev nD) (E : Set ℕ) (i : grid0.Coords) (arg1 : Memref sig .tc .vmem S1x1024 .f32) (harg1 : arg1.IsWhole) (arg2 : Memref sig .tc .vmem S1x1024 .f32) (harg2 : arg2.IsWhole) (arg3 : Memref sig .tc .vmem S512x1024 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S1024x2048 .f32) (harg6 : arg6.IsWhole) (arg7 : Memref sig .tc .vmem S1x1024 .f32) (harg7 : arg7.IsWhole) (arg8 : Memref sig .tc .vmem S3072x1024 .f32) (harg8 : arg8.IsWhole) (arg9 : Memref sig .tc .vmem S3072x1024 .f32) (harg9 : arg9.IsWhole) (arg10 : Memref sig .tc .vmem S1x3072 .f32) (harg10 : arg10.IsWhole) (arg11 : Memref sig .tc .vmem S1x3072 .f32) (harg11 : arg11.IsWhole) (arg12 : Memref sig .tc .vmem S1x512 .f32) (harg12 : arg12.IsWhole) (arg13 : Memref sig .tc .vmem S1x1024 .f32) (harg13 : arg13.IsWhole)
    (x0 : Vec F S1x1024 .f32) (x1 : Vec F S1x1024 .f32) (x2 : Vec F S512x1024 .f32) (x3 : Vec F S512x2048 .f32) (x4 : Vec F S1x512 .f32) (x5 : Vec F S1024x2048 .f32) (x6 : Vec F S1x1024 .f32) (x7 : Vec F S3072x1024 .f32) (x8 : Vec F S3072x1024 .f32) (x9 : Vec F S1x3072 .f32) (x10 : Vec F S1x3072 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
        ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ owns (c : Thread nD τ) arg12 fullShare (attnBuf x0 x1 x3 x4)
            ∗ owns (c : Thread nD τ) arg13 fullShare (hidBuf x0 x1 x2 x3 x4 x5 x6 x7 x8 x9 x10)) -∗ K ⟨⟩))
      ⊢ wp frame (wpE (defs₀ (F := F)) Variants.none c none) E (cc0__abc_body i arg1 harg1 arg2 harg2 arg3 harg3 arg4 harg4 arg5 harg5 arg6 harg6 arg7 harg7 arg8 harg8 arg9 harg9 arg10 harg10 arg11 harg11 arg12 harg12 arg13 harg13) K := by
  simp only [cc0__abc_body_eq_skeleton]; unfold cc0__abc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (coverL _)
  iexists _; isplitr
  swap; · iexact H12
  ipureintro
  exact View.read_writes_eq_canon _ _ _ (coverA _)

/-! ## The second call -/

/-- The projected-columns buffer after the body at tile `i`: its one whole store, over the loaded hidden row, tile
    and biases. -/
def projBuf (i : grid1.Coords) (x0 : Vec F S1x1024 .f32) (x1 : Vec F S3072x1024 .f32) (x2 : Vec F S1x3072 .f32) : Vec F S1x3072 .f32 :=
  View.canon [⟨rB, k1_pay1 i (View.ld x0 rA) (View.ld x1 rG) (View.ld x2 rB)⟩]

set_option maxHeartbeats 4000000 in
/-- The second call's body on whole staging buffers: the three inputs' buffers read and left as they were, the
    output's buffer, whatever it held, left at `projBuf` of the inputs. -/
theorem sound_kernel1 (c : Dev nD) (E : Set ℕ) (i : grid1.Coords)
    (arg1 : Memref sig .tc .vmem S1x1024 .f32) (harg1 : arg1.IsWhole) (arg2 : Memref sig .tc .vmem S3072x1024 .f32) (harg2 : arg2.IsWhole)
    (arg3 : Memref sig .tc .vmem S1x3072 .f32) (harg3 : arg3.IsWhole) (arg4 : Memref sig .tc .vmem S1x3072 .f32) (harg4 : arg4.IsWhole)
    (x0 : Vec F S1x1024 .f32) (x1 : Vec F S3072x1024 .f32) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (projBuf i x0 x1 x2)) -∗ K ⟨⟩))
      ⊢ wp frame (wpE (defs₀ (F := F)) Variants.none c none) E (cc1__out_proj_body i arg1 harg1 arg2 harg2 arg3 harg3 arg4 harg4) K := by
  simp only [cc1__out_proj_body_eq_skeleton]; unfold cc1__out_proj_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverB _)

end Cert.Kernel.Hand

end
-- ==== Proof.KData.lean ====
/-
  The proof data of the two calls, at whatever the unscoped buffers hold when a call is entered. A window's block at a
  grid point is its array read through the block's rectangle, cut at the array's end where the tile overhangs it.
  First call (one point, every block whole): each input's buffer holds its block, each output's what the body stores.
  Second call (17 tiles of 3072 vocabulary rows; the last tile overhangs the 50257 rows): the matrix's and the biases'
  buffers hold their blocks on the rows inside the array and words nobody names past it; the projected columns that
  are written back are those inside the array, and they do not depend on the unnamed words when each stored column is a
  function of its own matrix row and bias alone (`RowIndep`).
-/
import proofs.«421128_j85564338471302_3_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first call -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The arrays as the call finds them; after the body each input's buffer at its block, the two outputs' at the
    attention weights and the new hidden row of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => attnBuf (iblk0 V c 0 t) (iblk0 V c 1 t) (iblk0 V c 3 t) (iblk0 V c 4 t)
    | ⟨12, _⟩ => hidBuf (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = attnBuf (iblk0 V c 0 t) (iblk0 V c 1 t) (iblk0 V c 3 t) (iblk0 V c 4 t) := by dsimp only [dat0]
theorem after0_12 (c : Dev nD) (t : Fin cfg0.N) : (dat0 V c).after 12 t = hidBuf (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl) (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl) (fun t => by rw [after0_8]; unfold Dat.blockOf iblk0; rw [A_eq0]; try rfl) t d).trans
    (by unfold Dat.fetched Dat.blockOf iblk0; rw [A_eq0]; try rfl)
theorem before0_9 (c : Dev nD) (t : Fin cfg0.N) (d) : (dat0 V c).before 9 t d = iblk0 V c 9 t :=
  ((dat0 V c).before_in_eq_fetched 9 rfl (fun _ => rfl) (fun _ _ _ => rfl) (fun t => by rw [after0_9]; unfold Dat.blockOf iblk0; rw [A_eq0]; try rfl) t d).trans
    (by unfold Dat.fetched Dat.blockOf iblk0; rw [A_eq0]; try rfl)
theorem before0_10 (c : Dev nD) (t : Fin cfg0.N) (d) : (dat0 V c).before 10 t d = iblk0 V c 10 t :=
  ((dat0 V c).before_in_eq_fetched 10 rfl (fun _ => rfl) (fun _ _ _ => rfl) (fun t => by rw [after0_10]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel0 c Set.univ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's body obligation for the first call, at every point. -/
theorem body_obligation0 (c : Dev nD) : BodyObligation (dat0 (F := F) V c) (defs₀ (F := F)) Variants.none () Set.univ := fun t => by
  rw [bigSep_W0, bigSep_W0]
  exact sound_body0 V c t

/-! # The second call -/

/-- Window `w`'s block at tile `t`: its array read through the tile's rectangle, cut at the array's end. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The matrix tile as the proof names it: the rows inside the array, the zero word past them. -/
def wblk (c : Dev nD) (t : Fin cfg1.N) : S3072x1024.Idx → Elt F .f32 :=
  win1_1.fill (grid1.coords t) (fun _ => Scalar.ofBits .f32 0#32) (iblk1 V c 1 t)
/-- The biases of the tile likewise. -/
def bblk (c : Dev nD) (t : Fin cfg1.N) : S1x3072.Idx → Elt F .f32 :=
  win1_2.fill (grid1.coords t) (fun _ => Scalar.ofBits .f32 0#32) (iblk1 V c 2 t)
/-- The projected columns of tile `t` computed from those. -/
def oblk (c : Dev nD) (t : Fin cfg1.N) : S1x3072.Idx → Elt F .f32 :=
  projBuf (grid1.coords t) (iblk1 V c 0 t) (wblk V c t) (bblk V c t)

/-- The columns of a tile's result that lie inside the vocabulary do not depend on what the matrix's and the biases'
    buffers hold past the array's end. -/
def RowIndep (F : FTy → Type) [FloatOps F] : Prop :=
  ∀ (t : Fin cfg1.N) (x0 : Vec F S1x1024 .f32)
    (B1 : (win1_1.xblock (grid1.coords t)).Idx → Elt F .f32) (B2 : (win1_2.xblock (grid1.coords t)).Idx → Elt F .f32)
    (d1 d1' : S3072x1024.Idx → Elt F .f32) (d2 d2' : S1x3072.Idx → Elt F .f32),
    win1_3.cut (grid1.coords t) (projBuf (grid1.coords t) x0 (win1_1.fill (grid1.coords t) d1 B1) (win1_2.fill (grid1.coords t) d2 B2))
      = win1_3.cut (grid1.coords t) (projBuf (grid1.coords t) x0 (win1_1.fill (grid1.coords t) d1' B1) (win1_2.fill (grid1.coords t) d2' B2))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => wblk V c t
    | ⟨2, _⟩ => bblk V c t
    | ⟨3, _⟩ => oblk V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = wblk V c t := by dsimp only [dat1]
theorem after1_2 (c : Dev nD) (t : Fin cfg1.N) : (dat1 V c).after 2 t = bblk V c t := by dsimp only [dat1]
theorem after1_3 (c : Dev nD) (t : Fin cfg1.N) : (dat1 V c).after 3 t = oblk V c t := by dsimp only [dat1]

/-- The hidden row's buffer holds the row at every tile, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
/-- The matrix's buffer, fetched at every tile: the rows inside the array, `d` past them. -/
theorem before1_1 (c : Dev nD) (t : Fin cfg1.N) (d) : (dat1 V c).before 1 t d = win1_1.fill (grid1.coords t) d (iblk1 V c 1 t) := by
  rw [(dat1 V c).before_fetched 1 t (fetch1_1 t) d]; unfold Dat.fetched Dat.blockOf iblk1; rw [A_eq1]; try rfl
theorem before1_2 (c : Dev nD) (t : Fin cfg1.N) (d) : (dat1 V c).before 2 t d = win1_2.fill (grid1.coords t) d (iblk1 V c 2 t) := by
  rw [(dat1 V c).before_fetched 2 t (fetch1_2 t) d]; unfold Dat.fetched Dat.blockOf iblk1; rw [A_eq1]; try rfl
/-- The result's buffer, written back at every tile, holds anything when the body runs. -/
theorem before1_3 (c : Dev nD) (t : Fin cfg1.N) (d) : (dat1 V c).before 3 t d = d := by
  refine (dat1 V c).before_out_reset 3 rfl t ?_ d
  by_cases ht : t.val = 0
  · exact .inl ht
  · exact .inr ⟨ht, flush1_3 _⟩

/-- The mask of forgotten windows: the second call's result window, for an instance at which `RowIndep` is not known. -/
def fgtOut : Fin cfg1.W → Bool := fun | 0 => false | 1 => false | 2 => false | 3 => true | ⟨_ + 4, h⟩ => absurd h (Nat.not_lt.2 (Nat.le_add_left _ _))
def fgtNone : Fin cfg1.W → Bool := fun _ => false

set_option maxHeartbeats 2000000 in
/-- The second call's body obligation, nothing forgotten: the hidden row's buffer is left as found; the matrix's and
    the biases' are left as found, which on the rows inside the array is their block; the result's buffer is left at
    the projected columns computed from what the buffers held, which on the columns inside the array are `oblk`'s by
    `RowIndep`. -/
theorem body_obligation1 (hind : RowIndep F) (c : Dev nD) :
    BodyObligationLoose (dat1 (F := F) V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  change _ ⊢ wp frame (wpE (defs₀ (F := F)) Variants.none c none) Set.univ (bodyAt1 t) _
  unfold bodyAt1
  iintro ⟨HΦ, Ho, ⟨%d0, H0⟩, ⟨%d1, H1⟩, ⟨%d2, H2⟩, ⟨%d3, H3⟩⟩
  rw [before1_0 V c t d0, before1_1 V c t d1, before1_2 V c t d2, before1_3 V c t d3]
  iapply (sound_kernel1 c Set.univ (grid1.coords t) _ _ _ _ _ _ _ _ (iblk1 V c 0 t)
    (win1_1.fill (grid1.coords t) d1 (iblk1 V c 1 t)) (win1_2.fill (grid1.coords t) d2 (iblk1 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · rw [after1_0]; iexact H0
  isplitl [H1]
  · iexists d1
    rw [after1_1, show win1_1.cut (grid1.coords t) (wblk V c t) = iblk1 V c 1 t from win1_1.cut_fill _ _ _]
    iexact H1
  isplitl [H2]
  · iexists d2
    rw [after1_2, show win1_2.cut (grid1.coords t) (bblk V c t) = iblk1 V c 2 t from win1_2.cut_fill _ _ _]
    iexact H2
  iexists projBuf (grid1.coords t) (iblk1 V c 0 t) (win1_1.fill (grid1.coords t) d1 (iblk1 V c 1 t)) (win1_2.fill (grid1.coords t) d2 (iblk1 V c 2 t))
  rw [after1_3, show win1_3.cut (grid1.coords t) (oblk V c t)
      = win1_3.cut (grid1.coords t) (projBuf (grid1.coords t) (iblk1 V c 0 t) (win1_1.fill (grid1.coords t) d1 (iblk1 V c 1 t)) (win1_2.fill (grid1.coords t) d2 (iblk1 V c 2 t)))
      from hind t _ _ _ _ _ _ _, win1_3.fill_cut]
  iexact H3

set_option maxHeartbeats 2000000 in
/-- The same with the result window forgotten: its buffer is handed over and taken back at contents nobody names. -/
theorem body_obligation1_fgt (c : Dev nD) :
    BodyObligationLoose (dat1 (F := F) V c) (defs₀ (F := F)) Variants.none () Set.univ fgtOut := fun t => by
  rw [bigSep_W1, bigSep_W1]
  simp only [fgtOut]
  rw [show (dat1 V c).Φ t.succ = (dat1 V c).Φ t.castSucc from rfl,
    show (dat1 V c).owesAt () t.succ = (dat1 V c).owesAt () t.castSucc from rfl]
  change _ ⊢ wp frame (wpE (defs₀ (F := F)) Variants.none c none) Set.univ (bodyAt1 t) _
  unfold bodyAt1
  iintro ⟨HΦ, Ho, ⟨%d0, H0⟩, ⟨%d1, H1⟩, ⟨%d2, H2⟩, ⟨%d3, H3⟩⟩
  rw [before1_0 V c t d0, before1_1 V c t d1, before1_2 V c t d2]
  iapply (sound_kernel1 c Set.univ (grid1.coords t) _ _ _ _ _ _ _ _ (iblk1 V c 0 t)
    (win1_1.fill (grid1.coords t) d1 (iblk1 V c 1 t)) (win1_2.fill (grid1.coords t) d2 (iblk1 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · rw [after1_0]; iexact H0
  isplitl [H1]
  · iexists d1
    rw [after1_1, show win1_1.cut (grid1.coords t) (wblk V c t) = iblk1 V c 1 t from win1_1.cut_fill _ _ _]
    iexact H1
  isplitl [H2]
  · iexists d2
    rw [after1_2, show win1_2.cut (grid1.coords t) (bblk V c t) = iblk1 V c 2 t from win1_2.cut_fill _ _ _]
    iexact H2
  iexists _; iexact H3

end Cert.Kernel.Hand

end
-- ==== Proof.KRun.lean ====
/-
  The run of the whole program from the launch memory: the lookup of the embedded row and the reshapes, the first call,
  the second call, the log-softmax and the last broadcast, each entered from what the one before left in the unscoped
  buffers. What the second call leaves in the logits array is named only where its result window is not forgotten;
  the operations after it run from whatever it left.
-/
import proofs.«421128_j85564338471302_3_alg».proof.Proof.KData
import proofs.«421128_j85564338471302_3_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-! ##WORK-START -/

variable (m : (ℓ : Loc nD τ sig) → Buf (Elt F) ℓ) (ρ : Dev nD → PrngReg)

/-! ## The unscoped buffers between the program's items -/

/-- At launch; after the 22 operations of the lookup; after the six reshapes (the first call's entry). -/
abbrev W0 : Dev nD → Valuation τ sig (Elt F) := fun c => V0 m c
abbrev W1 : Dev nD → Valuation τ sig (Elt F) := fun c => V1 m c
abbrev W2 : Dev nD → Valuation τ sig (Elt F) := fun c => V2 m c
abbrev U2 : (c : Dev nD) → (b : Ref sig .tc) → Buf (Elt F) ((c : Thread nD τ).loc b) := fun c b => W2 m c b

/-- At the first call's exit: its arrays at what its write-backs leave, every other buffer as entered. -/
def W3 (c : Dev nD) : Valuation τ sig (Elt F) :=
  Pipeline.withArrays spec0 c (W2 m c) fun w => (dat0 (U2 m) c).arrAt w cfg0.N
theorem W3_arr (c : Dev nD) (w : Fin cfg0.W) :
    W3 m c (Proc.devRef .tc (Pipeline.arrRef spec0 w)) = (dat0 (U2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
abbrev U3 : (c : Dev nD) → (b : Ref sig .tc) → Buf (Elt F) ((c : Thread nD τ).loc b) := fun c b => W3 m c b
theorem hF0 (c : Dev nD) (w : Fin cfg0.W) : (dat0 (U2 m) c).arrAt w cfg0.N = U3 m c (Pipeline.arrRef spec0 w) :=
  (W3_arr m c w).symm
theorem hrest0 (c : Dev nD) : ∀ b, b ∉ Finset.univ.image (Pipeline.arrRef spec0) → U3 m c b = U2 m c b :=
  fun b hb => W3_of_ne m c b fun w e => hb (Finset.mem_image.mpr ⟨w, Finset.mem_univ _, e⟩)

/-- An input window's array is left as entered. -/
theorem W3_in (c : Dev nD) (w : Fin cfg0.W) (hw : (cfg0.win w).isOut = false) :
    W3 m c (Proc.devRef .tc (Pipeline.arrRef spec0 w)) = W2 m c (Proc.devRef .tc (Pipeline.arrRef spec0 w)) :=
  (W3_arr m c w).trans (((dat0 (U2 m) c).arrAt_in w hw _).trans (A_eq0 (U2 m) c w))

/-- The logits array's contents on core `c`. -/
abbrev Out8 (c : Dev nD) : Type := Buf (Elt F) ((c : Thread nD τ).loc main_v8)

/-- At the second call's exit, the logits array at `f`: every other buffer as entered. -/
def W4 (c : Dev nD) (f : Out8 (F := F) c) : Valuation τ sig (Elt F) :=
  Function.update (W3 m c) (Proc.devRef .tc main_v8) f
abbrev U4 (c : Dev nD) (f : Out8 (F := F) c) : (b : Ref sig .tc) → Buf (Elt F) ((c : Thread nD τ).loc b) := fun b => W4 m c f b
/-- After the log-softmax; after the last broadcast. -/
abbrev W5 (c : Dev nD) (f : Out8 (F := F) c) : Valuation τ sig (Elt F) := StableHlo.after hostOps2 (W4 m c f)
abbrev W6 (c : Dev nD) (f : Out8 (F := F) c) : Valuation τ sig (Elt F) := StableHlo.after hostOps2_1 (W5 m c f)

/-- A buffer no host operation writes and no call changes holds its launch contents at the end. -/
theorem W6_of (c : Dev nD) (f : Out8 (F := F) c) (r : Ref sig .tc) (h21 : r ∉ hostOps2_1_W) (h2 : r ∉ hostOps2_W)
    (h8 : r ≠ main_v8) (h0 : W3 m c (Proc.devRef .tc r) = W2 m c (Proc.devRef .tc r)) (h01 : r ∉ hostOps0_1_W) (h00 : r ∉ hostOps0_W) :
    W6 m c f (Proc.devRef .tc r) = m ((c : Thread nD τ).loc r) :=
  calc W6 m c f (Proc.devRef .tc r)
    _ = W5 m c f (Proc.devRef .tc r) := StableHlo.after_of_writes_sub hostOps2_1 _ hostOps2_1_writes h21
    _ = W4 m c f (Proc.devRef .tc r) := StableHlo.after_of_writes_sub hostOps2 _ hostOps2_writes h2
    _ = W3 m c (Proc.devRef .tc r) := by
          unfold W4; exact Function.update_of_ne (StableHlo.devRef_ne_of_ne h8) _ _
    _ = W2 m c (Proc.devRef .tc r) := h0
    _ = m ((c : Thread nD τ).loc r) := (V2_of m c r h01).trans ((V1_of m c r h00).trans rfl)

/-! ## The proof data family, with the second call's windows forgotten as `fgt1` says -/

variable (fgt1 : Fin cfg1.W → Bool)

abbrev adm' : (p : Fin 2) → (pcfgs (F := F) p).Adm := fun p => (cfgs p).toPCfg_adm

/-- Both calls' exact proof data, each at its entry contents. -/
def pdats : (p : Fin 2) → (c : Dev nD) → Dat τ (Elt F) Unit ℕ (UR sig nD τ) ℕ (Pipeline.pin (pcfgs (F := F)) adm' p) c
  | ⟨0, _⟩ => fun c => dat0 (U2 m) c
  | ⟨1, _⟩ => fun c => dat1 (U3 m) c

/-- The same read as relational data: the first call's exactly, the second call's with the windows `fgt1` marks
    saying nothing. -/
def rdats : (p : Fin 2) → (c : Dev nD) → RDat τ (Elt F) Unit ℕ (UR sig nD τ) ℕ (Pipeline.pin (pcfgs (F := F)) adm' p) c
  | ⟨0, _⟩ => fun c => (dat0 (U2 m) c).toR
  | ⟨1, _⟩ => fun c => (dat1 (U3 m) c).toRForget fgt1

abbrev 𝒱₀' : Variants := Variants.none
abbrev L' : GSem nD τ sig → Finset Unit := fun _ => ∅
abbrev lv' : GSem nD τ sig → Unit → ℕ := fun _ _ => 0

/-- What rides beside the buffers: the core's generator register at some state and its debts, none. -/
abbrev R (c : Dev nD) : sProp 𝕄 := iprop((∃ r, prngReg c r) ∗ ∃ W, owes (c : Thread nD τ) (0 : CellTallies nD τ sig Unit) W)

/-- What is known of the logits array after the second call: what the write-backs leave, when its window is not
    forgotten. -/
def Known (c : Dev nD) (f : Out8 (F := F) c) : Prop := fgt1 3 = false → f = (dat1 (U3 m) c).arrAt 3 cfg1.N

/-- A stretch of host operations from definite contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀' L' lv' :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

-- the host rules are stated over the lifted definitions and variants
set_option backward.isDefEq.respectTransparency.types false in
/-- A stretch of host operations from contents that depend on the logits array the second call left, whatever it is:
    for each such array the stretch runs as from definite contents. -/
def hsegEx (ops : List (HloOp τ sig (Elt F))) (hsub : ops.Forall fun op => op.bufs ⊆ StableHlo.tcRefs τ sig)
    (hfresh : ops.Forall fun op => op.fresh = ∅) (W : (c : Dev nD) → Out8 (F := F) c → Valuation τ sig (Elt F)) :
    Pipeline.HostSeg (Name := ℕ) (U := UR sig nD τ) (pcfgs (F := F)) defs₀ 𝒱₀' L' lv' where
  prog := StableHlo.seq ops
  pre c := iprop(∃ f, ⌜Known m fgt1 c f⌝ ∗ StableHlo.held (c : Thread nD τ) (Pipeline.ucRefs τ sig) (W c f) ∗ R c)
  post c := iprop(∃ f, ⌜Known m fgt1 c f⌝ ∗ StableHlo.held (c : Thread nD τ) (Pipeline.ucRefs τ sig) (StableHlo.after ops (W c f)) ∗ R c)
  run c {β} k K := by
    iintro ⟨Hk, Hbd, ⟨%f, %hf, Hh, HR⟩, -⟩
    have hseq := StableHlo.wp_seq (defs := Pipeline.defs (pcfgs (F := F)) defs₀) (Variants.lift 𝒱₀') none Set.univ c (Pipeline.ucRefs τ sig) k (K := K) ops
      (fun op h => Pipeline.sub_ucRefs op ((List.forall_iff_forall_mem.mp hsub) op h))
      (fun op h => (List.forall_iff_forall_mem.mp hfresh) op h) (W c f)
    iapply hseq $$ [Hbd Hh]
    · isplitl [Hbd] <;> iassumption
    iintro ⟨Hbd, Hh⟩
    iapply Hk
    isplitl [Hbd]; · iexact Hbd
    iexists f; isplitr; · ipureintro; exact hf
    isplitl [Hh] <;> iassumption

/-! ## The two calls as segments -/

-- a library lemma stated over the pinned configuration unifies with it only when unification may unfold plain
-- definitions in a metavariable's type
set_option backward.isDefEq.respectTransparency.types false in
/-- The first call: entered from every unscoped buffer at `W2`, left at `W3`. -/
def reg0 : Pipeline.RDat.RegionSeg (pcfgs (F := F)) adm' (rdats m fgt1) () defs₀ 𝒱₀' L' lv' 0 where
  win := launch0.win.to₀
  block_pos := launch0.block_pos
  stage_whole := launch0.stage_whole
  K := PEmpty
  osem k := k.elim
  ho := Pipeline.OwnSemFacts.none _
  hbody c := (body_obligation0 (U2 m) c).loose.toR
  hwaits := Pipeline.RDat.hwaits_of_owed_zero _ _ _ _ L' lv' 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (U2 m c)
  hentry c := by
    rw [Pipeline.ownSems0_none]
    have hsplit := Pipeline.RDat.arrays_of_unscopedBufs (p := 0) (pcfgs (F := F)) adm' (rdats m fgt1) launch0.win launch0.arr_whole c
      ((rdats m fgt1 0 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt1 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m fgt1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (U2 m c) (U3 m c) ((pdats m 0 c).arrAt · cfg0.N) (hF0 m c) (hrest0 m c)
    rw [Pipeline.unscopedBufs_held] at hjoin
    rw [show (rdats m fgt1 0 c).arraysAt (Pipeline.pin (pcfgs (F := F)) adm' 0).N = ((pdats m 0 c).arrays ((pdats m 0 c).arrAt · cfg0.N) : sProp 𝕄)
      from (dat0 (U2 m) c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

theorem W4_of_ne (c : Dev nD) (f : Out8 (F := F) c) (b : Ref sig .tc) (hb : b ≠ main_v8) :
    W4 m c f (Proc.devRef .tc b) = W3 m c (Proc.devRef .tc b) := by
  unfold W4; exact Function.update_of_ne (StableHlo.devRef_ne_of_ne hb) _ _
theorem W4_out (c : Dev nD) (f : Out8 (F := F) c) : W4 m c f (Proc.devRef .tc main_v8) = f := by
  unfold W4; exact Function.update_self _ _ _

set_option maxHeartbeats 4000000 in
set_option backward.isDefEq.respectTransparency.types false in
/-- The second call: entered from every unscoped buffer at `W3`, left at `W4` of whatever the logits array then
    holds — what the write-backs leave, where its window is not forgotten. -/
def reg1 (hfg : ∀ w : Fin cfg1.W, w ≠ 3 → fgt1 w = false)
    (hb1 : ∀ c, BodyObligationLoose (dat1 (F := F) (U3 m) c) (defs₀ (F := F)) 𝒱₀' () Set.univ fgt1) :
    Pipeline.RDat.RegionSeg (pcfgs (F := F)) adm' (rdats m fgt1) () defs₀ 𝒱₀' L' lv' 1 where
  win := launch1.win.to₀
  block_pos := launch1.block_pos
  stage_whole := launch1.stage_whole
  K := PEmpty
  osem k := k.elim
  ho := Pipeline.OwnSemFacts.none _
  hbody c := (hb1 c).toRForget
  hwaits := Pipeline.RDat.hwaits_of_owed_zero _ _ _ _ L' lv' 1 fun _ _ => rfl
  pre c := iprop(StableHlo.held (c : Thread nD τ) (Pipeline.ucRefs τ sig) (W3 m c) ∗ R c)
  post c := iprop(∃ f, ⌜Known m fgt1 c f⌝ ∗ StableHlo.held (c : Thread nD τ) (Pipeline.ucRefs τ sig) (W4 m c f) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.RDat.arrays_of_unscopedBufs (p := 1) (pcfgs (F := F)) adm' (rdats m fgt1) launch1.win launch1.arr_whole c
      ((rdats m fgt1 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt1 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m fgt1 1 c).Φ (Fin.last _) = Pipeline.ΦA spec1 c from rfl]; unfold Pipeline.ΦA
    iintro ⟨Hr, Hp⟩
    isplitl [Hp]; · iexact Hp
    isplitr; · iempintro
    iexact Hr
  hexit c := by
    have hopen : ((rdats m fgt1 1 c).arraysAt (Pipeline.pin (pcfgs (F := F)) adm' 1).N : sProp 𝕄)
        = (RDat.arraysAt (cfg := cfg1) ((dat1 (U3 m) c).toRForget fgt1) cfg1.N : sProp 𝕄) := rfl
    rw [hopen]
    unfold RDat.arraysAt
    rw [bigSep_W1]
    iintro ⟨⟨⟨%F0, %h0, A0⟩, ⟨%F1, %h1, A1⟩, ⟨%F2, %h2, A2⟩, ⟨%F3, %h3, A3⟩⟩, HO, HY, Hrest⟩
    have e0 := ((dat1 (U3 m) c).toRForget_arrAt_iff (hfg 0 (by decide)) cfg1.N F0).mp h0
    have e1 := ((dat1 (U3 m) c).toRForget_arrAt_iff (hfg 1 (by decide)) cfg1.N F1).mp h1
    have e2 := ((dat1 (U3 m) c).toRForget_arrAt_iff (hfg 2 (by decide)) cfg1.N F2).mp h2
    subst e0 e1 e2
    have hin : ∀ w : Fin cfg1.W, w ≠ 3 → (cfg1.win w).isOut = false := by decide
    have hne : ∀ w : Fin cfg1.W, w ≠ 3 → Pipeline.arrRef spec1 w ≠ main_v8 := by decide
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (U3 m c) (U4 m c F3)
      (Function.update (fun w => (dat1 (U3 m) c).arrAt w cfg1.N) (3 : Fin cfg1.W) F3)
      (fun w => by
        by_cases hw : w = 3
        · subst hw; rw [Function.update_self]; exact (W4_out m c F3).symm
        · rw [Function.update_of_ne hw]
          exact ((dat1 (U3 m) c).arrAt_in w (hin w hw) _).trans ((A_eq1 (U3 m) c w).trans (W4_of_ne m c F3 _ (hne w hw)).symm))
      (fun b hb => W4_of_ne m c F3 b fun e => hb (Finset.mem_image.mpr ⟨3, Finset.mem_univ _, e.symm⟩))
    rw [Pipeline.unscopedBufs_held] at hjoin
    unfold Dat.arrays at hjoin
    rw [bigSep_W1] at hjoin
    rw [Function.update_of_ne (show (0 : Fin cfg1.W) ≠ 3 by decide), Function.update_of_ne (show (1 : Fin cfg1.W) ≠ 3 by decide),
      Function.update_of_ne (show (2 : Fin cfg1.W) ≠ 3 by decide), Function.update_self] at hjoin
    imodintro
    iexists F3
    isplitr
    · ipureintro; exact fun h => ((dat1 (U3 m) c).toRForget_arrAt_iff h cfg1.N F3).mp h3
    isplitl [A0 A1 A2 A3 Hrest]
    · iapply hjoin
      isplitl [A0 A1 A2 A3]
      · isplitl [A0]; · iexact A0
        isplitl [A1]; · iexact A1
        isplitl [A2]; · iexact A2
        iexact A3
      iexact Hrest
    isplitl [HY]; · iexact HY
    unfold Pipeline.RDat.owesAt Pipeline.owesWithin
    icases HO with ⟨%W, -, HO⟩; iexists W; iexact HO

/-! ## @main as segments, and the launch -/

/-- @main's six items in order: the lookup, the reshapes, the two calls, the log-softmax, the last broadcast. -/
abbrev segs (hfg : ∀ w : Fin cfg1.W, w ≠ 3 → fgt1 w = false)
    (hb1 : ∀ c, BodyObligationLoose (dat1 (F := F) (U3 m) c) (defs₀ (F := F)) 𝒱₀' () Set.univ fgt1) :
    List (Pipeline.RDat.Seg (pcfgs (F := F)) adm' (rdats m fgt1) () defs₀ 𝒱₀' L' lv') :=
  [ .host (hseg hostOps0 hostOps0_sub hostOps0_fresh (W0 m)),
    .host (hseg hostOps0_1 hostOps0_1_sub hostOps0_1_fresh (W1 m)),
    .region (reg0 m fgt1),
    .region (reg1 m fgt1 hfg hb1),
    .host (hsegEx m fgt1 hostOps2 hostOps2_sub hostOps2_fresh (W4 m)),
    .host (hsegEx m fgt1 hostOps2_1 hostOps2_1_sub hostOps2_1_fresh (W5 m)) ]

/-- The last thread state without the debts: the unscoped buffers at the last contents for some logits array the
    second call may have left, the generator register at some state. -/
abbrev Tlast (c : Dev nD) : sProp 𝕄 :=
  iprop(∃ f, ⌜Known m fgt1 c f⌝ ∗ StableHlo.held (c : Thread nD τ) (Pipeline.ucRefs τ sig) (W6 m c f) ∗ ∃ r, prngReg c r)

/-- What a final memory is read to hold on core `c`. -/
def Final (c : Dev nD) (s : MemSt nD τ sig (Elt F)) : Prop :=
  ∃ f : Out8 (F := F) c, Known m fgt1 c f ∧ ∀ b ∈ Pipeline.ucRefs τ sig, s.mem (((c : Thread nD τ)).1, b) = W6 m c f b

set_option backward.isDefEq.respectTransparency.types false in
/-- THE RUN. From any memory with zero counters every weakly fair execution of @main terminates, nothing faulting,
    and every final memory holds, on each core, every unscoped buffer at the last contents `W6` for some logits array
    `f` of which `Known` holds. -/
theorem run_all (hfg : ∀ w : Fin cfg1.W, w ≠ 3 → fgt1 w = false)
    (hb1 : ∀ c, BodyObligationLoose (dat1 (F := F) (U3 m) c) (defs₀ (F := F)) 𝒱₀' () Set.univ fgt1) :
    θ_run defs (onTc (τ := τ) (main (F := F))) ⟨m, fun _ => 0, ρ⟩ (fun r => ∀ c : Dev nD, Final m fgt1 c r.2) :=
  Pipeline.RDat.θ_run_regions_kit (pcfgs (F := F)) adm' (rdats m fgt1) () cellOf_inj emb₁ defs₀ 𝒱₀' L' lv' m ρ main (segs m fgt1 hfg hb1)
    (fun c Q => by
      rewrite [main_chain c, Pipeline.RDat.Seg.run_eq_chain,
        show (segs m fgt1 hfg hb1).map Pipeline.RDat.Seg.prog = [
          StableHlo.seq hostOps0,
          StableHlo.seq hostOps0_1,
          Prog.lift (.customCall (Pipeline.entry 0) ()),
          Prog.lift (.customCall (Pipeline.entry 1) ()),
          StableHlo.seq hostOps2,
          StableHlo.seq hostOps2_1 ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tlast m fgt1)
    (hch := ⟨fun _ => .rfl, fun _ => .rfl, fun _ => .rfl, fun _ => .rfl, fun _ => .rfl, fun _ => .rfl, fun c => by
      show iprop(∃ f, ⌜Known m fgt1 c f⌝ ∗ StableHlo.held (c : Thread nD τ) (Pipeline.ucRefs τ sig) (StableHlo.after hostOps2_1 (W5 m c f)) ∗ R c) ⊢ _
      iintro ⟨%f, %hf, Hh, Hp, HO⟩
      isplitl [Hh Hp]
      · iexists f; isplitr; · ipureintro; exact hf
        isplitl [Hh]; · iexact Hh
        iexact Hp
      iexact HO⟩)
    (hinit := by
      refine Pipeline.initEach L' lv' fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := Final m fgt1)
    (hfin := fun c s' => by
      unfold Tlast StableHlo.held
      iintro ⟨⟨%f, %hf, Hh, -⟩, HSI⟩
      ihave Hr := (pointsTo_read_all (Pipeline.ucRefs τ sig) (fun b => (((c : Thread nD τ)).1, b)) (W6 m c f) s') $$ [Hh HSI]
      · isplitl [Hh] <;> iassumption
      icases Hr with ⟨%h, HSI⟩
      imodintro
      isplitr
      · ipureintro; exact ⟨f, hf, h⟩
      · iexact HSI)
    (hQ := fun _ h => h)

/-! ## What a final memory holds, read at the arguments and at the results -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every argument array ends holding its launch contents. -/
theorem Final.args {c : Dev nD} {s : MemSt nD τ sig (Elt F)} (hs : Final m fgt1 c s) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)
    ∧ s.mem ((c.tc : Thread nD τ).loc main_arg12) = m ((c.tc : Thread nD τ).loc main_arg12)
    ∧ s.mem ((c.tc : Thread nD τ).loc main_arg13) = m ((c.tc : Thread nD τ).loc main_arg13) := by
  obtain ⟨f, -, h⟩ := hs
  have key : ∀ (r : Ref sig .tc), ¬ (Proc.devRef .tc r : DevRef τ sig).isScoped → r ∉ hostOps2_1_W → r ∉ hostOps2_W → r ≠ main_v8 →
      W3 m c (Proc.devRef .tc r) = W2 m c (Proc.devRef .tc r) → r ∉ hostOps0_1_W → r ∉ hostOps0_W →
      s.mem ((c.tc : Thread nD τ).loc r) = m ((c.tc : Thread nD τ).loc r) :=
    fun r h0 h1 h2 h3 h4 h5 h6 => (h _ (mem_uc r h0)).trans (W6_of m c f r h1 h2 h3 h4 h5 h6)
  exact ⟨key main_arg0 (by decide) (by decide) (by decide) (by decide) (W3_of_ne m c main_arg0 (by decide)) (by decide) (by decide),
    key main_arg1 (by decide) (by decide) (by decide) (by decide) (W3_of_ne m c main_arg1 (by decide)) (by decide) (by decide),
    key main_arg2 (by decide) (by decide) (by decide) (by decide) (W3_in m c 2 rfl) (by decide) (by decide),
    key main_arg3 (by decide) (by decide) (by decide) (by decide) (W3_of_ne m c main_arg3 (by decide)) (by decide) (by decide),
    key main_arg4 (by decide) (by decide) (by decide) (by decide) (W3_in m c 3 rfl) (by decide) (by decide),
    key main_arg5 (by decide) (by decide) (by decide) (by decide) (W3_of_ne m c main_arg5 (by decide)) (by decide) (by decide),
    key main_arg6 (by decide) (by decide) (by decide) (by decide) (W3_in m c 5 rfl) (by decide) (by decide),
    key main_arg7 (by decide) (by decide) (by decide) (by decide) (W3_of_ne m c main_arg7 (by decide)) (by decide) (by decide),
    key main_arg8 (by decide) (by decide) (by decide) (by decide) (W3_in m c 7 rfl) (by decide) (by decide),
    key main_arg9 (by decide) (by decide) (by decide) (by decide) (W3_in m c 8 rfl) (by decide) (by decide),
    key main_arg10 (by decide) (by decide) (by decide) (by decide) (W3_of_ne m c main_arg10 (by decide)) (by decide) (by decide),
    key main_arg11 (by decide) (by decide) (by decide) (by decide) (W3_of_ne m c main_arg11 (by decide)) (by decide) (by decide),
    key main_arg12 (by decide) (by decide) (by decide) (by decide) (W3_of_ne m c main_arg12 (by decide)) (by decide) (by decide),
    key main_arg13 (by decide) (by decide) (by decide) (by decide) (W3_of_ne m c main_arg13 (by decide)) (by decide) (by decide)⟩

/-- The frame at any instance: with the second call's result window forgotten nothing is asked of the arithmetic. -/
theorem frame_any : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => Final.args m fgtOut (h c))
    (run_all m ρ fgtOut (by decide) (fun c => body_obligation1_fgt (U3 m) c))

end Cert.Kernel.Hand

end
-- ==== Proof.KIBody.lean ====
/-
  The two kernel bodies run on whole staging buffers. The first call's body loads eleven whole blocks, computes the
  attention weights and the new hidden row, and stores each over its whole output buffer; the second call's body loads
  the hidden row, a tile of 3072 rows of the vocabulary matrix and 3072 biases and stores the 3072 projected columns
  (those at or past column 50257 replaced by a filler) over its whole output buffer. Each output buffer therefore ends
  holding one pure function of the loaded blocks, the inputs' buffers unchanged.
-/
import proofs.«421128_j85564338471302_3_alg».proof.Proof.Gen.KernelIdeal.Launch
import proofs.«421128_j85564338471302_3_alg».proof.Proof.Gen.KernelIdeal.Skeleton
import proofs.«421128_j85564338471302_3_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the bodies load and store through -/

abbrev rA : Rect S1x1024 := (Rect.unit (s := S1x1024) ![0, 0] S1x1024.size inb_S1x1024_S1x1024_0_0)
abbrev rEnc : Rect S512x1024 := (Rect.unit (s := S512x1024) ![0, 0] S512x1024.size inb_S512x1024_S512x1024_0_0)
abbrev rAw : Rect S512x2048 := (Rect.unit (s := S512x2048) ![0, 0] S512x2048.size inb_S512x2048_S512x2048_0_0)
abbrev rL : Rect S1x512 := (Rect.unit (s := S1x512) ![0, 0] S1x512.size inb_S1x512_S1x512_0_0)
abbrev rCw : Rect S1024x2048 := (Rect.unit (s := S1024x2048) ![0, 0] S1024x2048.size inb_S1024x2048_S1024x2048_0_0)
abbrev rG : Rect S3072x1024 := (Rect.unit (s := S3072x1024) ![0, 0] S3072x1024.size inb_S3072x1024_S3072x1024_0_0)
abbrev rB : Rect S1x3072 := (Rect.unit (s := S1x3072) ![0, 0] S1x3072.size inb_S1x3072_S1x3072_0_0)

/-! ## The first call -/

/-- The attention-weights buffer after the body: its one whole store, over the loaded embedded row, hidden row,
    attention matrix and attention bias. -/
def attnBuf (x0 x1 : Vec F S1x1024 .f32) (x3 : Vec F S512x2048 .f32) (x4 : Vec F S1x512 .f32) : Vec F S1x512 .f32 :=
  View.canon [⟨rL, k0_pay4 (View.ld x0 rA) (View.ld x1 rA) (View.ld x3 rAw) (View.ld x4 rL)⟩]

/-- The hidden-row buffer after the body: its one whole store, over all eleven loaded blocks. -/
def hidBuf (x0 : Vec F S1x1024 .f32) (x1 : Vec F S1x1024 .f32) (x2 : Vec F S512x1024 .f32) (x3 : Vec F S512x2048 .f32) (x4 : Vec F S1x512 .f32) (x5 : Vec F S1024x2048 .f32) (x6 : Vec F S1x1024 .f32) (x7 : Vec F S3072x1024 .f32) (x8 : Vec F S3072x1024 .f32) (x9 : Vec F S1x3072 .f32) (x10 : Vec F S1x3072 .f32) : Vec F S1x1024 .f32 :=
  View.canon [⟨rA, k0_pay1 (k0_pay3 (View.ld x1 rA))
      (k0_pay5 (View.ld x0 rA) (View.ld x1 rA) (View.ld x3 rAw) (View.ld x4 rL) (View.ld x2 rEnc) (View.ld x5 rCw) (View.ld x6 rA))
      (View.ld x7 rG) (View.ld x9 rB) (View.ld x8 rG) (View.ld x10 rB)⟩]

theorem coverL (p0 : Vec F S1x512 .f32) (y : S1x512.Idx) :
    ∃ pc ∈ ([⟨rL, p0⟩] : List (View.Piece (Elt F) S1x512 .f32)), y ∈ pc.1.set :=
  View.cover_of_tiled [⟨rL, p0⟩] S1x512.size (by rfl) y

theorem coverA (p0 : Vec F S1x1024 .f32) (y : S1x1024.Idx) :
    ∃ pc ∈ ([⟨rA, p0⟩] : List (View.Piece (Elt F) S1x1024 .f32)), y ∈ pc.1.set :=
  View.cover_of_tiled [⟨rA, p0⟩] S1x1024.size (by rfl) y

theorem coverB (p0 : Vec F S1x3072 .f32) (y : S1x3072.Idx) :
    ∃ pc ∈ ([⟨rB, p0⟩] : List (View.Piece (Elt F) S1x3072 .f32)), y ∈ pc.1.set :=
  View.cover_of_tiled [⟨rB, p0⟩] S1x3072.size (by rfl) y

set_option maxHeartbeats 4000000 in
/-- The first call's body on whole staging buffers: the eleven inputs' buffers read and left as they were, the two
    outputs' buffers, whatever they held, left at `attnBuf` and `hidBuf` of the inputs. -/
theorem sound_kernel0 (c : Dev nD) (E : Set ℕ) (i : grid0.Coords) (arg1 : Memref sig .tc .vmem S1x1024 .f32) (harg1 : arg1.IsWhole) (arg2 : Memref sig .tc .vmem S1x1024 .f32) (harg2 : arg2.IsWhole) (arg3 : Memref sig .tc .vmem S512x1024 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S1024x2048 .f32) (harg6 : arg6.IsWhole) (arg7 : Memref sig .tc .vmem S1x1024 .f32) (harg7 : arg7.IsWhole) (arg8 : Memref sig .tc .vmem S3072x1024 .f32) (harg8 : arg8.IsWhole) (arg9 : Memref sig .tc .vmem S3072x1024 .f32) (harg9 : arg9.IsWhole) (arg10 : Memref sig .tc .vmem S1x3072 .f32) (harg10 : arg10.IsWhole) (arg11 : Memref sig .tc .vmem S1x3072 .f32) (harg11 : arg11.IsWhole) (arg12 : Memref sig .tc .vmem S1x512 .f32) (harg12 : arg12.IsWhole) (arg13 : Memref sig .tc .vmem S1x1024 .f32) (harg13 : arg13.IsWhole)
    (x0 : Vec F S1x1024 .f32) (x1 : Vec F S1x1024 .f32) (x2 : Vec F S512x1024 .f32) (x3 : Vec F S512x2048 .f32) (x4 : Vec F S1x512 .f32) (x5 : Vec F S1024x2048 .f32) (x6 : Vec F S1x1024 .f32) (x7 : Vec F S3072x1024 .f32) (x8 : Vec F S3072x1024 .f32) (x9 : Vec F S1x3072 .f32) (x10 : Vec F S1x3072 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
        ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ owns (c : Thread nD τ) arg12 fullShare (attnBuf x0 x1 x3 x4)
            ∗ owns (c : Thread nD τ) arg13 fullShare (hidBuf x0 x1 x2 x3 x4 x5 x6 x7 x8 x9 x10)) -∗ K ⟨⟩))
      ⊢ wp frame (wpE (defs₀ (F := F)) Variants.none c none) E (cc0__abc_body i arg1 harg1 arg2 harg2 arg3 harg3 arg4 harg4 arg5 harg5 arg6 harg6 arg7 harg7 arg8 harg8 arg9 harg9 arg10 harg10 arg11 harg11 arg12 harg12 arg13 harg13) K := by
  simp only [cc0__abc_body_eq_skeleton]; unfold cc0__abc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (coverL _)
  iexists _; isplitr
  swap; · iexact H12
  ipureintro
  exact View.read_writes_eq_canon _ _ _ (coverA _)

/-! ## The second call -/

/-- The projected-columns buffer after the body at tile `i`: its one whole store, over the loaded hidden row, tile
    and biases. -/
def projBuf (i : grid1.Coords) (x0 : Vec F S1x1024 .f32) (x1 : Vec F S3072x1024 .f32) (x2 : Vec F S1x3072 .f32) : Vec F S1x3072 .f32 :=
  View.canon [⟨rB, k1_pay1 i (View.ld x0 rA) (View.ld x1 rG) (View.ld x2 rB)⟩]

set_option maxHeartbeats 4000000 in
/-- The second call's body on whole staging buffers: the three inputs' buffers read and left as they were, the
    output's buffer, whatever it held, left at `projBuf` of the inputs. -/
theorem sound_kernel1 (c : Dev nD) (E : Set ℕ) (i : grid1.Coords)
    (arg1 : Memref sig .tc .vmem S1x1024 .f32) (harg1 : arg1.IsWhole) (arg2 : Memref sig .tc .vmem S3072x1024 .f32) (harg2 : arg2.IsWhole)
    (arg3 : Memref sig .tc .vmem S1x3072 .f32) (harg3 : arg3.IsWhole) (arg4 : Memref sig .tc .vmem S1x3072 .f32) (harg4 : arg4.IsWhole)
    (x0 : Vec F S1x1024 .f32) (x1 : Vec F S3072x1024 .f32) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (projBuf i x0 x1 x2)) -∗ K ⟨⟩))
      ⊢ wp frame (wpE (defs₀ (F := F)) Variants.none c none) E (cc1__out_proj_body i arg1 harg1 arg2 harg2 arg3 harg3 arg4 harg4) K := by
  simp only [cc1__out_proj_body_eq_skeleton]; unfold cc1__out_proj_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverB _)

end Cert.KernelIdeal.Hand

end
-- ==== Proof.KIData.lean ====
/-
  The proof data of the two calls, at whatever the unscoped buffers hold when a call is entered. A window's block at a
  grid point is its array read through the block's rectangle, cut at the array's end where the tile overhangs it.
  First call (one point, every block whole): each input's buffer holds its block, each output's what the body stores.
  Second call (17 tiles of 3072 vocabulary rows; the last tile overhangs the 50257 rows): the matrix's and the biases'
  buffers hold their blocks on the rows inside the array and words nobody names past it; the projected columns that
  are written back are those inside the array, and they do not depend on the unnamed words when each stored column is a
  function of its own matrix row and bias alone (`RowIndep`).
-/
import proofs.«421128_j85564338471302_3_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first call -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The arrays as the call finds them; after the body each input's buffer at its block, the two outputs' at the
    attention weights and the new hidden row of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => attnBuf (iblk0 V c 0 t) (iblk0 V c 1 t) (iblk0 V c 3 t) (iblk0 V c 4 t)
    | ⟨12, _⟩ => hidBuf (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = attnBuf (iblk0 V c 0 t) (iblk0 V c 1 t) (iblk0 V c 3 t) (iblk0 V c 4 t) := by dsimp only [dat0]
theorem after0_12 (c : Dev nD) (t : Fin cfg0.N) : (dat0 V c).after 12 t = hidBuf (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl) (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl) (fun t => by rw [after0_8]; unfold Dat.blockOf iblk0; rw [A_eq0]; try rfl) t d).trans
    (by unfold Dat.fetched Dat.blockOf iblk0; rw [A_eq0]; try rfl)
theorem before0_9 (c : Dev nD) (t : Fin cfg0.N) (d) : (dat0 V c).before 9 t d = iblk0 V c 9 t :=
  ((dat0 V c).before_in_eq_fetched 9 rfl (fun _ => rfl) (fun _ _ _ => rfl) (fun t => by rw [after0_9]; unfold Dat.blockOf iblk0; rw [A_eq0]; try rfl) t d).trans
    (by unfold Dat.fetched Dat.blockOf iblk0; rw [A_eq0]; try rfl)
theorem before0_10 (c : Dev nD) (t : Fin cfg0.N) (d) : (dat0 V c).before 10 t d = iblk0 V c 10 t :=
  ((dat0 V c).before_in_eq_fetched 10 rfl (fun _ => rfl) (fun _ _ _ => rfl) (fun t => by rw [after0_10]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel0 c Set.univ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's body obligation for the first call, at every point. -/
theorem body_obligation0 (c : Dev nD) : BodyObligation (dat0 (F := F) V c) (defs₀ (F := F)) Variants.none () Set.univ := fun t => by
  rw [bigSep_W0, bigSep_W0]
  exact sound_body0 V c t

/-! # The second call -/

/-- Window `w`'s block at tile `t`: its array read through the tile's rectangle, cut at the array's end. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The matrix tile as the proof names it: the rows inside the array, the zero word past them. -/
def wblk (c : Dev nD) (t : Fin cfg1.N) : S3072x1024.Idx → Elt F .f32 :=
  win1_1.fill (grid1.coords t) (fun _ => Scalar.ofBits .f32 0#32) (iblk1 V c 1 t)
/-- The biases of the tile likewise. -/
def bblk (c : Dev nD) (t : Fin cfg1.N) : S1x3072.Idx → Elt F .f32 :=
  win1_2.fill (grid1.coords t) (fun _ => Scalar.ofBits .f32 0#32) (iblk1 V c 2 t)
/-- The projected columns of tile `t` computed from those. -/
def oblk (c : Dev nD) (t : Fin cfg1.N) : S1x3072.Idx → Elt F .f32 :=
  projBuf (grid1.coords t) (iblk1 V c 0 t) (wblk V c t) (bblk V c t)

/-- The columns of a tile's result that lie inside the vocabulary do not depend on what the matrix's and the biases'
    buffers hold past the array's end. -/
def RowIndep (F : FTy → Type) [FloatOps F] : Prop :=
  ∀ (t : Fin cfg1.N) (x0 : Vec F S1x1024 .f32)
    (B1 : (win1_1.xblock (grid1.coords t)).Idx → Elt F .f32) (B2 : (win1_2.xblock (grid1.coords t)).Idx → Elt F .f32)
    (d1 d1' : S3072x1024.Idx → Elt F .f32) (d2 d2' : S1x3072.Idx → Elt F .f32),
    win1_3.cut (grid1.coords t) (projBuf (grid1.coords t) x0 (win1_1.fill (grid1.coords t) d1 B1) (win1_2.fill (grid1.coords t) d2 B2))
      = win1_3.cut (grid1.coords t) (projBuf (grid1.coords t) x0 (win1_1.fill (grid1.coords t) d1' B1) (win1_2.fill (grid1.coords t) d2' B2))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => wblk V c t
    | ⟨2, _⟩ => bblk V c t
    | ⟨3, _⟩ => oblk V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = wblk V c t := by dsimp only [dat1]
theorem after1_2 (c : Dev nD) (t : Fin cfg1.N) : (dat1 V c).after 2 t = bblk V c t := by dsimp only [dat1]
theorem after1_3 (c : Dev nD) (t : Fin cfg1.N) : (dat1 V c).after 3 t = oblk V c t := by dsimp only [dat1]

/-- The hidden row's buffer holds the row at every tile, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
/-- The matrix's buffer, fetched at every tile: the rows inside the array, `d` past them. -/
theorem before1_1 (c : Dev nD) (t : Fin cfg1.N) (d) : (dat1 V c).before 1 t d = win1_1.fill (grid1.coords t) d (iblk1 V c 1 t) := by
  rw [(dat1 V c).before_fetched 1 t (fetch1_1 t) d]; unfold Dat.fetched Dat.blockOf iblk1; rw [A_eq1]; try rfl
theorem before1_2 (c : Dev nD) (t : Fin cfg1.N) (d) : (dat1 V c).before 2 t d = win1_2.fill (grid1.coords t) d (iblk1 V c 2 t) := by
  rw [(dat1 V c).before_fetched 2 t (fetch1_2 t) d]; unfold Dat.fetched Dat.blockOf iblk1; rw [A_eq1]; try rfl
/-- The result's buffer, written back at every tile, holds anything when the body runs. -/
theorem before1_3 (c : Dev nD) (t : Fin cfg1.N) (d) : (dat1 V c).before 3 t d = d := by
  refine (dat1 V c).before_out_reset 3 rfl t ?_ d
  by_cases ht : t.val = 0
  · exact .inl ht
  · exact .inr ⟨ht, flush1_3 _⟩

/-- The mask of forgotten windows: the second call's result window, for an instance at which `RowIndep` is not known. -/
def fgtOut : Fin cfg1.W → Bool := fun | 0 => false | 1 => false | 2 => false | 3 => true | ⟨_ + 4, h⟩ => absurd h (Nat.not_lt.2 (Nat.le_add_left _ _))
def fgtNone : Fin cfg1.W → Bool := fun _ => false

set_option maxHeartbeats 2000000 in
/-- The second call's body obligation, nothing forgotten: the hidden row's buffer is left as found; the matrix's and
    the biases' are left as found, which on the rows inside the array is their block; the result's buffer is left at
    the projected columns computed from what the buffers held, which on the columns inside the array are `oblk`'s by
    `RowIndep`. -/
theorem body_obligation1 (hind : RowIndep F) (c : Dev nD) :
    BodyObligationLoose (dat1 (F := F) V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  change _ ⊢ wp frame (wpE (defs₀ (F := F)) Variants.none c none) Set.univ (bodyAt1 t) _
  unfold bodyAt1
  iintro ⟨HΦ, Ho, ⟨%d0, H0⟩, ⟨%d1, H1⟩, ⟨%d2, H2⟩, ⟨%d3, H3⟩⟩
  rw [before1_0 V c t d0, before1_1 V c t d1, before1_2 V c t d2, before1_3 V c t d3]
  iapply (sound_kernel1 c Set.univ (grid1.coords t) _ _ _ _ _ _ _ _ (iblk1 V c 0 t)
    (win1_1.fill (grid1.coords t) d1 (iblk1 V c 1 t)) (win1_2.fill (grid1.coords t) d2 (iblk1 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · rw [after1_0]; iexact H0
  isplitl [H1]
  · iexists d1
    rw [after1_1, show win1_1.cut (grid1.coords t) (wblk V c t) = iblk1 V c 1 t from win1_1.cut_fill _ _ _]
    iexact H1
  isplitl [H2]
  · iexists d2
    rw [after1_2, show win1_2.cut (grid1.coords t) (bblk V c t) = iblk1 V c 2 t from win1_2.cut_fill _ _ _]
    iexact H2
  iexists projBuf (grid1.coords t) (iblk1 V c 0 t) (win1_1.fill (grid1.coords t) d1 (iblk1 V c 1 t)) (win1_2.fill (grid1.coords t) d2 (iblk1 V c 2 t))
  rw [after1_3, show win1_3.cut (grid1.coords t) (oblk V c t)
      = win1_3.cut (grid1.coords t) (projBuf (grid1.coords t) (iblk1 V c 0 t) (win1_1.fill (grid1.coords t) d1 (iblk1 V c 1 t)) (win1_2.fill (grid1.coords t) d2 (iblk1 V c 2 t)))
      from hind t _ _ _ _ _ _ _, win1_3.fill_cut]
  iexact H3

set_option maxHeartbeats 2000000 in
/-- The same with the result window forgotten: its buffer is handed over and taken back at contents nobody names. -/
theorem body_obligation1_fgt (c : Dev nD) :
    BodyObligationLoose (dat1 (F := F) V c) (defs₀ (F := F)) Variants.none () Set.univ fgtOut := fun t => by
  rw [bigSep_W1, bigSep_W1]
  simp only [fgtOut]
  rw [show (dat1 V c).Φ t.succ = (dat1 V c).Φ t.castSucc from rfl,
    show (dat1 V c).owesAt () t.succ = (dat1 V c).owesAt () t.castSucc from rfl]
  change _ ⊢ wp frame (wpE (defs₀ (F := F)) Variants.none c none) Set.univ (bodyAt1 t) _
  unfold bodyAt1
  iintro ⟨HΦ, Ho, ⟨%d0, H0⟩, ⟨%d1, H1⟩, ⟨%d2, H2⟩, ⟨%d3, H3⟩⟩
  rw [before1_0 V c t d0, before1_1 V c t d1, before1_2 V c t d2]
  iapply (sound_kernel1 c Set.univ (grid1.coords t) _ _ _ _ _ _ _ _ (iblk1 V c 0 t)
    (win1_1.fill (grid1.coords t) d1 (iblk1 V c 1 t)) (win1_2.fill (grid1.coords t) d2 (iblk1 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · rw [after1_0]; iexact H0
  isplitl [H1]
  · iexists d1
    rw [after1_1, show win1_1.cut (grid1.coords t) (wblk V c t) = iblk1 V c 1 t from win1_1.cut_fill _ _ _]
    iexact H1
  isplitl [H2]
  · iexists d2
    rw [after1_2, show win1_2.cut (grid1.coords t) (bblk V c t) = iblk1 V c 2 t from win1_2.cut_fill _ _ _]
    iexact H2
  iexists _; iexact H3

end Cert.KernelIdeal.Hand

end
-- ==== Proof.KIRun.lean ====
/-
  The run of the whole program from the launch memory: the lookup of the embedded row and the reshapes, the first call,
  the second call, the log-softmax and the last broadcast, each entered from what the one before left in the unscoped
  buffers. What the second call leaves in the logits array is named only where its result window is not forgotten;
  the operations after it run from whatever it left.
-/
import proofs.«421128_j85564338471302_3_alg».proof.Proof.KIData
import proofs.«421128_j85564338471302_3_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-! ##WORK-START -/

variable (m : (ℓ : Loc nD τ sig) → Buf (Elt F) ℓ) (ρ : Dev nD → PrngReg)

/-! ## The unscoped buffers between the program's items -/

/-- At launch; after the 22 operations of the lookup; after the six reshapes (the first call's entry). -/
abbrev W0 : Dev nD → Valuation τ sig (Elt F) := fun c => V0 m c
abbrev W1 : Dev nD → Valuation τ sig (Elt F) := fun c => V1 m c
abbrev W2 : Dev nD → Valuation τ sig (Elt F) := fun c => V2 m c
abbrev U2 : (c : Dev nD) → (b : Ref sig .tc) → Buf (Elt F) ((c : Thread nD τ).loc b) := fun c b => W2 m c b

/-- At the first call's exit: its arrays at what its write-backs leave, every other buffer as entered. -/
def W3 (c : Dev nD) : Valuation τ sig (Elt F) :=
  Pipeline.withArrays spec0 c (W2 m c) fun w => (dat0 (U2 m) c).arrAt w cfg0.N
theorem W3_arr (c : Dev nD) (w : Fin cfg0.W) :
    W3 m c (Proc.devRef .tc (Pipeline.arrRef spec0 w)) = (dat0 (U2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
abbrev U3 : (c : Dev nD) → (b : Ref sig .tc) → Buf (Elt F) ((c : Thread nD τ).loc b) := fun c b => W3 m c b
theorem hF0 (c : Dev nD) (w : Fin cfg0.W) : (dat0 (U2 m) c).arrAt w cfg0.N = U3 m c (Pipeline.arrRef spec0 w) :=
  (W3_arr m c w).symm
theorem hrest0 (c : Dev nD) : ∀ b, b ∉ Finset.univ.image (Pipeline.arrRef spec0) → U3 m c b = U2 m c b :=
  fun b hb => W3_of_ne m c b fun w e => hb (Finset.mem_image.mpr ⟨w, Finset.mem_univ _, e⟩)

/-- An input window's array is left as entered. -/
theorem W3_in (c : Dev nD) (w : Fin cfg0.W) (hw : (cfg0.win w).isOut = false) :
    W3 m c (Proc.devRef .tc (Pipeline.arrRef spec0 w)) = W2 m c (Proc.devRef .tc (Pipeline.arrRef spec0 w)) :=
  (W3_arr m c w).trans (((dat0 (U2 m) c).arrAt_in w hw _).trans (A_eq0 (U2 m) c w))

/-- The logits array's contents on core `c`. -/
abbrev Out8 (c : Dev nD) : Type := Buf (Elt F) ((c : Thread nD τ).loc main_v8)

/-- At the second call's exit, the logits array at `f`: every other buffer as entered. -/
def W4 (c : Dev nD) (f : Out8 (F := F) c) : Valuation τ sig (Elt F) :=
  Function.update (W3 m c) (Proc.devRef .tc main_v8) f
abbrev U4 (c : Dev nD) (f : Out8 (F := F) c) : (b : Ref sig .tc) → Buf (Elt F) ((c : Thread nD τ).loc b) := fun b => W4 m c f b
/-- After the log-softmax; after the last broadcast. -/
abbrev W5 (c : Dev nD) (f : Out8 (F := F) c) : Valuation τ sig (Elt F) := StableHlo.after hostOps2 (W4 m c f)
abbrev W6 (c : Dev nD) (f : Out8 (F := F) c) : Valuation τ sig (Elt F) := StableHlo.after hostOps2_1 (W5 m c f)

/-- A buffer no host operation writes and no call changes holds its launch contents at the end. -/
theorem W6_of (c : Dev nD) (f : Out8 (F := F) c) (r : Ref sig .tc) (h21 : r ∉ hostOps2_1_W) (h2 : r ∉ hostOps2_W)
    (h8 : r ≠ main_v8) (h0 : W3 m c (Proc.devRef .tc r) = W2 m c (Proc.devRef .tc r)) (h01 : r ∉ hostOps0_1_W) (h00 : r ∉ hostOps0_W) :
    W6 m c f (Proc.devRef .tc r) = m ((c : Thread nD τ).loc r) :=
  calc W6 m c f (Proc.devRef .tc r)
    _ = W5 m c f (Proc.devRef .tc r) := StableHlo.after_of_writes_sub hostOps2_1 _ hostOps2_1_writes h21
    _ = W4 m c f (Proc.devRef .tc r) := StableHlo.after_of_writes_sub hostOps2 _ hostOps2_writes h2
    _ = W3 m c (Proc.devRef .tc r) := by
          unfold W4; exact Function.update_of_ne (StableHlo.devRef_ne_of_ne h8) _ _
    _ = W2 m c (Proc.devRef .tc r) := h0
    _ = m ((c : Thread nD τ).loc r) := (V2_of m c r h01).trans ((V1_of m c r h00).trans rfl)

/-! ## The proof data family, with the second call's windows forgotten as `fgt1` says -/

variable (fgt1 : Fin cfg1.W → Bool)

abbrev adm' : (p : Fin 2) → (pcfgs (F := F) p).Adm := fun p => (cfgs p).toPCfg_adm

/-- Both calls' exact proof data, each at its entry contents. -/
def pdats : (p : Fin 2) → (c : Dev nD) → Dat τ (Elt F) Unit ℕ (UR sig nD τ) ℕ (Pipeline.pin (pcfgs (F := F)) adm' p) c
  | ⟨0, _⟩ => fun c => dat0 (U2 m) c
  | ⟨1, _⟩ => fun c => dat1 (U3 m) c

/-- The same read as relational data: the first call's exactly, the second call's with the windows `fgt1` marks
    saying nothing. -/
def rdats : (p : Fin 2) → (c : Dev nD) → RDat τ (Elt F) Unit ℕ (UR sig nD τ) ℕ (Pipeline.pin (pcfgs (F := F)) adm' p) c
  | ⟨0, _⟩ => fun c => (dat0 (U2 m) c).toR
  | ⟨1, _⟩ => fun c => (dat1 (U3 m) c).toRForget fgt1

abbrev 𝒱₀' : Variants := Variants.none
abbrev L' : GSem nD τ sig → Finset Unit := fun _ => ∅
abbrev lv' : GSem nD τ sig → Unit → ℕ := fun _ _ => 0

/-- What rides beside the buffers: the core's generator register at some state and its debts, none. -/
abbrev R (c : Dev nD) : sProp 𝕄 := iprop((∃ r, prngReg c r) ∗ ∃ W, owes (c : Thread nD τ) (0 : CellTallies nD τ sig Unit) W)

/-- What is known of the logits array after the second call: what the write-backs leave, when its window is not
    forgotten. -/
def Known (c : Dev nD) (f : Out8 (F := F) c) : Prop := fgt1 3 = false → f = (dat1 (U3 m) c).arrAt 3 cfg1.N

/-- A stretch of host operations from definite contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀' L' lv' :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

-- the host rules are stated over the lifted definitions and variants
set_option backward.isDefEq.respectTransparency.types false in
/-- A stretch of host operations from contents that depend on the logits array the second call left, whatever it is:
    for each such array the stretch runs as from definite contents. -/
def hsegEx (ops : List (HloOp τ sig (Elt F))) (hsub : ops.Forall fun op => op.bufs ⊆ StableHlo.tcRefs τ sig)
    (hfresh : ops.Forall fun op => op.fresh = ∅) (W : (c : Dev nD) → Out8 (F := F) c → Valuation τ sig (Elt F)) :
    Pipeline.HostSeg (Name := ℕ) (U := UR sig nD τ) (pcfgs (F := F)) defs₀ 𝒱₀' L' lv' where
  prog := StableHlo.seq ops
  pre c := iprop(∃ f, ⌜Known m fgt1 c f⌝ ∗ StableHlo.held (c : Thread nD τ) (Pipeline.ucRefs τ sig) (W c f) ∗ R c)
  post c := iprop(∃ f, ⌜Known m fgt1 c f⌝ ∗ StableHlo.held (c : Thread nD τ) (Pipeline.ucRefs τ sig) (StableHlo.after ops (W c f)) ∗ R c)
  run c {β} k K := by
    iintro ⟨Hk, Hbd, ⟨%f, %hf, Hh, HR⟩, -⟩
    have hseq := StableHlo.wp_seq (defs := Pipeline.defs (pcfgs (F := F)) defs₀) (Variants.lift 𝒱₀') none Set.univ c (Pipeline.ucRefs τ sig) k (K := K) ops
      (fun op h => Pipeline.sub_ucRefs op ((List.forall_iff_forall_mem.mp hsub) op h))
      (fun op h => (List.forall_iff_forall_mem.mp hfresh) op h) (W c f)
    iapply hseq $$ [Hbd Hh]
    · isplitl [Hbd] <;> iassumption
    iintro ⟨Hbd, Hh⟩
    iapply Hk
    isplitl [Hbd]; · iexact Hbd
    iexists f; isplitr; · ipureintro; exact hf
    isplitl [Hh] <;> iassumption

/-! ## The two calls as segments -/

-- a library lemma stated over the pinned configuration unifies with it only when unification may unfold plain
-- definitions in a metavariable's type
set_option backward.isDefEq.respectTransparency.types false in
/-- The first call: entered from every unscoped buffer at `W2`, left at `W3`. -/
def reg0 : Pipeline.RDat.RegionSeg (pcfgs (F := F)) adm' (rdats m fgt1) () defs₀ 𝒱₀' L' lv' 0 where
  win := launch0.win.to₀
  block_pos := launch0.block_pos
  stage_whole := launch0.stage_whole
  K := PEmpty
  osem k := k.elim
  ho := Pipeline.OwnSemFacts.none _
  hbody c := (body_obligation0 (U2 m) c).loose.toR
  hwaits := Pipeline.RDat.hwaits_of_owed_zero _ _ _ _ L' lv' 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (U2 m c)
  hentry c := by
    rw [Pipeline.ownSems0_none]
    have hsplit := Pipeline.RDat.arrays_of_unscopedBufs (p := 0) (pcfgs (F := F)) adm' (rdats m fgt1) launch0.win launch0.arr_whole c
      ((rdats m fgt1 0 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt1 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m fgt1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (U2 m c) (U3 m c) ((pdats m 0 c).arrAt · cfg0.N) (hF0 m c) (hrest0 m c)
    rw [Pipeline.unscopedBufs_held] at hjoin
    rw [show (rdats m fgt1 0 c).arraysAt (Pipeline.pin (pcfgs (F := F)) adm' 0).N = ((pdats m 0 c).arrays ((pdats m 0 c).arrAt · cfg0.N) : sProp 𝕄)
      from (dat0 (U2 m) c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

theorem W4_of_ne (c : Dev nD) (f : Out8 (F := F) c) (b : Ref sig .tc) (hb : b ≠ main_v8) :
    W4 m c f (Proc.devRef .tc b) = W3 m c (Proc.devRef .tc b) := by
  unfold W4; exact Function.update_of_ne (StableHlo.devRef_ne_of_ne hb) _ _
theorem W4_out (c : Dev nD) (f : Out8 (F := F) c) : W4 m c f (Proc.devRef .tc main_v8) = f := by
  unfold W4; exact Function.update_self _ _ _

set_option maxHeartbeats 4000000 in
set_option backward.isDefEq.respectTransparency.types false in
/-- The second call: entered from every unscoped buffer at `W3`, left at `W4` of whatever the logits array then
    holds — what the write-backs leave, where its window is not forgotten. -/
def reg1 (hfg : ∀ w : Fin cfg1.W, w ≠ 3 → fgt1 w = false)
    (hb1 : ∀ c, BodyObligationLoose (dat1 (F := F) (U3 m) c) (defs₀ (F := F)) 𝒱₀' () Set.univ fgt1) :
    Pipeline.RDat.RegionSeg (pcfgs (F := F)) adm' (rdats m fgt1) () defs₀ 𝒱₀' L' lv' 1 where
  win := launch1.win.to₀
  block_pos := launch1.block_pos
  stage_whole := launch1.stage_whole
  K := PEmpty
  osem k := k.elim
  ho := Pipeline.OwnSemFacts.none _
  hbody c := (hb1 c).toRForget
  hwaits := Pipeline.RDat.hwaits_of_owed_zero _ _ _ _ L' lv' 1 fun _ _ => rfl
  pre c := iprop(StableHlo.held (c : Thread nD τ) (Pipeline.ucRefs τ sig) (W3 m c) ∗ R c)
  post c := iprop(∃ f, ⌜Known m fgt1 c f⌝ ∗ StableHlo.held (c : Thread nD τ) (Pipeline.ucRefs τ sig) (W4 m c f) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.RDat.arrays_of_unscopedBufs (p := 1) (pcfgs (F := F)) adm' (rdats m fgt1) launch1.win launch1.arr_whole c
      ((rdats m fgt1 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt1 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m fgt1 1 c).Φ (Fin.last _) = Pipeline.ΦA spec1 c from rfl]; unfold Pipeline.ΦA
    iintro ⟨Hr, Hp⟩
    isplitl [Hp]; · iexact Hp
    isplitr; · iempintro
    iexact Hr
  hexit c := by
    have hopen : ((rdats m fgt1 1 c).arraysAt (Pipeline.pin (pcfgs (F := F)) adm' 1).N : sProp 𝕄)
        = (RDat.arraysAt (cfg := cfg1) ((dat1 (U3 m) c).toRForget fgt1) cfg1.N : sProp 𝕄) := rfl
    rw [hopen]
    unfold RDat.arraysAt
    rw [bigSep_W1]
    iintro ⟨⟨⟨%F0, %h0, A0⟩, ⟨%F1, %h1, A1⟩, ⟨%F2, %h2, A2⟩, ⟨%F3, %h3, A3⟩⟩, HO, HY, Hrest⟩
    have e0 := ((dat1 (U3 m) c).toRForget_arrAt_iff (hfg 0 (by decide)) cfg1.N F0).mp h0
    have e1 := ((dat1 (U3 m) c).toRForget_arrAt_iff (hfg 1 (by decide)) cfg1.N F1).mp h1
    have e2 := ((dat1 (U3 m) c).toRForget_arrAt_iff (hfg 2 (by decide)) cfg1.N F2).mp h2
    subst e0 e1 e2
    have hin : ∀ w : Fin cfg1.W, w ≠ 3 → (cfg1.win w).isOut = false := by decide
    have hne : ∀ w : Fin cfg1.W, w ≠ 3 → Pipeline.arrRef spec1 w ≠ main_v8 := by decide
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (U3 m c) (U4 m c F3)
      (Function.update (fun w => (dat1 (U3 m) c).arrAt w cfg1.N) (3 : Fin cfg1.W) F3)
      (fun w => by
        by_cases hw : w = 3
        · subst hw; rw [Function.update_self]; exact (W4_out m c F3).symm
        · rw [Function.update_of_ne hw]
          exact ((dat1 (U3 m) c).arrAt_in w (hin w hw) _).trans ((A_eq1 (U3 m) c w).trans (W4_of_ne m c F3 _ (hne w hw)).symm))
      (fun b hb => W4_of_ne m c F3 b fun e => hb (Finset.mem_image.mpr ⟨3, Finset.mem_univ _, e.symm⟩))
    rw [Pipeline.unscopedBufs_held] at hjoin
    unfold Dat.arrays at hjoin
    rw [bigSep_W1] at hjoin
    rw [Function.update_of_ne (show (0 : Fin cfg1.W) ≠ 3 by decide), Function.update_of_ne (show (1 : Fin cfg1.W) ≠ 3 by decide),
      Function.update_of_ne (show (2 : Fin cfg1.W) ≠ 3 by decide), Function.update_self] at hjoin
    imodintro
    iexists F3
    isplitr
    · ipureintro; exact fun h => ((dat1 (U3 m) c).toRForget_arrAt_iff h cfg1.N F3).mp h3
    isplitl [A0 A1 A2 A3 Hrest]
    · iapply hjoin
      isplitl [A0 A1 A2 A3]
      · isplitl [A0]; · iexact A0
        isplitl [A1]; · iexact A1
        isplitl [A2]; · iexact A2
        iexact A3
      iexact Hrest
    isplitl [HY]; · iexact HY
    unfold Pipeline.RDat.owesAt Pipeline.owesWithin
    icases HO with ⟨%W, -, HO⟩; iexists W; iexact HO

/-! ## @main as segments, and the launch -/

/-- @main's six items in order: the lookup, the reshapes, the two calls, the log-softmax, the last broadcast. -/
abbrev segs (hfg : ∀ w : Fin cfg1.W, w ≠ 3 → fgt1 w = false)
    (hb1 : ∀ c, BodyObligationLoose (dat1 (F := F) (U3 m) c) (defs₀ (F := F)) 𝒱₀' () Set.univ fgt1) :
    List (Pipeline.RDat.Seg (pcfgs (F := F)) adm' (rdats m fgt1) () defs₀ 𝒱₀' L' lv') :=
  [ .host (hseg hostOps0 hostOps0_sub hostOps0_fresh (W0 m)),
    .host (hseg hostOps0_1 hostOps0_1_sub hostOps0_1_fresh (W1 m)),
    .region (reg0 m fgt1),
    .region (reg1 m fgt1 hfg hb1),
    .host (hsegEx m fgt1 hostOps2 hostOps2_sub hostOps2_fresh (W4 m)),
    .host (hsegEx m fgt1 hostOps2_1 hostOps2_1_sub hostOps2_1_fresh (W5 m)) ]

/-- The last thread state without the debts: the unscoped buffers at the last contents for some logits array the
    second call may have left, the generator register at some state. -/
abbrev Tlast (c : Dev nD) : sProp 𝕄 :=
  iprop(∃ f, ⌜Known m fgt1 c f⌝ ∗ StableHlo.held (c : Thread nD τ) (Pipeline.ucRefs τ sig) (W6 m c f) ∗ ∃ r, prngReg c r)

/-- What a final memory is read to hold on core `c`. -/
def Final (c : Dev nD) (s : MemSt nD τ sig (Elt F)) : Prop :=
  ∃ f : Out8 (F := F) c, Known m fgt1 c f ∧ ∀ b ∈ Pipeline.ucRefs τ sig, s.mem (((c : Thread nD τ)).1, b) = W6 m c f b

set_option backward.isDefEq.respectTransparency.types false in
/-- THE RUN. From any memory with zero counters every weakly fair execution of @main terminates, nothing faulting,
    and every final memory holds, on each core, every unscoped buffer at the last contents `W6` for some logits array
    `f` of which `Known` holds. -/
theorem run_all (hfg : ∀ w : Fin cfg1.W, w ≠ 3 → fgt1 w = false)
    (hb1 : ∀ c, BodyObligationLoose (dat1 (F := F) (U3 m) c) (defs₀ (F := F)) 𝒱₀' () Set.univ fgt1) :
    θ_run defs (onTc (τ := τ) (main (F := F))) ⟨m, fun _ => 0, ρ⟩ (fun r => ∀ c : Dev nD, Final m fgt1 c r.2) :=
  Pipeline.RDat.θ_run_regions_kit (pcfgs (F := F)) adm' (rdats m fgt1) () cellOf_inj emb₁ defs₀ 𝒱₀' L' lv' m ρ main (segs m fgt1 hfg hb1)
    (fun c Q => by
      rewrite [main_chain c, Pipeline.RDat.Seg.run_eq_chain,
        show (segs m fgt1 hfg hb1).map Pipeline.RDat.Seg.prog = [
          StableHlo.seq hostOps0,
          StableHlo.seq hostOps0_1,
          Prog.lift (.customCall (Pipeline.entry 0) ()),
          Prog.lift (.customCall (Pipeline.entry 1) ()),
          StableHlo.seq hostOps2,
          StableHlo.seq hostOps2_1 ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tlast m fgt1)
    (hch := ⟨fun _ => .rfl, fun _ => .rfl, fun _ => .rfl, fun _ => .rfl, fun _ => .rfl, fun _ => .rfl, fun c => by
      show iprop(∃ f, ⌜Known m fgt1 c f⌝ ∗ StableHlo.held (c : Thread nD τ) (Pipeline.ucRefs τ sig) (StableHlo.after hostOps2_1 (W5 m c f)) ∗ R c) ⊢ _
      iintro ⟨%f, %hf, Hh, Hp, HO⟩
      isplitl [Hh Hp]
      · iexists f; isplitr; · ipureintro; exact hf
        isplitl [Hh]; · iexact Hh
        iexact Hp
      iexact HO⟩)
    (hinit := by
      refine Pipeline.initEach L' lv' fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := Final m fgt1)
    (hfin := fun c s' => by
      unfold Tlast StableHlo.held
      iintro ⟨⟨%f, %hf, Hh, -⟩, HSI⟩
      ihave Hr := (pointsTo_read_all (Pipeline.ucRefs τ sig) (fun b => (((c : Thread nD τ)).1, b)) (W6 m c f) s') $$ [Hh HSI]
      · isplitl [Hh] <;> iassumption
      icases Hr with ⟨%h, HSI⟩
      imodintro
      isplitr
      · ipureintro; exact ⟨f, hf, h⟩
      · iexact HSI)
    (hQ := fun _ h => h)

/-! ## What a final memory holds, read at the arguments and at the results -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every argument array ends holding its launch contents. -/
theorem Final.args {c : Dev nD} {s : MemSt nD τ sig (Elt F)} (hs : Final m fgt1 c s) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)
    ∧ s.mem ((c.tc : Thread nD τ).loc main_arg12) = m ((c.tc : Thread nD τ).loc main_arg12)
    ∧ s.mem ((c.tc : Thread nD τ).loc main_arg13) = m ((c.tc : Thread nD τ).loc main_arg13) := by
  obtain ⟨f, -, h⟩ := hs
  have key : ∀ (r : Ref sig .tc), ¬ (Proc.devRef .tc r : DevRef τ sig).isScoped → r ∉ hostOps2_1_W → r ∉ hostOps2_W → r ≠ main_v8 →
      W3 m c (Proc.devRef .tc r) = W2 m c (Proc.devRef .tc r) → r ∉ hostOps0_1_W → r ∉ hostOps0_W →
      s.mem ((c.tc : Thread nD τ).loc r) = m ((c.tc : Thread nD τ).loc r) :=
    fun r h0 h1 h2 h3 h4 h5 h6 => (h _ (mem_uc r h0)).trans (W6_of m c f r h1 h2 h3 h4 h5 h6)
  exact ⟨key main_arg0 (by decide) (by decide) (by decide) (by decide) (W3_of_ne m c main_arg0 (by decide)) (by decide) (by decide),
    key main_arg1 (by decide) (by decide) (by decide) (by decide) (W3_of_ne m c main_arg1 (by decide)) (by decide) (by decide),
    key main_arg2 (by decide) (by decide) (by decide) (by decide) (W3_in m c 2 rfl) (by decide) (by decide),
    key main_arg3 (by decide) (by decide) (by decide) (by decide) (W3_of_ne m c main_arg3 (by decide)) (by decide) (by decide),
    key main_arg4 (by decide) (by decide) (by decide) (by decide) (W3_in m c 3 rfl) (by decide) (by decide),
    key main_arg5 (by decide) (by decide) (by decide) (by decide) (W3_of_ne m c main_arg5 (by decide)) (by decide) (by decide),
    key main_arg6 (by decide) (by decide) (by decide) (by decide) (W3_in m c 5 rfl) (by decide) (by decide),
    key main_arg7 (by decide) (by decide) (by decide) (by decide) (W3_of_ne m c main_arg7 (by decide)) (by decide) (by decide),
    key main_arg8 (by decide) (by decide) (by decide) (by decide) (W3_in m c 7 rfl) (by decide) (by decide),
    key main_arg9 (by decide) (by decide) (by decide) (by decide) (W3_in m c 8 rfl) (by decide) (by decide),
    key main_arg10 (by decide) (by decide) (by decide) (by decide) (W3_of_ne m c main_arg10 (by decide)) (by decide) (by decide),
    key main_arg11 (by decide) (by decide) (by decide) (by decide) (W3_of_ne m c main_arg11 (by decide)) (by decide) (by decide),
    key main_arg12 (by decide) (by decide) (by decide) (by decide) (W3_of_ne m c main_arg12 (by decide)) (by decide) (by decide),
    key main_arg13 (by decide) (by decide) (by decide) (by decide) (W3_of_ne m c main_arg13 (by decide)) (by decide) (by decide)⟩

/-- The frame at any instance: with the second call's result window forgotten nothing is asked of the arithmetic. -/
theorem frame_any : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => Final.args m fgtOut (h c))
    (run_all m ρ fgtOut (by decide) (fun c => body_obligation1_fgt (U3 m) c))

end Cert.KernelIdeal.Hand

end
-- ==== Proof.KIVal0.lean ====
/-
  The first call's two result arrays in closed form, and the six rows the second stretch of host operations reshapes
  out of arguments. The first call has one grid point and every window's block is its whole array: a block read off its
  array is the array, the body's one whole store over whole loads leaves its payload of the loaded buffers, and the one
  write-back of the whole block over the whole array leaves that payload in the array. So the attention-weights array
  and the hidden-row array end at the body's arithmetic applied to the arrays the call found.
-/
import proofs.«421128_j85564338471302_3_alg».proof.Proof.KIData
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

/-! ## The first call's two results in closed form -/

theorem val0_hz : (![0, 0] : Fin 2 → Nat) = fun _ => 0 := by
  funext a; match a with | ⟨0, _⟩ => rfl | ⟨1, _⟩ => rfl

/-- One whole store over whole loads leaves the payload of the loaded buffers themselves: the attention weights, -/
theorem attnBuf_eq (x0 x1 : Vec F S1x1024 .f32) (x3 : Vec F S512x2048 .f32) (x4 : Vec F S1x512 .f32) :
    attnBuf x0 x1 x3 x4 = k0_pay4 x0 x1 x3 x4 := by
  unfold attnBuf
  rw [View.canon_unit_zero val0_hz]
  simp only [View.ld_unit_zero (S := S1x1024) val0_hz, View.ld_unit_zero (S := S512x2048) val0_hz, View.ld_unit_zero (S := S1x512) val0_hz]

/-- and the new hidden row. -/
theorem hidBuf_eq (x0 : Vec F S1x1024 .f32) (x1 : Vec F S1x1024 .f32) (x2 : Vec F S512x1024 .f32) (x3 : Vec F S512x2048 .f32)
    (x4 : Vec F S1x512 .f32) (x5 : Vec F S1024x2048 .f32) (x6 : Vec F S1x1024 .f32) (x7 : Vec F S3072x1024 .f32)
    (x8 : Vec F S3072x1024 .f32) (x9 : Vec F S1x3072 .f32) (x10 : Vec F S1x3072 .f32) :
    hidBuf x0 x1 x2 x3 x4 x5 x6 x7 x8 x9 x10
      = k0_pay1 (k0_pay3 x1) (k0_pay5 x0 x1 x3 x4 x2 x5 x6) x7 x9 x8 x10 := by
  unfold hidBuf
  rw [View.canon_unit_zero val0_hz]
  simp only [View.ld_unit_zero (S := S1x1024) val0_hz, View.ld_unit_zero (S := S512x2048) val0_hz, View.ld_unit_zero (S := S1x512) val0_hz,
    View.ld_unit_zero (S := S512x1024) val0_hz, View.ld_unit_zero (S := S1024x2048) val0_hz, View.ld_unit_zero (S := S3072x1024) val0_hz,
    View.ld_unit_zero (S := S1x3072) val0_hz]

/-- A whole buffer read through the rectangle of all of it, at zero offsets however spelt, is its contents. -/
theorem val0_read_whole {κ : Kind} (b : Ref sig κ) {off : Fin b.ty.shape.rank → Nat} (h : off = fun _ => 0)
    (inb : ∀ a, off a + b.ty.shape.size a ≤ b.ty.shape.size a) (f : b.ty.Contents (Elt F)) :
    ((View.whole b).slice (Rect.unit off b.ty.shape.size inb)).read (Elt F) f = f := by
  subst h
  funext x
  rw [View.read_apply]
  show f ((Rect.whole b.ty.shape).emb x) = f x
  rw [Rect.emb_whole_apply]

/-! Each window's block at the one point is its whole array. -/

theorem iblk0_0 (c : Dev nD) (t : Fin cfg0.N) : iblk0 V c 0 t = V c main_v0 := by
  unfold iblk0
  exact val0_read_whole main_v0 (off := fun a => win0_0.index t a * win0_0.size a)
    (by funext a; match a with | ⟨0, _⟩ => rfl | ⟨1, _⟩ => rfl) _ _
theorem iblk0_1 (c : Dev nD) (t : Fin cfg0.N) : iblk0 V c 1 t = V c main_v1 := by
  unfold iblk0
  exact val0_read_whole main_v1 (off := fun a => win0_1.index t a * win0_1.size a)
    (by funext a; match a with | ⟨0, _⟩ => rfl | ⟨1, _⟩ => rfl) _ _
theorem iblk0_2 (c : Dev nD) (t : Fin cfg0.N) : iblk0 V c 2 t = V c main_arg2 := by
  unfold iblk0
  exact val0_read_whole main_arg2 (off := fun a => win0_2.index t a * win0_2.size a)
    (by funext a; match a with | ⟨0, _⟩ => rfl | ⟨1, _⟩ => rfl) _ _
theorem iblk0_3 (c : Dev nD) (t : Fin cfg0.N) : iblk0 V c 3 t = V c main_arg4 := by
  unfold iblk0
  exact val0_read_whole main_arg4 (off := fun a => win0_3.index t a * win0_3.size a)
    (by funext a; match a with | ⟨0, _⟩ => rfl | ⟨1, _⟩ => rfl) _ _
theorem iblk0_4 (c : Dev nD) (t : Fin cfg0.N) : iblk0 V c 4 t = V c main_v2 := by
  unfold iblk0
  exact val0_read_whole main_v2 (off := fun a => win0_4.index t a * win0_4.size a)
    (by funext a; match a with | ⟨0, _⟩ => rfl | ⟨1, _⟩ => rfl) _ _
theorem iblk0_5 (c : Dev nD) (t : Fin cfg0.N) : iblk0 V c 5 t = V c main_arg6 := by
  unfold iblk0
  exact val0_read_whole main_arg6 (off := fun a => win0_5.index t a * win0_5.size a)
    (by funext a; match a with | ⟨0, _⟩ => rfl | ⟨1, _⟩ => rfl) _ _
theorem iblk0_6 (c : Dev nD) (t : Fin cfg0.N) : iblk0 V c 6 t = V c main_v3 := by
  unfold iblk0
  exact val0_read_whole main_v3 (off := fun a => win0_6.index t a * win0_6.size a)
    (by funext a; match a with | ⟨0, _⟩ => rfl | ⟨1, _⟩ => rfl) _ _
theorem iblk0_7 (c : Dev nD) (t : Fin cfg0.N) : iblk0 V c 7 t = V c main_arg8 := by
  unfold iblk0
  exact val0_read_whole main_arg8 (off := fun a => win0_7.index t a * win0_7.size a)
    (by funext a; match a with | ⟨0, _⟩ => rfl | ⟨1, _⟩ => rfl) _ _
theorem iblk0_8 (c : Dev nD) (t : Fin cfg0.N) : iblk0 V c 8 t = V c main_arg9 := by
  unfold iblk0
  exact val0_read_whole main_arg9 (off := fun a => win0_8.index t a * win0_8.size a)
    (by funext a; match a with | ⟨0, _⟩ => rfl | ⟨1, _⟩ => rfl) _ _
theorem iblk0_9 (c : Dev nD) (t : Fin cfg0.N) : iblk0 V c 9 t = V c main_v4 := by
  unfold iblk0
  exact val0_read_whole main_v4 (off := fun a => win0_9.index t a * win0_9.size a)
    (by funext a; match a with | ⟨0, _⟩ => rfl | ⟨1, _⟩ => rfl) _ _
theorem iblk0_10 (c : Dev nD) (t : Fin cfg0.N) : iblk0 V c 10 t = V c main_v5 := by
  unfold iblk0
  exact val0_read_whole main_v5 (off := fun a => win0_10.index t a * win0_10.size a)
    (by funext a; match a with | ⟨0, _⟩ => rfl | ⟨1, _⟩ => rfl) _ _

/-- The attention-weights array after the first call: the body's payload of the arrays the call found. -/
theorem attn_final (c : Dev nD) :
    (dat0 V c).arrAt 11 cfg0.N = k0_pay4 (V c main_v0) (V c main_v1) (V c main_arg4) (V c main_v2) := by
  refine (dat0 V c).arrAt_eq_of_cover 11 _ (fun t _ => ?_) (fun i => ⟨t0_0, flush0_11 _, ?_⟩)
  · show (dat0 V c).after 11 t = ((cfg0.win 11).blk t).view.read (Elt F) _
    rw [after0_11, attnBuf_eq, iblk0_0, iblk0_1, iblk0_3, iblk0_4]
    exact (val0_read_whole main_v7_0 (off := fun a => win0_11.index t a * win0_11.size a)
      (by funext a; match a with | ⟨0, _⟩ => rfl | ⟨1, _⟩ => rfl) _ _).symm
  · show i ∈ ((View.whole main_v7_0).slice (win0_11.rect t0_0)).set
    rw [View.set_slice_whole]
    exact View.mem_set_unit_zero (S := S1x512) (off := fun a => win0_11.index t0_0 a * win0_11.size a)
      (by funext a; match a with | ⟨0, _⟩ => rfl | ⟨1, _⟩ => rfl) _ i

/-- The hidden-row array after the first call likewise. -/
theorem hid_final (c : Dev nD) :
    (dat0 V c).arrAt 12 cfg0.N = k0_pay1 (k0_pay3 (V c main_v1))
      (k0_pay5 (V c main_v0) (V c main_v1) (V c main_arg4) (V c main_v2) (V c main_arg2) (V c main_arg6) (V c main_v3))
      (V c main_arg8) (V c main_v4) (V c main_arg9) (V c main_v5) := by
  refine (dat0 V c).arrAt_eq_of_cover 12 _ (fun t _ => ?_) (fun i => ⟨t0_0, flush0_12 _, ?_⟩)
  · show (dat0 V c).after 12 t = ((cfg0.win 12).blk t).view.read (Elt F) _
    rw [after0_12, hidBuf_eq, iblk0_0, iblk0_1, iblk0_2, iblk0_3, iblk0_4, iblk0_5, iblk0_6, iblk0_7, iblk0_8, iblk0_9, iblk0_10]
    exact (val0_read_whole main_v7_1 (off := fun a => win0_12.index t a * win0_12.size a)
      (by funext a; match a with | ⟨0, _⟩ => rfl | ⟨1, _⟩ => rfl) _ _).symm
  · show i ∈ ((View.whole main_v7_1).slice (win0_12.rect t0_0)).set
    rw [View.set_slice_whole]
    exact View.mem_set_unit_zero (S := S1x1024) (off := fun a => win0_12.index t0_0 a * win0_12.size a)
      (by funext a; match a with | ⟨0, _⟩ => rfl | ⟨1, _⟩ => rfl) _ i

/-! ## The second stretch of host operations: six reshapes of arguments into rows -/

section Reshapes
omit V
theorem after01_main_v1 (W : Valuation τ sig (Elt F)) :
    StableHlo.after (hostOps0_1 (F := F)) W (Proc.devRef .tc main_v1)
      = shapeCast S1x1024 (W (Proc.devRef .tc main_arg1)) shapeCasts_S1x1x1024_S1x1024 := by
  after_results
  rfl
theorem after01_main_v2 (W : Valuation τ sig (Elt F)) :
    StableHlo.after (hostOps0_1 (F := F)) W (Proc.devRef .tc main_v2)
      = shapeCast S1x512 (W (Proc.devRef .tc main_arg5)) shapeCasts_S512_S1x512 := by
  after_results
  rfl
theorem after01_main_v3 (W : Valuation τ sig (Elt F)) :
    StableHlo.after (hostOps0_1 (F := F)) W (Proc.devRef .tc main_v3)
      = shapeCast S1x1024 (W (Proc.devRef .tc main_arg7)) shapeCasts_S1024_S1x1024 := by
  after_results
  rfl
theorem after01_main_v4 (W : Valuation τ sig (Elt F)) :
    StableHlo.after (hostOps0_1 (F := F)) W (Proc.devRef .tc main_v4)
      = shapeCast S1x3072 (W (Proc.devRef .tc main_arg10)) shapeCasts_S3072_S1x3072 := by
  after_results
  rfl
theorem after01_main_v5 (W : Valuation τ sig (Elt F)) :
    StableHlo.after (hostOps0_1 (F := F)) W (Proc.devRef .tc main_v5)
      = shapeCast S1x3072 (W (Proc.devRef .tc main_arg11)) shapeCasts_S3072_S1x3072 := by
  after_results
  rfl
theorem after01_main_v6 (W : Valuation τ sig (Elt F)) :
    StableHlo.after (hostOps0_1 (F := F)) W (Proc.devRef .tc main_v6)
      = shapeCast S1x50257 (W (Proc.devRef .tc main_arg13)) shapeCasts_S50257_S1x50257 := by
  after_results
  rfl
end Reshapes

end Cert.KernelIdeal.Hand

end
-- ==== Proof.Proj.lean ====
/-
  The output projection. The second kernel call, at tile i of 17, multiplies the new hidden row against 3072 rows of
  the vocabulary matrix, adds their biases, and replaces the columns at or past 50257 by a finite filler. At a column
  inside the vocabulary the stored entry is the inner product of the hidden row with that one row of the matrix plus
  that one bias: it depends on no other row of the tile. The reference's logit at vocabulary entry j is the same
  inner product against row j of the matrix (transposed first there) plus bias j.
-/
import proofs.«421128_j85564338471302_3_alg».proof.KernelIdeal
import proofs.«421128_j85564338471302_3_alg».proof.Proof.Gen.KernelIdeal.Skeleton
import proofs.«421128_j85564338471302_3_alg».proof.Proof.RefRead
import Idealize.ShloMosaic.Lib.ValueIdx
import Idealize.ShloMosaic.Lib.ValueLayout
import Idealize.ShloMosaic.Lib.Pipeline.Value
import Idealize.ShloMosaic.Lib.Affine
import Idealize.ShloMosaic.PureOps.Ideal.Laws

noncomputable section

open Idealize.ShloMosaic Idealize.ShloMosaic.TcCoe Idealize.SL.Sem

namespace Cert.Bridge

open Cert.ReferenceIdeal.Read

/-- Row 0, column q of a one-row array of 3072 columns. -/
abbrev col3072 (q : Fin 3072) : Cert.KernelIdeal.S1x3072.Idx := ValueIdx.ix2 (0 : Fin 1) q
/-- Row 0, column k of a one-row array of 1024 columns. -/
abbrev col1024 (k : Fin 1024) : Cert.KernelIdeal.S1x1024.Idx := ValueIdx.ix2 (0 : Fin 1) k
/-- Row q, column k of a tile of 3072 rows. -/
abbrev tileAt (q : Fin 3072) (k : Fin 1024) : Cert.KernelIdeal.S3072x1024.Idx := ValueIdx.ix2 q k

section Kernel
open Cert.KernelIdeal Cert.KernelIdeal.Gen

/-- Column i·3072 + q lies inside the vocabulary: the signed comparison of the two 32-bit words says so, since
    neither the product nor the sum leaves the signed range. -/
theorem mask_valid (i : Cert.KernelIdeal.grid1.Coords) (q : Fin 3072) (hq : (i 0).val * 3072 + q.val < 50257) :
    (cmpi .slt (addi (broadcast S1x3072 (Scalar.muli (BitVec.ofNat 32 (i 0).val) 3072#32))
        (iota .tc S1x3072 32 [1] iota_S1x3072_d1_w32)) (broadcast S1x3072 50257#32) : IVec S1x3072 1) (col3072 q) = 1#1 := by
  have h17 : (i 0).val < 17 := (i 0).isLt
  have hq' : q.val < 3072 := q.isLt
  have hi : Affine.IsInt (BitVec.ofNat 32 (i 0).val) ((i 0).val : Int) := Affine.ofNat _ ⟨rfl, by omega⟩
  have hc : Affine.IsInt (3072#32 : BitVec 32) 3072 := Affine.ofNat 3072 ⟨rfl, by omega⟩
  have hm : Affine.IsInt (Scalar.muli (BitVec.ofNat 32 (i 0).val) 3072#32) (((i 0).val : Int) * 3072) :=
    Affine.muli hi hc ⟨rfl, by omega, by omega⟩
  have hio : Affine.IsInt (BitVec.ofNat 32 q.val) (q.val : Int) := Affine.ofNat _ ⟨rfl, by omega⟩
  have hs : Affine.IsInt (Scalar.addi (Scalar.muli (BitVec.ofNat 32 (i 0).val) 3072#32) (BitVec.ofNat 32 q.val))
      (((i 0).val : Int) * 3072 + q.val) := Affine.addi hm hio ⟨rfl, by omega, by omega⟩
  have hb : Affine.IsInt (50257#32 : BitVec 32) 50257 := Affine.ofNat 50257 ⟨rfl, by omega⟩
  have hlt := Affine.slt_holds hs hb (by omega)
  show IntOp.cmpi .slt (IntOp.addi (Scalar.muli (BitVec.ofNat 32 (i 0).val) 3072#32)
      (iota .tc S1x3072 32 [1] iota_S1x3072_d1_w32 (col3072 q))) 50257#32 = 1#1
  rw [iota_single_apply]
  exact hlt

/-! The product's operand indices at output index j and contraction index c, axis by axis. -/

theorem lhs_proj_0 (j : S1x3072.Idx) (c : dot_S1x1024_S3072x1024_S1x3072_1_1_0_0_n_n.contr.Idx) :
    (dot_S1x1024_S3072x1024_S1x3072_1_1_0_0_n_n.lhsIdx j c 0).val = (j 0).val := by
  unfold DotDims.lhsIdx
  rw [dif_neg (show ¬(0 : Fin S1x1024.rank) ∈ dot_S1x1024_S3072x1024_S1x3072_1_1_0_0_n_n.lhsBatch by decide), dif_pos (show (0 : Fin S1x1024.rank) ∈ dot_S1x1024_S3072x1024_S1x3072_1_1_0_0_n_n.lhsNonContracting by decide)]
  rfl
theorem lhs_proj_1 (j : S1x3072.Idx) (c : dot_S1x1024_S3072x1024_S1x3072_1_1_0_0_n_n.contr.Idx) :
    (dot_S1x1024_S3072x1024_S1x3072_1_1_0_0_n_n.lhsIdx j c 1).val = (c ⟨0, by decide⟩).val :=
  dot_S1x1024_S3072x1024_S1x3072_1_1_0_0_n_n.lhsIdx_val_of_single rfl j c
theorem rhs_proj_0 (j : S1x3072.Idx) (c : dot_S1x1024_S3072x1024_S1x3072_1_1_0_0_n_n.contr.Idx) :
    (dot_S1x1024_S3072x1024_S1x3072_1_1_0_0_n_n.rhsIdx j c 0).val = (j 1).val := by
  unfold DotDims.rhsIdx
  rw [dif_neg (show ¬(0 : Fin S3072x1024.rank) ∈ dot_S1x1024_S3072x1024_S1x3072_1_1_0_0_n_n.rhsBatch by decide), dif_pos (show (0 : Fin S3072x1024.rank) ∈ dot_S1x1024_S3072x1024_S1x3072_1_1_0_0_n_n.rhsNonContracting by decide)]
  rfl
theorem rhs_proj_1 (j : S1x3072.Idx) (c : dot_S1x1024_S3072x1024_S1x3072_1_1_0_0_n_n.contr.Idx) :
    (dot_S1x1024_S3072x1024_S1x3072_1_1_0_0_n_n.rhsIdx j c 1).val = (c ⟨0, by decide⟩).val :=
  dot_S1x1024_S3072x1024_S1x3072_1_1_0_0_n_n.rhsIdx_val_of_single rfl j c

/-- The product into a zero accumulator, read at column q: the inner product of the one row of the left operand with
    row q of the right operand. -/
theorem matmul_at {φ₁ φ₂ : FTy} (x : FVec Ideal S1x1024 φ₁) (y : FVec Ideal S3072x1024 φ₂) (q : Fin 3072) :
    matmul dot_S1x1024_S3072x1024_S1x3072_1_1_0_0_n_n none x y (constant S1x3072 .f32 0x00000000#32) (col3072 q)
      = ∑ k : Fin 1024, x (col1024 k) * y (tileAt q k) := by
  simp only [matmul]
  rw [Ideal.matmul_constant_zero_apply, ← Equiv.sum_comp (ValueIdx.contrEquiv1 dot_S1x1024_S3072x1024_S1x3072_1_1_0_0_n_n 1024 rfl rfl).symm]
  refine Finset.sum_congr rfl fun k _ => ?_
  have hk := ValueIdx.contrEquiv1_symm_val dot_S1x1024_S3072x1024_S1x3072_1_1_0_0_n_n 1024 rfl rfl k
  have el : dot_S1x1024_S3072x1024_S1x3072_1_1_0_0_n_n.lhsIdx (col3072 q) ((ValueIdx.contrEquiv1 dot_S1x1024_S3072x1024_S1x3072_1_1_0_0_n_n 1024 rfl rfl).symm k) = col1024 k := funext fun a => Fin.ext (by
    match a with
    | ⟨0, _⟩ => exact lhs_proj_0 _ _
    | ⟨1, _⟩ => exact (lhs_proj_1 _ _).trans hk)
  have er : dot_S1x1024_S3072x1024_S1x3072_1_1_0_0_n_n.rhsIdx (col3072 q) ((ValueIdx.contrEquiv1 dot_S1x1024_S3072x1024_S1x3072_1_1_0_0_n_n 1024 rfl rfl).symm k) = tileAt q k := funext fun a => Fin.ext (by
    match a with
    | ⟨0, _⟩ => exact rhs_proj_0 _ _
    | ⟨1, _⟩ => exact (rhs_proj_1 _ _).trans hk)
  rw [el, er]

end Kernel

/-- Inside the vocabulary the stored entry is one inner product plus one bias. -/
theorem proj_valid (i : Cert.KernelIdeal.grid1.Coords) (h : Vec Ideal Cert.KernelIdeal.S1x1024 .f32)
    (w : Vec Ideal Cert.KernelIdeal.S3072x1024 .f32) (b : Vec Ideal Cert.KernelIdeal.S1x3072 .f32)
    (q : Fin 3072) (hq : (i 0).val * 3072 + q.val < 50257) :
    Cert.KernelIdeal.Gen.k1_pay1 (F := Ideal) i h w b (col3072 q)
      = (∑ k : Fin 1024, h (col1024 k) * w (tileAt q k)) + b (col3072 q) := by
  unfold Cert.KernelIdeal.Gen.k1_pay1
  dsimp only
  rw [ValueIdx.select_apply, mask_valid i q hq, ValueIdx.select_one, ValueIdx.addf_apply, matmul_at,
    shapeCast_self, shapeCast_self]
  rfl

/-- The reference's logit at vocabulary entry j. -/
theorem logits_apply (x0 : (⟨Cert.ReferenceIdeal.S1, .i32⟩ : BufTy).Contents (Elt Ideal))
    (x1 : (⟨Cert.ReferenceIdeal.S1x1x1024, .f32⟩ : BufTy).Contents (Elt Ideal))
    (x2 : (⟨Cert.ReferenceIdeal.S512x1024, .f32⟩ : BufTy).Contents (Elt Ideal))
    (x3 : (⟨Cert.ReferenceIdeal.S50257x1024, .f32⟩ : BufTy).Contents (Elt Ideal))
    (x4 : (⟨Cert.ReferenceIdeal.S512x2048, .f32⟩ : BufTy).Contents (Elt Ideal))
    (x5 : (⟨Cert.ReferenceIdeal.S512, .f32⟩ : BufTy).Contents (Elt Ideal))
    (x6 : (⟨Cert.ReferenceIdeal.S1024x2048, .f32⟩ : BufTy).Contents (Elt Ideal))
    (x7 : (⟨Cert.ReferenceIdeal.S1024, .f32⟩ : BufTy).Contents (Elt Ideal))
    (x8 x9 : (⟨Cert.ReferenceIdeal.S3072x1024, .f32⟩ : BufTy).Contents (Elt Ideal))
    (x10 x11 : (⟨Cert.ReferenceIdeal.S3072, .f32⟩ : BufTy).Contents (Elt Ideal))
    (x12 : (⟨Cert.ReferenceIdeal.S50257x1024, .f32⟩ : BufTy).Contents (Elt Ideal))
    (x13 : (⟨Cert.ReferenceIdeal.S50257, .f32⟩ : BufTy).Contents (Elt Ideal)) (j : Fin 50257) :
    val_main_v70 (F := Ideal) x0 x1 x2 x3 x4 x5 x6 x7 x8 x9 x10 x11 x12 x13 (ValueIdx.ix2 (0 : Fin 1) j)
      = (∑ k : Fin 1024, val_main_v66 (F := Ideal) x0 x1 x2 x3 x4 x5 x6 x7 x8 x9 x10 x11 (ValueIdx.ix2 (0 : Fin 1) k)
            * x12 (ValueIdx.ix2 j k)) + x13 (ValueIdx.ix1 j) := by
  have e1 : ∀ k : Fin 1024, lidx_main_v68 (ValueIdx.ix2 (0 : Fin 1) j) k = ValueIdx.ix2 (0 : Fin 1) k := fun k =>
    funext fun a => Fin.ext (by match a with | ⟨0, _⟩ => rfl | ⟨1, _⟩ => rfl)
  have e2 : ∀ k : Fin 1024, idx_main_v67 (ridx_main_v68 (ValueIdx.ix2 (0 : Fin 1) j) k) = ValueIdx.ix2 j k := fun k =>
    funext fun a => Fin.ext (by match a with | ⟨0, _⟩ => rfl | ⟨1, _⟩ => rfl)
  have e3 : idx_main_v69 (ValueIdx.ix2 (0 : Fin 1) j) = ValueIdx.ix1 j :=
    funext fun a => Fin.ext (by match a with | ⟨0, _⟩ => rfl)
  rw [val_main_v70_apply, val_main_v68_apply, val_main_v69_apply, e3]
  refine congrArg (· + x13 (ValueIdx.ix1 j)) (Finset.sum_congr rfl fun k _ => ?_)
  rw [val_main_v67_apply, e1, e2]

end Cert.Bridge

end
-- ==== Proof.KIProj.lean ====
/-
  The second call's written-back columns. A tile's result buffer holds, at each column the write-back moves (a column
  inside the vocabulary), the inner product of the hidden row with that one row of the tile plus that one bias, so it
  does not depend on what the matrix's and the biases' buffers hold past the array's end; and the result array, after
  the seventeen tiles are written back, holds at every vocabulary entry the inner product of the hidden row with that
  row of the matrix plus that bias.
-/
import proofs.«421128_j85564338471302_3_alg».proof.Proof.KIData
import proofs.«421128_j85564338471302_3_alg».proof.Proof.Proj
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-! # The projected columns inside the vocabulary -/

open Cert.Bridge (col3072 col1024 tileAt proj_valid)

theorem hz2 : (![0, 0] : Fin 2 → Nat) = fun _ => 0 :=
  funext fun a => by match a with | ⟨0, _⟩ => rfl | ⟨1, _⟩ => rfl

/-- One whole store over whole loads leaves the payload of the buffers' contents. -/
theorem projBuf_eq (i : grid1.Coords) (x0 : Vec F S1x1024 .f32) (x1 : Vec F S3072x1024 .f32) (x2 : Vec F S1x3072 .f32) :
    projBuf i x0 x1 x2 = k1_pay1 i x0 x1 x2 := by
  unfold projBuf
  rw [View.canon_unit_zero hz2]
  simp only [View.ld_unit_zero (S := S1x1024) hz2, View.ld_unit_zero (S := S3072x1024) hz2,
    View.ld_unit_zero (S := S1x3072) hz2]

/-- The result window's block index on the column axis is the tile's number. -/
theorem idx3_1 (i : grid1.Coords) : win1_3.indexMap i 1 = (i 0).val := by
  have h17 : (i 0).val < 17 := (i 0).isLt
  show (BitVec.ofNat 32 (i 0).val).toNat = (i 0).val
  rw [BitVec.toNat_ofNat]; exact Nat.mod_eq_of_lt (by omega)

/-- The columns a tile writes back end inside the vocabulary. -/
theorem cols_inb (i : grid1.Coords) : (i 0).val * 3072 + win1_3.xsize i 1 ≤ 50257 := by
  have h : win1_3.indexMap i 1 * 3072 + win1_3.xsize i 1 ≤ 50257 := Pipeline.Clip.inb (win1_3.hclip i 1)
  rw [idx3_1] at h; exact h

/-- The matrix's window moves, on its row axis, as many rows as the result's moves columns; all of its 1024 columns. -/
theorem xsize1_0 (i : grid1.Coords) : win1_1.xsize i 0 = win1_3.xsize i 1 := rfl
theorem xsize1_1 (i : grid1.Coords) : win1_1.xsize i 1 = 1024 := rfl
/-- The biases' window moves its one row, and as many columns as the result's. -/
theorem xsize2_0 (i : grid1.Coords) : win1_2.xsize i 0 = 1 := rfl
theorem xsize2_1 (i : grid1.Coords) : win1_2.xsize i 1 = win1_3.xsize i 1 := rfl

/-- A column the result's window moves, as a column of the tile. -/
theorem xinj3 (i : grid1.Coords) (j : (win1_3.xblock i).Idx) (hq : (j 1).val < 3072) :
    win1_3.xinj i j = col3072 ⟨(j 1).val, hq⟩ := by
  funext a; refine Fin.ext ?_
  match a with
  | ⟨0, _⟩ =>
    have h0 : (j 0).val < win1_3.xsize i 0 := (j 0).isLt
    have h1 : win1_3.xsize i 0 ≤ 1 := win1_3.xsize_le i 0
    show (j 0).val = 0
    omega
  | ⟨1, _⟩ => rfl

/-- A written-back column of tile `i`: the inner product of the hidden row with that row of the tile, plus that bias. -/
theorem proj_cut_apply (i : grid1.Coords) (x0 : Vec Ideal S1x1024 .f32) (X1 : Vec Ideal S3072x1024 .f32)
    (X2 : Vec Ideal S1x3072 .f32) (j : (win1_3.xblock i).Idx) (hq : (j 1).val < 3072) :
    win1_3.cut i (projBuf i x0 X1 X2) j
      = (∑ k : Fin 1024, x0 (col1024 k) * X1 (tileAt ⟨(j 1).val, hq⟩ k)) + X2 (col3072 ⟨(j 1).val, hq⟩) := by
  show projBuf i x0 X1 X2 (win1_3.xinj i j) = _
  rw [projBuf_eq, xinj3 i j hq]
  refine proj_valid i x0 X1 X2 ⟨(j 1).val, hq⟩ ?_
  have h1 := cols_inb i
  have hj : (j 1).val < win1_3.xsize i 1 := (j 1).isLt
  show (i 0).val * 3072 + (j 1).val < 50257
  omega

/-- A moved element of a filled block does not depend on the filler. -/
theorem fill_indep {G : Pipeline.Grid} (w : Window sig G) {α : Type} (i : G.Coords) (d d' : w.block.Idx → α)
    (g : (w.xblock i).Idx → α) {j : w.block.Idx} (h : w.moved i j = true) : w.fill i d g j = w.fill i d' g j := by
  unfold Window.fill; rw [dif_pos h, dif_pos h]

/-- The written-back columns of a tile read only rows and biases inside the array. -/
theorem rowIndep : RowIndep Ideal := by
  intro t x0 B1 B2 d1 d1' d2 d2'
  funext j
  have hj : (j 1).val < win1_3.xsize (grid1.coords t) 1 := (j 1).isLt
  have hq : (j 1).val < 3072 := Nat.lt_of_lt_of_le hj (win1_3.xsize_le (grid1.coords t) 1)
  rw [proj_cut_apply _ _ _ _ j hq, proj_cut_apply _ _ _ _ j hq]
  have m1 : ∀ k : Fin 1024, win1_1.moved (grid1.coords t) (tileAt ⟨(j 1).val, hq⟩ k) = true := fun k =>
    (win1_1.moved_iff _ _).mpr fun a => by
      match a with
      | ⟨0, _⟩ => show (j 1).val < win1_1.xsize (grid1.coords t) 0; rw [xsize1_0]; exact hj
      | ⟨1, _⟩ => show k.val < win1_1.xsize (grid1.coords t) 1; rw [xsize1_1]; exact k.isLt
  have m2 : win1_2.moved (grid1.coords t) (col3072 ⟨(j 1).val, hq⟩) = true :=
    (win1_2.moved_iff _ _).mpr fun a => by
      match a with
      | ⟨0, _⟩ => show 0 < win1_2.xsize (grid1.coords t) 0; rw [xsize2_0]; exact Nat.one_pos
      | ⟨1, _⟩ => show (j 1).val < win1_2.xsize (grid1.coords t) 1; rw [xsize2_1]; exact hj
  rw [fill_indep win1_2 _ d2 d2' B2 m2]
  refine congrArg (· + _) (Finset.sum_congr rfl fun k _ => ?_)
  rw [fill_indep win1_1 _ d1 d1' B1 (m1 k)]

/-! # The result array after the seventeen write-backs -/

section Final

variable (V : (c : Dev nD) → (b : Ref sig .tc) → Buf (Elt Ideal) ((c : Thread nD τ).loc b))

/-- The logits: entry (0, j) is the inner product of the hidden row with row j of the matrix, plus bias j. -/
def logitsOf (h : Vec Ideal S1x1024 .f32) (w : Vec Ideal S50257x1024 .f32) (b : Vec Ideal S1x50257 .f32) :
    Vec Ideal S1x50257 .f32 :=
  fun idx => (∑ k : Fin 1024, h (ValueIdx.ix2 (0 : Fin 1) k)
      * w (ValueIdx.ix2 (⟨(idx 1).val, (idx 1).isLt⟩ : Fin 50257) k)) + b idx

theorem logitsOf_ix2 (h : Vec Ideal S1x1024 .f32) (w : Vec Ideal S50257x1024 .f32) (b : Vec Ideal S1x50257 .f32)
    (J : Fin 50257) :
    logitsOf h w b (ValueIdx.ix2 (0 : Fin 1) J)
      = (∑ k : Fin 1024, h (ValueIdx.ix2 (0 : Fin 1) k) * w (ValueIdx.ix2 J k)) + b (ValueIdx.ix2 (0 : Fin 1) J) := rfl

/-- A moved element of a filled block is the moved block's. -/
theorem fill_moved {G : Pipeline.Grid} (w : Window sig G) {α : Type} (i : G.Coords) (d : w.block.Idx → α)
    (g : (w.xblock i).Idx → α) {j : w.block.Idx} (h : w.moved i j = true) :
    w.fill i d g j = g fun a => ⟨(j a).val, (w.moved_iff i j).mp h a⟩ := by
  unfold Window.fill; rw [dif_pos h]

/-- The matrix's window's block index on the row axis is the tile's number. -/
theorem idx1_0 (i : grid1.Coords) : win1_1.indexMap i 0 = (i 0).val := by
  have h17 : (i 0).val < 17 := (i 0).isLt
  show (BitVec.ofNat 32 (i 0).val).toNat = (i 0).val
  rw [BitVec.toNat_ofNat]; exact Nat.mod_eq_of_lt (by omega)
/-- So is the biases' on the column axis. -/
theorem idx2_1 (i : grid1.Coords) : win1_2.indexMap i 1 = (i 0).val := by
  have h17 : (i 0).val < 17 := (i 0).isLt
  show (BitVec.ofNat 32 (i 0).val).toNat = (i 0).val
  rw [BitVec.toNat_ofNat]; exact Nat.mod_eq_of_lt (by omega)

/-- The hidden row's block is the row. -/
theorem hid_apply (c : Dev nD) (t : Fin cfg1.N) (k : Fin 1024) :
    iblk1 V c 0 t (col1024 k) = V c main_v7_1 (ValueIdx.ix2 (0 : Fin 1) k) := by
  show V c main_v7_1 (((cfg1.win 0).blk t).view.emb (col1024 k)) = _
  refine congrArg _ (funext fun a => Fin.ext ?_)
  match a with
  | ⟨0, _⟩ => rfl
  | ⟨1, _⟩ =>
    have e : win1_0.index t 1 = 0 := rfl
    show win1_0.index t 1 * 1024 + 1 * k.val = k.val
    omega

/-- Row q of tile t of the matrix, inside the array, is row t·3072 + q of the matrix. -/
theorem wblk_apply (c : Dev nD) (t : Fin cfg1.N) (q : Fin 3072) (k : Fin 1024)
    (hq : q.val < win1_3.xsize (grid1.coords t) 1) (hJ : (grid1.coords t 0).val * 3072 + q.val < 50257) :
    wblk V c t (tileAt q k) = V c main_arg12 (ValueIdx.ix2 (⟨(grid1.coords t 0).val * 3072 + q.val, hJ⟩ : Fin 50257) k) := by
  have hm : win1_1.moved (grid1.coords t) (tileAt q k) = true :=
    (win1_1.moved_iff _ _).mpr fun a => by
      match a with
      | ⟨0, _⟩ => show q.val < win1_1.xsize (grid1.coords t) 0; rw [xsize1_0]; exact hq
      | ⟨1, _⟩ => show k.val < win1_1.xsize (grid1.coords t) 1; rw [xsize1_1]; exact k.isLt
  unfold wblk
  rw [fill_moved win1_1 _ _ _ hm]
  show V c main_arg12 (((cfg1.win 1).blk t).view.emb _) = _
  refine congrArg _ (funext fun a => Fin.ext ?_)
  match a with
  | ⟨0, _⟩ =>
    have e : win1_1.index t 0 = (grid1.coords t 0).val := idx1_0 (grid1.coords t)
    show win1_1.index t 0 * 3072 + 1 * q.val = (grid1.coords t 0).val * 3072 + q.val
    rw [e]; omega
  | ⟨1, _⟩ =>
    have e : win1_1.index t 1 = 0 := rfl
    show win1_1.index t 1 * 1024 + 1 * k.val = k.val
    omega

/-- Bias q of tile t, inside the array, is bias t·3072 + q. -/
theorem bblk_apply (c : Dev nD) (t : Fin cfg1.N) (q : Fin 3072)
    (hq : q.val < win1_3.xsize (grid1.coords t) 1) (hJ : (grid1.coords t 0).val * 3072 + q.val < 50257) :
    bblk V c t (col3072 q) = V c main_v6 (ValueIdx.ix2 (0 : Fin 1) (⟨(grid1.coords t 0).val * 3072 + q.val, hJ⟩ : Fin 50257)) := by
  have hm : win1_2.moved (grid1.coords t) (col3072 q) = true :=
    (win1_2.moved_iff _ _).mpr fun a => by
      match a with
      | ⟨0, _⟩ => show 0 < win1_2.xsize (grid1.coords t) 0; rw [xsize2_0]; exact Nat.one_pos
      | ⟨1, _⟩ => show q.val < win1_2.xsize (grid1.coords t) 1; rw [xsize2_1]; exact hq
  unfold bblk
  rw [fill_moved win1_2 _ _ _ hm]
  show V c main_v6 (((cfg1.win 2).blk t).view.emb _) = _
  refine congrArg _ (funext fun a => Fin.ext ?_)
  match a with
  | ⟨0, _⟩ =>
    have e : win1_2.index t 0 = 0 := rfl
    show win1_2.index t 0 * 1 + 1 * 0 = 0
    omega
  | ⟨1, _⟩ =>
    have e : win1_2.index t 1 = (grid1.coords t 0).val := idx2_1 (grid1.coords t)
    show win1_2.index t 1 * 3072 + 1 * q.val = (grid1.coords t 0).val * 3072 + q.val
    rw [e]; omega

/-- Column j of tile t's written-back part is column t·3072 + j of the result array. -/
theorem emb3_eq (t : Fin cfg1.N) (j : (win1_3.xblock (grid1.coords t)).Idx)
    (hJ : (grid1.coords t 0).val * 3072 + (j 1).val < 50257) :
    ((cfg1.win 3).blk t).view.emb j
      = ValueIdx.ix2 (0 : Fin 1) (⟨(grid1.coords t 0).val * 3072 + (j 1).val, hJ⟩ : Fin 50257) := by
  funext a; refine Fin.ext ?_
  match a with
  | ⟨0, _⟩ =>
    have h0 : (j 0).val < win1_3.xsize (grid1.coords t) 0 := (j 0).isLt
    have h1 : win1_3.xsize (grid1.coords t) 0 ≤ 1 := win1_3.xsize_le (grid1.coords t) 0
    have e : win1_3.index t 0 = 0 := rfl
    show win1_3.index t 0 * 1 + 1 * (j 0).val = 0
    omega
  | ⟨1, _⟩ =>
    have e : win1_3.index t 1 = (grid1.coords t 0).val := idx3_1 (grid1.coords t)
    show win1_3.index t 1 * 3072 + 1 * (j 1).val = (grid1.coords t 0).val * 3072 + (j 1).val
    rw [e]; omega

/-- What tile t writes back is its block of the logits. -/
theorem flushed3_eq (c : Dev nD) (t : Fin cfg1.N) :
    (dat1 (F := Ideal) V c).flushed 3 t
      = ((cfg1.win 3).blk t).view.read (Elt Ideal) (logitsOf (V c main_v7_1) (V c main_arg12) (V c main_v6)) := by
  show win1_3.cut (grid1.coords t) ((dat1 V c).after 3 t) = _
  rw [after1_3]
  unfold oblk
  funext j
  have hj : (j 1).val < win1_3.xsize (grid1.coords t) 1 := (j 1).isLt
  have hq : (j 1).val < 3072 := Nat.lt_of_lt_of_le hj (win1_3.xsize_le (grid1.coords t) 1)
  have hJ : (grid1.coords t 0).val * 3072 + (j 1).val < 50257 := by
    have h1 := cols_inb (grid1.coords t); omega
  rw [proj_cut_apply _ _ _ _ j hq]
  show _ = logitsOf (V c main_v7_1) (V c main_arg12) (V c main_v6) (((cfg1.win 3).blk t).view.emb j)
  rw [emb3_eq t j hJ, logitsOf_ix2, bblk_apply V c t ⟨(j 1).val, hq⟩ hj hJ]
  refine congrArg (· + _) (Finset.sum_congr rfl fun k _ => ?_)
  rw [hid_apply, wblk_apply V c t ⟨(j 1).val, hq⟩ k hj hJ]

/-- An entry of the result array is in tile t's written-back part iff each coordinate is in the part's range. -/
theorem mem_blk3 (t : Fin cfg1.N) (idx : S1x50257.Idx) :
    idx ∈ ((cfg1.win 3).blk t).view.set ↔ ∀ a : Fin 2, win1_3.index t a * S1x3072.size a ≤ (idx a).val
      ∧ (idx a).val < win1_3.index t a * S1x3072.size a + win1_3.xsize (grid1.coords t) a := by
  show idx ∈ ((View.whole main_v8).slice (win1_3.rect t)).set ↔ _
  rw [View.set_slice_whole, Rect.mem_set_unit]
  exact Iff.rfl

/-- The tiles, decided over the seventeen points: point t is tile t, it moves one row, and 3072 columns but for the last
    tile's 1105. -/
theorem tile_facts : ∀ t : Fin cfg1.N, (grid1.coords t 0).val = t.val ∧ win1_3.xsize (grid1.coords t) 0 = 1
    ∧ win1_3.xsize (grid1.coords t) 1 = (if t.val < 16 then 3072 else 1105) :=
  (by decide +kernel : ∀ t : Fin grid1.N, (grid1.coords t 0).val = t.val ∧ win1_3.xsize (grid1.coords t) 0 = 1
    ∧ win1_3.xsize (grid1.coords t) 1 = (if t.val < 16 then 3072 else 1105))

/-- Every entry of the result array is in the written-back part of the tile its column falls in. -/
theorem cover3 (idx : S1x50257.Idx) :
    ∃ t : Fin cfg1.N, (cfg1.win 3).flush t = true ∧ idx ∈ ((cfg1.win 3).blk t).view.set := by
  have h0 : (idx 0).val < 1 := (idx 0).isLt
  have h1 : (idx 1).val < 50257 := (idx 1).isLt
  have hN : grid1.N = 17 := N_1
  obtain ⟨t, ht⟩ : ∃ t : Fin cfg1.N, t.val = (idx 1).val / 3072 :=
    ⟨⟨(idx 1).val / 3072, by show (idx 1).val / 3072 < grid1.N; rw [hN]; omega⟩, rfl⟩
  obtain ⟨f0, f1, f2⟩ := tile_facts t
  refine ⟨t, flush1_3 t, ?_⟩
  rw [mem_blk3]
  intro a
  match a with
  | ⟨0, _⟩ =>
    have e : win1_3.index t 0 = 0 := rfl
    show win1_3.index t 0 * 1 ≤ (idx 0).val
      ∧ (idx 0).val < win1_3.index t 0 * 1 + win1_3.xsize (grid1.coords t) 0
    rw [e, f1]; omega
  | ⟨1, _⟩ =>
    have e : win1_3.index t 1 = (grid1.coords t 0).val := idx3_1 _
    show win1_3.index t 1 * 3072 ≤ (idx 1).val
      ∧ (idx 1).val < win1_3.index t 1 * 3072 + win1_3.xsize (grid1.coords t) 1
    rw [e, f0, f2]
    split <;> omega

/-- The result array after the second call: the logits of the hidden row, the matrix and the biases as the call finds
    them. -/
theorem logits_final (c : Dev nD) :
    (dat1 (F := Ideal) V c).arrAt 3 cfg1.N = logitsOf (V c main_v7_1) (V c main_arg12) (V c main_v6) :=
  (dat1 (F := Ideal) V c).arrAt_eq_of_cover 3 _ (fun t _ => flushed3_eq V c t) cover3

end Final

/-! # Against the reference -/

/-- The logits of the reference's new hidden row, the matrix and the biases laid out as one row are the reference's
    logits. -/
theorem logits_ref_eq (x0 : (⟨Cert.ReferenceIdeal.S1, .i32⟩ : BufTy).Contents (Elt Ideal))
    (x1 : (⟨Cert.ReferenceIdeal.S1x1x1024, .f32⟩ : BufTy).Contents (Elt Ideal))
    (x2 : (⟨Cert.ReferenceIdeal.S512x1024, .f32⟩ : BufTy).Contents (Elt Ideal))
    (x3 : (⟨Cert.ReferenceIdeal.S50257x1024, .f32⟩ : BufTy).Contents (Elt Ideal))
    (x4 : (⟨Cert.ReferenceIdeal.S512x2048, .f32⟩ : BufTy).Contents (Elt Ideal))
    (x5 : (⟨Cert.ReferenceIdeal.S512, .f32⟩ : BufTy).Contents (Elt Ideal))
    (x6 : (⟨Cert.ReferenceIdeal.S1024x2048, .f32⟩ : BufTy).Contents (Elt Ideal))
    (x7 : (⟨Cert.ReferenceIdeal.S1024, .f32⟩ : BufTy).Contents (Elt Ideal))
    (x8 x9 : (⟨Cert.ReferenceIdeal.S3072x1024, .f32⟩ : BufTy).Contents (Elt Ideal))
    (x10 x11 : (⟨Cert.ReferenceIdeal.S3072, .f32⟩ : BufTy).Contents (Elt Ideal))
    (x12 : (⟨Cert.ReferenceIdeal.S50257x1024, .f32⟩ : BufTy).Contents (Elt Ideal))
    (x13 : (⟨Cert.ReferenceIdeal.S50257, .f32⟩ : BufTy).Contents (Elt Ideal)) :
    logitsOf (Cert.ReferenceIdeal.Read.val_main_v66 (F := Ideal) x0 x1 x2 x3 x4 x5 x6 x7 x8 x9 x10 x11) x12
        (shapeCast Cert.KernelIdeal.S1x50257 x13 Cert.KernelIdeal.Gen.shapeCasts_S50257_S1x50257)
      = Cert.ReferenceIdeal.Read.val_main_v70 (F := Ideal) x0 x1 x2 x3 x4 x5 x6 x7 x8 x9 x10 x11 x12 x13 := by
  funext idx
  obtain ⟨J, rfl⟩ : ∃ J : Fin 50257, idx = ValueIdx.ix2 (0 : Fin 1) J := ⟨idx 1, by
    have h0 : (idx 0).val < 1 := (idx 0).isLt
    funext a; refine Fin.ext ?_
    match a with
    | ⟨0, _⟩ => show (idx 0).val = 0; omega
    | ⟨1, _⟩ => rfl⟩
  have hb : shapeCast Cert.KernelIdeal.S1x50257 x13 Cert.KernelIdeal.Gen.shapeCasts_S50257_S1x50257
      (ValueIdx.ix2 (0 : Fin 1) J) = x13 (ValueIdx.ix1 J) :=
    shapeCast_apply x13 _ _ (ValueIdx.ix1 J) (by
      rw [Shape.rowMajor_val_one, Shape.rowMajor_val_two]
      show J.val = 0 * 50257 + J.val
      omega)
  rw [logitsOf_ix2, Cert.Bridge.logits_apply, hb]

end Cert.KernelIdeal.Hand

end
-- ==== Proof.Attn.lean ====
/-
  The attention weights. The first kernel call stores softmax(W_a · [e ; h] + b_a) over the 512 encoder positions,
  e the embedded row and h the previous hidden row: a product against W_a contracted on its second axis, the row
  maximum, the exponentials of the differences, their sum, the quotient. The reference computes the same numbers with
  W_a transposed first and the row maximum joined once more with -∞. Over the extended reals the two agree entry by entry.
-/
import proofs.«421128_j85564338471302_3_alg».proof.KernelIdeal
import proofs.«421128_j85564338471302_3_alg».proof.Proof.Gen.KernelIdeal.Skeleton
import proofs.«421128_j85564338471302_3_alg».proof.Proof.RefRead
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem
open Idealize.ShloMosaic.ValueIdx

namespace Cert.Bridge

open Cert.ReferenceIdeal.Read

/-! ## The specification: logits, their maximum, the normalised exponentials -/

/-- The logit at encoder position `q`: row `q` of the matrix against the joined row, plus the bias. -/
def logit (X : (⟨2, ![1, 2048]⟩ : Shape).Idx → EReal) (W : (⟨2, ![512, 2048]⟩ : Shape).Idx → EReal)
    (B : (⟨1, ![512]⟩ : Shape).Idx → EReal) (q : Fin 512) : EReal :=
  (∑ k : Fin 2048, X (ix2 (0 : Fin 1) k) * W (ix2 q k)) + B (ix1 q)

/-- The maximum of 512 extended reals, from `⊥`. -/
def rowMax (l : Fin 512 → EReal) : EReal := (Finset.univ : Finset (Fin 512)).fold max ⊥ l

/-- The softmax of 512 extended reals at position `q`. -/
def soft (l : Fin 512 → EReal) (q : Fin 512) : EReal :=
  Ideal.div (Ideal.exp (l q - rowMax l)) (∑ k : Fin 512, Ideal.exp (l k - rowMax l))

/-- The pattern of `-∞` denotes `⊥`. -/
theorem ofBits_neg_inf : Ideal.ofBits .f32 0xFF800000#32 = ⊥ := by simp [Ideal.ofBits, Ideal.ieee]

/-! ## The kernel's product, contracted on axis 1 of both operands -/

/- The product's operand indices at an output index and a contraction index, axis by axis: the left operand reads the
   output's row and the contraction coordinate, the right operand the output's column and the contraction coordinate. -/
theorem lhs_attn_0 (i : Cert.KernelIdeal.S1x512.Idx) (q : Cert.KernelIdeal.dot_S1x2048_S512x2048_S1x512_1_1_0_0_n_n.contr.Idx) :
    (Cert.KernelIdeal.dot_S1x2048_S512x2048_S1x512_1_1_0_0_n_n.lhsIdx i q 0).val = (i 0).val := by
  unfold DotDims.lhsIdx
  rw [dif_neg (show ¬(0 : Fin Cert.KernelIdeal.S1x2048.rank) ∈ Cert.KernelIdeal.dot_S1x2048_S512x2048_S1x512_1_1_0_0_n_n.lhsBatch by decide), dif_pos (show (0 : Fin Cert.KernelIdeal.S1x2048.rank) ∈ Cert.KernelIdeal.dot_S1x2048_S512x2048_S1x512_1_1_0_0_n_n.lhsNonContracting by decide)]
  rfl
theorem lhs_attn_1 (i : Cert.KernelIdeal.S1x512.Idx) (q : Cert.KernelIdeal.dot_S1x2048_S512x2048_S1x512_1_1_0_0_n_n.contr.Idx) :
    (Cert.KernelIdeal.dot_S1x2048_S512x2048_S1x512_1_1_0_0_n_n.lhsIdx i q 1).val = (q ⟨0, by decide⟩).val :=
  Cert.KernelIdeal.dot_S1x2048_S512x2048_S1x512_1_1_0_0_n_n.lhsIdx_val_of_single rfl i q
theorem rhs_attn_0 (i : Cert.KernelIdeal.S1x512.Idx) (q : Cert.KernelIdeal.dot_S1x2048_S512x2048_S1x512_1_1_0_0_n_n.contr.Idx) :
    (Cert.KernelIdeal.dot_S1x2048_S512x2048_S1x512_1_1_0_0_n_n.rhsIdx i q 0).val = (i 1).val := by
  unfold DotDims.rhsIdx
  rw [dif_neg (show ¬(0 : Fin Cert.KernelIdeal.S512x2048.rank) ∈ Cert.KernelIdeal.dot_S1x2048_S512x2048_S1x512_1_1_0_0_n_n.rhsBatch by decide), dif_pos (show (0 : Fin Cert.KernelIdeal.S512x2048.rank) ∈ Cert.KernelIdeal.dot_S1x2048_S512x2048_S1x512_1_1_0_0_n_n.rhsNonContracting by decide)]
  rfl
theorem rhs_attn_1 (i : Cert.KernelIdeal.S1x512.Idx) (q : Cert.KernelIdeal.dot_S1x2048_S512x2048_S1x512_1_1_0_0_n_n.contr.Idx) :
    (Cert.KernelIdeal.dot_S1x2048_S512x2048_S1x512_1_1_0_0_n_n.rhsIdx i q 1).val = (q ⟨0, by decide⟩).val :=
  Cert.KernelIdeal.dot_S1x2048_S512x2048_S1x512_1_1_0_0_n_n.rhsIdx_val_of_single rfl i q

/-- The product into the zero splat, read at `(u, q)`: the sum over the 2048 columns of the row's entry times row `q`'s. -/
theorem attn_matmul_apply (X : FVec Ideal Cert.KernelIdeal.S1x2048 .bf16) (Wt : FVec Ideal Cert.KernelIdeal.S512x2048 .bf16)
    (u : Fin 1) (q : Fin 512) :
    matmul Cert.KernelIdeal.dot_S1x2048_S512x2048_S1x512_1_1_0_0_n_n none X Wt
        (constant (F := Ideal) Cert.KernelIdeal.S1x512 .f32 0x00000000#32) (ix2 u q)
      = ∑ k : Fin 2048, X (ix2 u k) * Wt (ix2 q k) := by
  simp only [matmul]
  rw [Ideal.matmul_constant_zero_apply, ← Equiv.sum_comp (contrEquiv1 Cert.KernelIdeal.dot_S1x2048_S512x2048_S1x512_1_1_0_0_n_n 2048 rfl rfl).symm]
  refine Finset.sum_congr rfl fun k _ => ?_
  have hk := contrEquiv1_symm_val Cert.KernelIdeal.dot_S1x2048_S512x2048_S1x512_1_1_0_0_n_n 2048 rfl rfl k
  have el : Cert.KernelIdeal.dot_S1x2048_S512x2048_S1x512_1_1_0_0_n_n.lhsIdx (ix2 u q) ((contrEquiv1 Cert.KernelIdeal.dot_S1x2048_S512x2048_S1x512_1_1_0_0_n_n 2048 rfl rfl).symm k) = ix2 u k := funext fun a => Fin.ext (by
    match a with
    | ⟨0, _⟩ => exact lhs_attn_0 _ _
    | ⟨1, _⟩ => exact (lhs_attn_1 _ _).trans hk)
  have er : Cert.KernelIdeal.dot_S1x2048_S512x2048_S1x512_1_1_0_0_n_n.rhsIdx (ix2 u q) ((contrEquiv1 Cert.KernelIdeal.dot_S1x2048_S512x2048_S1x512_1_1_0_0_n_n 2048 rfl rfl).symm k) = ix2 q k := funext fun a => Fin.ext (by
    match a with
    | ⟨0, _⟩ => exact rhs_attn_0 _ _
    | ⟨1, _⟩ => exact (rhs_attn_1 _ _).trans hk)
  rw [el, er]

/-! ## The kernel's row reductions and its column broadcast -/

/-- The row maximum the kernel takes: the fold of `max` from `⊥` over the 512 entries. -/
theorem kernel_rowMax_apply (l : FVec Ideal Cert.KernelIdeal.S1x512 .f32) :
    multiReduction .maximumf [1] Cert.KernelIdeal.S1 l 0xFF800000#32 Cert.KernelIdeal.Gen.reduces_S1x512_S1 (.inl rfl) rfl (ix1 (0 : Fin 1))
      = rowMax (fun k => l (ix2 (0 : Fin 1) k)) := by
  refine (Ideal.multiReduction_maximumf_single l _ Cert.KernelIdeal.Gen.reduces_S1x512_S1 (.inl rfl) rfl (ix1 (0 : Fin 1))).trans ?_
  show (Finset.univ : Finset (Fin 512)).fold max (Ideal.ofBits .f32 0xFF800000#32)
      (fun k => l (Cert.KernelIdeal.Gen.reduces_S1x512_S1.lift (ix1 (0 : Fin 1)) k)) = _
  rw [ofBits_neg_inf]
  exact congrArg (fun f => (Finset.univ : Finset (Fin 512)).fold max ⊥ f)
    (funext fun k => congrArg l (funext fun a => Fin.ext (by match a with | ⟨0, _⟩ => rfl | ⟨1, _⟩ => rfl)))

/-- The row sum the kernel takes: the sum of the 512 entries. -/
theorem kernel_rowSum_apply (e : FVec Ideal Cert.KernelIdeal.S1x512 .f32) :
    multiReduction .add [1] Cert.KernelIdeal.S1 e 0x00000000#32 Cert.KernelIdeal.Gen.reduces_S1x512_S1 (.inl rfl) rfl (ix1 (0 : Fin 1))
      = ∑ k : Fin 512, e (ix2 (0 : Fin 1) k) := by
  refine (Ideal.multiReduction_add_single e _ Cert.KernelIdeal.Gen.reduces_S1x512_S1 (.inl rfl) rfl (ix1 (0 : Fin 1))).trans ?_
  show ∑ k : Fin 512, e (Cert.KernelIdeal.Gen.reduces_S1x512_S1.lift (ix1 (0 : Fin 1)) k) = _
  exact Finset.sum_congr rfl fun k _ => congrArg e (funext fun a => Fin.ext (by match a with | ⟨0, _⟩ => rfl | ⟨1, _⟩ => rfl))

/-- One number as a `[1, 1]` array, broadcast along the row: every entry is that number. -/
theorem kernel_col_apply {α : Type} (v : Cert.KernelIdeal.S1.Idx → α) (q : Fin 512) :
    broadcastTo Cert.KernelIdeal.S1x512 (shapeCast Cert.KernelIdeal.S1x1 v Cert.KernelIdeal.Gen.shapeCasts_S1_S1x1)
        Cert.KernelIdeal.Gen.broadcasts_S1x1_S1x512 (ix2 (0 : Fin 1) q) = v (ix1 (0 : Fin 1)) :=
  (broadcastTo_apply _ Cert.KernelIdeal.Gen.broadcasts_S1x1_S1x512 (ix2 (0 : Fin 1) q) (ix2 (0 : Fin 1) (0 : Fin 1))
    (fun a => match a with
      | ⟨0, _⟩ => (if_pos rfl).symm
      | ⟨1, _⟩ => (if_pos rfl).symm)).trans
    (shapeCast_a_1a_apply v Cert.KernelIdeal.Gen.shapeCasts_S1_S1x1 (0 : Fin 1) (0 : Fin 1))

/-! ## The kernel's normalisation of a row of logits -/

/-- What the kernel does to its row of logits: subtract the row maximum, exponentiate, divide by the row sum. -/
def ksoft (l : FVec Ideal Cert.KernelIdeal.S1x512 .f32) : FVec Ideal Cert.KernelIdeal.S1x512 .f32 :=
  divf
    (exp (subf l (broadcastTo Cert.KernelIdeal.S1x512 (shapeCast Cert.KernelIdeal.S1x1
      (multiReduction .maximumf [1] Cert.KernelIdeal.S1 l 0xFF800000#32 Cert.KernelIdeal.Gen.reduces_S1x512_S1 (.inl rfl) rfl)
      Cert.KernelIdeal.Gen.shapeCasts_S1_S1x1) Cert.KernelIdeal.Gen.broadcasts_S1x1_S1x512)))
    (broadcastTo Cert.KernelIdeal.S1x512 (shapeCast Cert.KernelIdeal.S1x1
      (multiReduction .add [1] Cert.KernelIdeal.S1
        (exp (subf l (broadcastTo Cert.KernelIdeal.S1x512 (shapeCast Cert.KernelIdeal.S1x1
          (multiReduction .maximumf [1] Cert.KernelIdeal.S1 l 0xFF800000#32 Cert.KernelIdeal.Gen.reduces_S1x512_S1 (.inl rfl) rfl)
          Cert.KernelIdeal.Gen.shapeCasts_S1_S1x1) Cert.KernelIdeal.Gen.broadcasts_S1x1_S1x512)))
        0x00000000#32 Cert.KernelIdeal.Gen.reduces_S1x512_S1 (.inl rfl) rfl)
      Cert.KernelIdeal.Gen.shapeCasts_S1_S1x1) Cert.KernelIdeal.Gen.broadcasts_S1x1_S1x512)

/-- The exponential of a logit less the row maximum, as the kernel forms it. -/
theorem kernel_exp_apply (l : FVec Ideal Cert.KernelIdeal.S1x512 .f32) (q : Fin 512) :
    exp (subf l (broadcastTo Cert.KernelIdeal.S1x512 (shapeCast Cert.KernelIdeal.S1x1
      (multiReduction .maximumf [1] Cert.KernelIdeal.S1 l 0xFF800000#32 Cert.KernelIdeal.Gen.reduces_S1x512_S1 (.inl rfl) rfl)
      Cert.KernelIdeal.Gen.shapeCasts_S1_S1x1) Cert.KernelIdeal.Gen.broadcasts_S1x1_S1x512)) (ix2 (0 : Fin 1) q)
      = Ideal.exp (l (ix2 (0 : Fin 1) q) - rowMax (fun k => l (ix2 (0 : Fin 1) k))) := by
  show Ideal.exp (l (ix2 (0 : Fin 1) q) - broadcastTo Cert.KernelIdeal.S1x512 (shapeCast Cert.KernelIdeal.S1x1
      (multiReduction .maximumf [1] Cert.KernelIdeal.S1 l 0xFF800000#32 Cert.KernelIdeal.Gen.reduces_S1x512_S1 (.inl rfl) rfl)
      Cert.KernelIdeal.Gen.shapeCasts_S1_S1x1) Cert.KernelIdeal.Gen.broadcasts_S1x1_S1x512 (ix2 (0 : Fin 1) q)) = _
  rw [kernel_col_apply, kernel_rowMax_apply]

/-- The kernel's normalisation is the softmax of the row, entry by entry. -/
theorem ksoft_apply (l : FVec Ideal Cert.KernelIdeal.S1x512 .f32) (q : Fin 512) :
    ksoft l (ix2 (0 : Fin 1) q) = soft (fun k => l (ix2 (0 : Fin 1) k)) q := by
  unfold ksoft soft
  rw [divf_apply, kernel_exp_apply, kernel_col_apply, kernel_rowSum_apply]
  exact congrArg (Ideal.div _) (Finset.sum_congr rfl fun k _ => kernel_exp_apply l k)

/-! ## The kernel's payload -/

/-- The kernel's row of logits: the joined row against the matrix, plus the bias row. -/
def klogits (E H : Vec Ideal Cert.KernelIdeal.S1x1024 .f32) (W : Vec Ideal Cert.KernelIdeal.S512x2048 .f32)
    (b : Vec Ideal Cert.KernelIdeal.S1x512 .f32) : FVec Ideal Cert.KernelIdeal.S1x512 .f32 :=
  addf
    (matmul Cert.KernelIdeal.dot_S1x2048_S512x2048_S1x512_1_1_0_0_n_n none
      (truncf .bf16 (concatenate Cert.KernelIdeal.S1x2048 1
        [⟨Cert.KernelIdeal.S1x1024, shapeCast Cert.KernelIdeal.S1x1024 E Cert.KernelIdeal.Gen.shapeCasts_S1x1024_S1x1024⟩,
         ⟨Cert.KernelIdeal.S1x1024, shapeCast Cert.KernelIdeal.S1x1024 H Cert.KernelIdeal.Gen.shapeCasts_S1x1024_S1x1024⟩]
        Cert.KernelIdeal.Gen.concatenates_S1x1024_S1x1024_S1x2048_d1) Cert.KernelIdeal.Gen.bitsLt_bf16_f32)
      (truncf .bf16 W Cert.KernelIdeal.Gen.bitsLt_bf16_f32)
      (constant (F := Ideal) Cert.KernelIdeal.S1x512 .f32 0x00000000#32))
    (shapeCast Cert.KernelIdeal.S1x512 b Cert.KernelIdeal.Gen.shapeCasts_S1x512_S1x512)

/-- The kernel's payload is its normalisation of its row of logits: the definitions unfold to one another. -/
theorem k0_pay4_eq_ksoft (E H : Vec Ideal Cert.KernelIdeal.S1x1024 .f32) (W : Vec Ideal Cert.KernelIdeal.S512x2048 .f32)
    (b : Vec Ideal Cert.KernelIdeal.S1x512 .f32) :
    Cert.KernelIdeal.Gen.k0_pay4 (F := Ideal) E H W b = ksoft (klogits E H W b) := rfl

/-- The kernel's logit at column `q`, the bias row being the bias vector as one row. -/
theorem klogits_apply (E H : Vec Ideal Cert.KernelIdeal.S1x1024 .f32) (W : Vec Ideal Cert.KernelIdeal.S512x2048 .f32)
    (B : Vec Ideal Cert.KernelIdeal.S512 .f32) (q : Fin 512) :
    klogits E H W (shapeCast Cert.KernelIdeal.S1x512 B Cert.KernelIdeal.Gen.shapeCasts_S512_S1x512) (ix2 (0 : Fin 1) q)
      = logit (concatenate Cert.KernelIdeal.S1x2048 1 [⟨Cert.KernelIdeal.S1x1024, E⟩, ⟨Cert.KernelIdeal.S1x1024, H⟩]
          Cert.KernelIdeal.Gen.concatenates_S1x1024_S1x1024_S1x2048_d1) W B q := by
  unfold klogits logit
  rw [shapeCast_self, shapeCast_self, shapeCast_self, addf_apply, attn_matmul_apply, shapeCast_a_1a_apply]
  rfl

/-! ## The reference, stage by stage at a column -/

section Reference
variable (x0 : (⟨Cert.ReferenceIdeal.S1, .i32⟩ : BufTy).Contents (Elt Ideal))
  (x1 : (⟨Cert.ReferenceIdeal.S1x1x1024, .f32⟩ : BufTy).Contents (Elt Ideal))
  (x3 : (⟨Cert.ReferenceIdeal.S50257x1024, .f32⟩ : BufTy).Contents (Elt Ideal))
  (x4 : (⟨Cert.ReferenceIdeal.S512x2048, .f32⟩ : BufTy).Contents (Elt Ideal))
  (x5 : (⟨Cert.ReferenceIdeal.S512, .f32⟩ : BufTy).Contents (Elt Ideal))

/-- The reference's logit at column `q`: its product reads the transposed matrix at the swapped index. -/
theorem ref_logit_apply (q : Fin 512) :
    val_main_v12 (F := Ideal) x0 x1 x3 x4 x5 (ix2 (0 : Fin 1) q) = logit (val_main_v8 (F := Ideal) x0 x1 x3) x4 x5 q := by
  have e1 : ∀ k : Fin 2048, lidx_main_v10 (ix2 (0 : Fin 1) q) k = ix2 (0 : Fin 1) k := fun k =>
    funext fun a => Fin.ext (by match a with | ⟨0, _⟩ => rfl | ⟨1, _⟩ => rfl)
  have e2 : ∀ k : Fin 2048, idx_main_v9 (ridx_main_v10 (ix2 (0 : Fin 1) q) k) = ix2 q k := fun k =>
    funext fun a => Fin.ext (by match a with | ⟨0, _⟩ => rfl | ⟨1, _⟩ => rfl)
  have e3 : idx_main_v11 (ix2 (0 : Fin 1) q) = ix1 q :=
    funext fun a => Fin.ext (by match a with | ⟨0, _⟩ => rfl)
  rw [val_main_v12_apply, val_main_v10_apply, val_main_v11_apply, e3, Ideal.addf_def]
  unfold logit
  exact congrArg (· + x5 (ix1 q)) (Finset.sum_congr rfl fun k _ => by rw [val_main_v9_apply, e1 k, e2 k])

/-- The reference's row maximum: the fold of `max` from `⊥` over the 512 logits, joined once more with `⊥`. -/
theorem ref_rowMax_apply :
    val_main_v15 (F := Ideal) x0 x1 x3 x4 x5 (ix1 (0 : Fin 1))
      = rowMax (fun k => val_main_v12 (F := Ideal) x0 x1 x3 x4 x5 (ix2 (0 : Fin 1) k)) := by
  rw [val_main_v15_apply, val_main_v14_apply, val_main_cst_1_apply]
  unfold val_main_v13
  generalize val_main_v12 (F := Ideal) x0 x1 x3 x4 x5 = l
  rw [Host.reduce_eq_fold_single (FloatOps.maximumf (F := Ideal) (φ := .f32)) l (val_main_cst (F := Ideal))
      Cert.ReferenceIdeal.Gen.reducesTo_S1x512_S1_d1 Cert.KernelIdeal.Gen.reduces_S1x512_S1 Cert.ReferenceIdeal.Gen.h_S_ (ix1 (0 : Fin 1)),
    val_main_cst_apply, Ideal.ofBits_def, ofBits_neg_inf, Ideal.maximumf_def, max_bot_left]
  unfold rowMax
  exact congrArg (fun f => (Finset.univ : Finset (Fin 512)).fold max ⊥ f)
    (funext fun k => congrArg l (funext fun a => Fin.ext (by match a with | ⟨0, _⟩ => rfl | ⟨1, _⟩ => rfl)))

/-- The reference's exponential of a logit less the row maximum. -/
theorem ref_exp_apply (q : Fin 512) :
    val_main_v19 (F := Ideal) x0 x1 x3 x4 x5 (ix2 (0 : Fin 1) q)
      = Ideal.exp (val_main_v12 (F := Ideal) x0 x1 x3 x4 x5 (ix2 (0 : Fin 1) q)
          - rowMax (fun k => val_main_v12 (F := Ideal) x0 x1 x3 x4 x5 (ix2 (0 : Fin 1) k))) := by
  have e : idx_main_v16 (idx_main_v17 (ix2 (0 : Fin 1) q)) = ix1 (0 : Fin 1) :=
    funext fun a => Fin.ext (by match a with | ⟨0, _⟩ => rfl)
  rw [val_main_v19_apply, val_main_v18_apply, val_main_v17_apply, val_main_v16_apply, e, ref_rowMax_apply,
    Ideal.hostUnary_exp_def, Ideal.subf_def]

/-- The reference's attention weight at column `q` is the softmax of its logits. -/
theorem ref_soft_apply (q : Fin 512) :
    val_main_v23 (F := Ideal) x0 x1 x3 x4 x5 (ix2 (0 : Fin 1) q)
      = soft (fun k => val_main_v12 (F := Ideal) x0 x1 x3 x4 x5 (ix2 (0 : Fin 1) k)) q := by
  have e : idx_main_v21 (idx_main_v22 (ix2 (0 : Fin 1) q)) = ix1 (0 : Fin 1) :=
    funext fun a => Fin.ext (by match a with | ⟨0, _⟩ => rfl)
  have e' : ∀ k : Fin 512, idx_main_v20 (ix1 (0 : Fin 1)) k = ix2 (0 : Fin 1) k := fun k =>
    funext fun a => Fin.ext (by match a with | ⟨0, _⟩ => rfl | ⟨1, _⟩ => rfl)
  rw [val_main_v23_apply, val_main_v22_apply, val_main_v21_apply, e, val_main_v20_apply, val_main_cst_2_apply,
    ref_exp_apply, Ideal.hostDivf_def, Ideal.ofBits_def, Ideal.ofBits_zero_f32, zero_add]
  unfold soft
  exact congrArg (Ideal.div _) (Finset.sum_congr rfl fun k _ => by rw [e' k, ref_exp_apply])

end Reference

/-! ## The two agree -/

/-- The kernel's attention weights are the reference's: the same function of the embedded row (one and the same row on
    both sides, of which nothing is assumed), the hidden row, the attention matrix and its bias. -/
theorem attn_eq (x0 : (⟨Cert.ReferenceIdeal.S1, .i32⟩ : BufTy).Contents (Elt Ideal))
    (x1 : (⟨Cert.ReferenceIdeal.S1x1x1024, .f32⟩ : BufTy).Contents (Elt Ideal))
    (x3 : (⟨Cert.ReferenceIdeal.S50257x1024, .f32⟩ : BufTy).Contents (Elt Ideal))
    (x4 : (⟨Cert.ReferenceIdeal.S512x2048, .f32⟩ : BufTy).Contents (Elt Ideal))
    (x5 : (⟨Cert.ReferenceIdeal.S512, .f32⟩ : BufTy).Contents (Elt Ideal)) :
    Cert.KernelIdeal.Gen.k0_pay4 (F := Ideal) (val_main_v6 x0 x3) (val_main_v7 x1) x4
        (shapeCast Cert.KernelIdeal.S1x512 x5 Cert.KernelIdeal.Gen.shapeCasts_S512_S1x512)
      = val_main_v23 (F := Ideal) x0 x1 x3 x4 x5 := by
  funext i
  obtain ⟨u, q, rfl⟩ : ∃ (u : Fin 1) (q : Fin 512), i = ix2 u q := ⟨i 0, i 1, eq_ix2 i⟩
  obtain rfl : u = 0 := Subsingleton.elim _ _
  show ksoft (klogits (val_main_v6 x0 x3) (val_main_v7 x1) x4
      (shapeCast Cert.KernelIdeal.S1x512 x5 Cert.KernelIdeal.Gen.shapeCasts_S512_S1x512)) (ix2 (0 : Fin 1) q) = _
  rw [ksoft_apply, ref_soft_apply]
  refine congrArg (fun l => soft l q) (funext fun k => ?_)
  rw [klogits_apply, ref_logit_apply]
  rfl

end Cert.Bridge

end
-- ==== Proof.Gru.lean ====
/-
  The new hidden row. After the attention weights a the first kernel call forms the context a · enc, the combined
  row relu(W_c · [e ; a · enc] + b_c), the two gate pre-activations W_ih · x + b_ih and W_hh · h + b_hh, the reset and
  update gates as logistic functions of their sums, the candidate tanh(x_n + r · h_n), and (1 - z) · n + z · h.
  The reference does the same with every matrix transposed first and the logistic function spelt 1 / (1 + exp(-s)).

  Both sides are read at an entry (p, q). Each product is a sum over its contracted axis: the kernel's four products
  are taken against the matrices' rows, the reference's against the columns of the transposed matrices, and the
  transposition turns the one into the other term by term. The joined row [e ; a · enc] is the same concatenation on
  both sides once the context rows agree, so it is never read at an entry. The three blocks of a row of 3072
  pre-activations are its columns q, 1024 + q and 2048 + q. The gate arithmetic is then one function of the two rows
  of pre-activations and the hidden row, and the reference's spelling of the logistic function is that function's
  once the word of 1.0 is read as the number one.
-/
import proofs.«421128_j85564338471302_3_alg».proof.Proof.Attn
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.Bridge

namespace Gru

/-! The context product (attention weights against encoder outputs): its operand indices, axis by axis. -/
theorem ctx_lhs_0 (i : Cert.KernelIdeal.S1x1024.Idx) (q : Cert.KernelIdeal.dot_S1x512_S512x1024_S1x1024_1_0_0_1_n_n.contr.Idx) :
    (Cert.KernelIdeal.dot_S1x512_S512x1024_S1x1024_1_0_0_1_n_n.lhsIdx i q 0).val = (i 0).val := by
  unfold DotDims.lhsIdx
  rw [dif_neg (show ¬(0 : Fin Cert.KernelIdeal.S1x512.rank) ∈ Cert.KernelIdeal.dot_S1x512_S512x1024_S1x1024_1_0_0_1_n_n.lhsBatch by decide), dif_pos (show (0 : Fin Cert.KernelIdeal.S1x512.rank) ∈ Cert.KernelIdeal.dot_S1x512_S512x1024_S1x1024_1_0_0_1_n_n.lhsNonContracting by decide)]
  rfl
theorem ctx_lhs_1 (i : Cert.KernelIdeal.S1x1024.Idx) (q : Cert.KernelIdeal.dot_S1x512_S512x1024_S1x1024_1_0_0_1_n_n.contr.Idx) :
    (Cert.KernelIdeal.dot_S1x512_S512x1024_S1x1024_1_0_0_1_n_n.lhsIdx i q 1).val = (q ⟨0, by decide⟩).val :=
  Cert.KernelIdeal.dot_S1x512_S512x1024_S1x1024_1_0_0_1_n_n.lhsIdx_val_of_single rfl i q
theorem ctx_rhs_0 (i : Cert.KernelIdeal.S1x1024.Idx) (q : Cert.KernelIdeal.dot_S1x512_S512x1024_S1x1024_1_0_0_1_n_n.contr.Idx) :
    (Cert.KernelIdeal.dot_S1x512_S512x1024_S1x1024_1_0_0_1_n_n.rhsIdx i q 0).val = (q ⟨0, by decide⟩).val :=
  Cert.KernelIdeal.dot_S1x512_S512x1024_S1x1024_1_0_0_1_n_n.rhsIdx_val_of_single rfl i q
theorem ctx_rhs_1 (i : Cert.KernelIdeal.S1x1024.Idx) (q : Cert.KernelIdeal.dot_S1x512_S512x1024_S1x1024_1_0_0_1_n_n.contr.Idx) :
    (Cert.KernelIdeal.dot_S1x512_S512x1024_S1x1024_1_0_0_1_n_n.rhsIdx i q 1).val = (i 1).val := by
  unfold DotDims.rhsIdx
  rw [dif_neg (show ¬(1 : Fin Cert.KernelIdeal.S512x1024.rank) ∈ Cert.KernelIdeal.dot_S1x512_S512x1024_S1x1024_1_0_0_1_n_n.rhsBatch by decide), dif_pos (show (1 : Fin Cert.KernelIdeal.S512x1024.rank) ∈ Cert.KernelIdeal.dot_S1x512_S512x1024_S1x1024_1_0_0_1_n_n.rhsNonContracting by decide)]
  rfl

/-- Read at (p, j): the sum over the shared axis of the row's entry times the matrix's entry in column j. -/
theorem ctx_apply (l : FVec Ideal Cert.KernelIdeal.S1x512 .bf16) (r : FVec Ideal Cert.KernelIdeal.S512x1024 .bf16)
    (p : Fin 1) (j : Fin 1024) :
    matmul Cert.KernelIdeal.dot_S1x512_S512x1024_S1x1024_1_0_0_1_n_n none l r (constant Cert.KernelIdeal.S1x1024 .f32 0x00000000#32) (ix2 p j)
      = ∑ k : Fin 512, l (ix2 p k) * r (ix2 k j) := by
  simp only [matmul]
  rw [Ideal.matmul_constant_zero_apply, ← Equiv.sum_comp (contrEquiv1 Cert.KernelIdeal.dot_S1x512_S512x1024_S1x1024_1_0_0_1_n_n 512 rfl rfl).symm]
  refine Finset.sum_congr rfl fun k _ => ?_
  have hk := contrEquiv1_symm_val Cert.KernelIdeal.dot_S1x512_S512x1024_S1x1024_1_0_0_1_n_n 512 rfl rfl k
  have el : Cert.KernelIdeal.dot_S1x512_S512x1024_S1x1024_1_0_0_1_n_n.lhsIdx (ix2 p j) ((contrEquiv1 Cert.KernelIdeal.dot_S1x512_S512x1024_S1x1024_1_0_0_1_n_n 512 rfl rfl).symm k) = ix2 p k := funext fun a => Fin.ext (by
    match a with
    | ⟨0, _⟩ => exact ctx_lhs_0 _ _
    | ⟨1, _⟩ => exact (ctx_lhs_1 _ _).trans hk)
  have er : Cert.KernelIdeal.dot_S1x512_S512x1024_S1x1024_1_0_0_1_n_n.rhsIdx (ix2 p j) ((contrEquiv1 Cert.KernelIdeal.dot_S1x512_S512x1024_S1x1024_1_0_0_1_n_n 512 rfl rfl).symm k) = ix2 k j := funext fun a => Fin.ext (by
    match a with
    | ⟨0, _⟩ => exact (ctx_rhs_0 _ _).trans hk
    | ⟨1, _⟩ => exact ctx_rhs_1 _ _)
  rw [el, er]

/-! The combining product (joined row against the combining matrix): its operand indices, axis by axis. -/
theorem comb_lhs_0 (i : Cert.KernelIdeal.S1x1024.Idx) (q : Cert.KernelIdeal.dot_S1x2048_S1024x2048_S1x1024_1_1_0_0_n_n.contr.Idx) :
    (Cert.KernelIdeal.dot_S1x2048_S1024x2048_S1x1024_1_1_0_0_n_n.lhsIdx i q 0).val = (i 0).val := by
  unfold DotDims.lhsIdx
  rw [dif_neg (show ¬(0 : Fin Cert.KernelIdeal.S1x2048.rank) ∈ Cert.KernelIdeal.dot_S1x2048_S1024x2048_S1x1024_1_1_0_0_n_n.lhsBatch by decide), dif_pos (show (0 : Fin Cert.KernelIdeal.S1x2048.rank) ∈ Cert.KernelIdeal.dot_S1x2048_S1024x2048_S1x1024_1_1_0_0_n_n.lhsNonContracting by decide)]
  rfl
theorem comb_lhs_1 (i : Cert.KernelIdeal.S1x1024.Idx) (q : Cert.KernelIdeal.dot_S1x2048_S1024x2048_S1x1024_1_1_0_0_n_n.contr.Idx) :
    (Cert.KernelIdeal.dot_S1x2048_S1024x2048_S1x1024_1_1_0_0_n_n.lhsIdx i q 1).val = (q ⟨0, by decide⟩).val :=
  Cert.KernelIdeal.dot_S1x2048_S1024x2048_S1x1024_1_1_0_0_n_n.lhsIdx_val_of_single rfl i q
theorem comb_rhs_0 (i : Cert.KernelIdeal.S1x1024.Idx) (q : Cert.KernelIdeal.dot_S1x2048_S1024x2048_S1x1024_1_1_0_0_n_n.contr.Idx) :
    (Cert.KernelIdeal.dot_S1x2048_S1024x2048_S1x1024_1_1_0_0_n_n.rhsIdx i q 0).val = (i 1).val := by
  unfold DotDims.rhsIdx
  rw [dif_neg (show ¬(0 : Fin Cert.KernelIdeal.S1024x2048.rank) ∈ Cert.KernelIdeal.dot_S1x2048_S1024x2048_S1x1024_1_1_0_0_n_n.rhsBatch by decide), dif_pos (show (0 : Fin Cert.KernelIdeal.S1024x2048.rank) ∈ Cert.KernelIdeal.dot_S1x2048_S1024x2048_S1x1024_1_1_0_0_n_n.rhsNonContracting by decide)]
  rfl
theorem comb_rhs_1 (i : Cert.KernelIdeal.S1x1024.Idx) (q : Cert.KernelIdeal.dot_S1x2048_S1024x2048_S1x1024_1_1_0_0_n_n.contr.Idx) :
    (Cert.KernelIdeal.dot_S1x2048_S1024x2048_S1x1024_1_1_0_0_n_n.rhsIdx i q 1).val = (q ⟨0, by decide⟩).val :=
  Cert.KernelIdeal.dot_S1x2048_S1024x2048_S1x1024_1_1_0_0_n_n.rhsIdx_val_of_single rfl i q

/-- Read at (p, j): the sum over the shared axis of the row's entry times the matrix's entry in row j. -/
theorem comb_apply (l : FVec Ideal Cert.KernelIdeal.S1x2048 .bf16) (r : FVec Ideal Cert.KernelIdeal.S1024x2048 .bf16)
    (p : Fin 1) (j : Fin 1024) :
    matmul Cert.KernelIdeal.dot_S1x2048_S1024x2048_S1x1024_1_1_0_0_n_n none l r (constant Cert.KernelIdeal.S1x1024 .f32 0x00000000#32) (ix2 p j)
      = ∑ k : Fin 2048, l (ix2 p k) * r (ix2 j k) := by
  simp only [matmul]
  rw [Ideal.matmul_constant_zero_apply, ← Equiv.sum_comp (contrEquiv1 Cert.KernelIdeal.dot_S1x2048_S1024x2048_S1x1024_1_1_0_0_n_n 2048 rfl rfl).symm]
  refine Finset.sum_congr rfl fun k _ => ?_
  have hk := contrEquiv1_symm_val Cert.KernelIdeal.dot_S1x2048_S1024x2048_S1x1024_1_1_0_0_n_n 2048 rfl rfl k
  have el : Cert.KernelIdeal.dot_S1x2048_S1024x2048_S1x1024_1_1_0_0_n_n.lhsIdx (ix2 p j) ((contrEquiv1 Cert.KernelIdeal.dot_S1x2048_S1024x2048_S1x1024_1_1_0_0_n_n 2048 rfl rfl).symm k) = ix2 p k := funext fun a => Fin.ext (by
    match a with
    | ⟨0, _⟩ => exact comb_lhs_0 _ _
    | ⟨1, _⟩ => exact (comb_lhs_1 _ _).trans hk)
  have er : Cert.KernelIdeal.dot_S1x2048_S1024x2048_S1x1024_1_1_0_0_n_n.rhsIdx (ix2 p j) ((contrEquiv1 Cert.KernelIdeal.dot_S1x2048_S1024x2048_S1x1024_1_1_0_0_n_n 2048 rfl rfl).symm k) = ix2 j k := funext fun a => Fin.ext (by
    match a with
    | ⟨0, _⟩ => exact comb_rhs_0 _ _
    | ⟨1, _⟩ => exact (comb_rhs_1 _ _).trans hk)
  rw [el, er]

/-! The gate products (a row of 1024 entries against a 3072 × 1024 matrix): their operand indices, axis by axis. -/
theorem gate_lhs_0 (i : Cert.KernelIdeal.S1x3072.Idx) (q : Cert.KernelIdeal.dot_S1x1024_S3072x1024_S1x3072_1_1_0_0_n_n.contr.Idx) :
    (Cert.KernelIdeal.dot_S1x1024_S3072x1024_S1x3072_1_1_0_0_n_n.lhsIdx i q 0).val = (i 0).val := by
  unfold DotDims.lhsIdx
  rw [dif_neg (show ¬(0 : Fin Cert.KernelIdeal.S1x1024.rank) ∈ Cert.KernelIdeal.dot_S1x1024_S3072x1024_S1x3072_1_1_0_0_n_n.lhsBatch by decide), dif_pos (show (0 : Fin Cert.KernelIdeal.S1x1024.rank) ∈ Cert.KernelIdeal.dot_S1x1024_S3072x1024_S1x3072_1_1_0_0_n_n.lhsNonContracting by decide)]
  rfl
theorem gate_lhs_1 (i : Cert.KernelIdeal.S1x3072.Idx) (q : Cert.KernelIdeal.dot_S1x1024_S3072x1024_S1x3072_1_1_0_0_n_n.contr.Idx) :
    (Cert.KernelIdeal.dot_S1x1024_S3072x1024_S1x3072_1_1_0_0_n_n.lhsIdx i q 1).val = (q ⟨0, by decide⟩).val :=
  Cert.KernelIdeal.dot_S1x1024_S3072x1024_S1x3072_1_1_0_0_n_n.lhsIdx_val_of_single rfl i q
theorem gate_rhs_0 (i : Cert.KernelIdeal.S1x3072.Idx) (q : Cert.KernelIdeal.dot_S1x1024_S3072x1024_S1x3072_1_1_0_0_n_n.contr.Idx) :
    (Cert.KernelIdeal.dot_S1x1024_S3072x1024_S1x3072_1_1_0_0_n_n.rhsIdx i q 0).val = (i 1).val := by
  unfold DotDims.rhsIdx
  rw [dif_neg (show ¬(0 : Fin Cert.KernelIdeal.S3072x1024.rank) ∈ Cert.KernelIdeal.dot_S1x1024_S3072x1024_S1x3072_1_1_0_0_n_n.rhsBatch by decide), dif_pos (show (0 : Fin Cert.KernelIdeal.S3072x1024.rank) ∈ Cert.KernelIdeal.dot_S1x1024_S3072x1024_S1x3072_1_1_0_0_n_n.rhsNonContracting by decide)]
  rfl
theorem gate_rhs_1 (i : Cert.KernelIdeal.S1x3072.Idx) (q : Cert.KernelIdeal.dot_S1x1024_S3072x1024_S1x3072_1_1_0_0_n_n.contr.Idx) :
    (Cert.KernelIdeal.dot_S1x1024_S3072x1024_S1x3072_1_1_0_0_n_n.rhsIdx i q 1).val = (q ⟨0, by decide⟩).val :=
  Cert.KernelIdeal.dot_S1x1024_S3072x1024_S1x3072_1_1_0_0_n_n.rhsIdx_val_of_single rfl i q

/-- Read at (p, j): the sum over the shared axis of the row's entry times the matrix's entry in row j. -/
theorem gate_apply (l : FVec Ideal Cert.KernelIdeal.S1x1024 .bf16) (r : FVec Ideal Cert.KernelIdeal.S3072x1024 .bf16)
    (p : Fin 1) (j : Fin 3072) :
    matmul Cert.KernelIdeal.dot_S1x1024_S3072x1024_S1x3072_1_1_0_0_n_n none l r (constant Cert.KernelIdeal.S1x3072 .f32 0x00000000#32) (ix2 p j)
      = ∑ k : Fin 1024, l (ix2 p k) * r (ix2 j k) := by
  simp only [matmul]
  rw [Ideal.matmul_constant_zero_apply, ← Equiv.sum_comp (contrEquiv1 Cert.KernelIdeal.dot_S1x1024_S3072x1024_S1x3072_1_1_0_0_n_n 1024 rfl rfl).symm]
  refine Finset.sum_congr rfl fun k _ => ?_
  have hk := contrEquiv1_symm_val Cert.KernelIdeal.dot_S1x1024_S3072x1024_S1x3072_1_1_0_0_n_n 1024 rfl rfl k
  have el : Cert.KernelIdeal.dot_S1x1024_S3072x1024_S1x3072_1_1_0_0_n_n.lhsIdx (ix2 p j) ((contrEquiv1 Cert.KernelIdeal.dot_S1x1024_S3072x1024_S1x3072_1_1_0_0_n_n 1024 rfl rfl).symm k) = ix2 p k := funext fun a => Fin.ext (by
    match a with
    | ⟨0, _⟩ => exact gate_lhs_0 _ _
    | ⟨1, _⟩ => exact (gate_lhs_1 _ _).trans hk)
  have er : Cert.KernelIdeal.dot_S1x1024_S3072x1024_S1x3072_1_1_0_0_n_n.rhsIdx (ix2 p j) ((contrEquiv1 Cert.KernelIdeal.dot_S1x1024_S3072x1024_S1x3072_1_1_0_0_n_n 1024 rfl rfl).symm k) = ix2 j k := funext fun a => Fin.ext (by
    match a with
    | ⟨0, _⟩ => exact gate_rhs_0 _ _
    | ⟨1, _⟩ => exact (gate_rhs_1 _ _).trans hk)
  rw [el, er]

/-! ## The gate arithmetic, as one function of the rows it reads -/

/-- The word of 1.0 is the number one. -/
theorem one_f32 : Ideal.ofBits .f32 0x3F800000#32 = 1 := by
  simp [Ideal.ofBits, Ideal.ieee, -EReal.coe_mul]; norm_num

/-- Column q of the first, second and third block of a row of 3072 = 3 · 1024 entries. -/
def col0 (q : Fin 1024) : Fin 3072 := ⟨q.val, by omega⟩
def col1 (q : Fin 1024) : Fin 3072 := ⟨1024 + q.val, by omega⟩
def col2 (q : Fin 1024) : Fin 3072 := ⟨2048 + q.val, by omega⟩

/-- The new hidden entry at column q from the two rows of gate pre-activations gx, gh and the previous hidden
    row h: r = σ(gx₀ + gh₀), z = σ(gx₁ + gh₁), n = tanh(gx₂ + r · gh₂), and (1 − z) · n + z · h. -/
def gruAt (gx gh : (⟨2, ![1, 3072]⟩ : Shape).Idx → EReal) (h : (⟨2, ![1, 1024]⟩ : Shape).Idx → EReal)
    (p : Fin 1) (q : Fin 1024) : EReal :=
  (Ideal.ofBits .f32 0x3F800000#32 - Ideal.logistic (gx (ix2 p (col1 q)) + gh (ix2 p (col1 q))))
      * Ideal.tanh (gx (ix2 p (col2 q)) + Ideal.logistic (gx (ix2 p (col0 q)) + gh (ix2 p (col0 q))) * gh (ix2 p (col2 q)))
    + Ideal.logistic (gx (ix2 p (col1 q)) + gh (ix2 p (col1 q))) * h (ix2 p q)

section Kernel
open Cert.KernelIdeal Cert.KernelIdeal.Gen

/-- The context row: the attention weights against the encoder outputs, contracted over the 512 positions. -/
def ctxRow (a : FVec Ideal S1x512 .f32) (E : Vec Ideal S512x1024 .f32) : FVec Ideal S1x1024 .f32 :=
  matmul dot_S1x512_S512x1024_S1x1024_1_0_0_1_n_n none (truncf .bf16 a bitsLt_bf16_f32) (truncf .bf16 E bitsLt_bf16_f32)
    (constant S1x1024 .f32 0x00000000#32)

theorem ctxRow_apply (a : FVec Ideal S1x512 .f32) (E : Vec Ideal S512x1024 .f32) (p : Fin 1) (q : Fin 1024) :
    ctxRow a E (ix2 p q) = ∑ k : Fin 512, a (ix2 p k) * E (ix2 k q) := by
  unfold ctxRow
  rw [ctx_apply]
  rfl

/-- The embedded row and the context row side by side. -/
def joinedRow (e c : FVec Ideal S1x1024 .f32) : FVec Ideal S1x2048 .f32 :=
  concatenate S1x2048 1 [⟨S1x1024, e⟩, ⟨S1x1024, c⟩] concatenates_S1x1024_S1x1024_S1x2048_d1

/-- The combined row read at (p, q): the joined row against row q of the combining matrix, plus the bias, cut off
    below at the zero word. -/
theorem pay5_apply (e h : Vec Ideal S1x1024 .f32) (A : Vec Ideal S512x2048 .f32) (b5 : Vec Ideal S1x512 .f32)
    (E : Vec Ideal S512x1024 .f32) (W : Vec Ideal S1024x2048 .f32) (b7 : Vec Ideal S1x1024 .f32) (p : Fin 1) (q : Fin 1024) :
    k0_pay5 (F := Ideal) e h A b5 E W b7 (ix2 p q)
      = max ((∑ k : Fin 2048, joinedRow e (ctxRow (k0_pay4 (F := Ideal) e h A b5) E) (ix2 p k) * W (ix2 q k)) + b7 (ix2 p q))
          (Ideal.ofBits .f32 0x00000000#32) := by
  unfold k0_pay5 k0_pay2
  simp only [shapeCast_self]
  show max (matmul (F := Ideal) dot_S1x2048_S1024x2048_S1x1024_1_1_0_0_n_n none _ _ (constant S1x1024 .f32 0x00000000#32) (ix2 p q) + b7 (ix2 p q)) _ = _
  rw [comb_apply, shapeCast_self e shapeCasts_S1x1024_S1x1024]
  rfl

/-- A row of gate pre-activations: the input row against each of the 3072 rows of the matrix, plus the bias row. -/
def gateRow (x : FVec Ideal S1x1024 .f32) (W : Vec Ideal S3072x1024 .f32) (b : Vec Ideal S1x3072 .f32) : FVec Ideal S1x3072 .f32 :=
  addf (matmul dot_S1x1024_S3072x1024_S1x3072_1_1_0_0_n_n none (truncf .bf16 x bitsLt_bf16_f32) (truncf .bf16 W bitsLt_bf16_f32)
    (constant S1x3072 .f32 0x00000000#32)) b

theorem gateRow_apply (x : FVec Ideal S1x1024 .f32) (W : Vec Ideal S3072x1024 .f32) (b : Vec Ideal S1x3072 .f32)
    (p : Fin 1) (j : Fin 3072) :
    gateRow x W b (ix2 p j) = (∑ k : Fin 1024, x (ix2 p k) * W (ix2 j k)) + b (ix2 p j) := by
  unfold gateRow
  rw [addf_apply, gate_apply]
  rfl

/-- The new hidden row read at (p, q) is the gate arithmetic on the two rows of pre-activations. -/
theorem pay1_apply (h x : FVec Ideal S1x1024 .f32) (Wi : Vec Ideal S3072x1024 .f32) (bi : Vec Ideal S1x3072 .f32)
    (Wh : Vec Ideal S3072x1024 .f32) (bh : Vec Ideal S1x3072 .f32) (p : Fin 1) (q : Fin 1024) :
    k0_pay1 (F := Ideal) h x Wi bi Wh bh (ix2 p q) = gruAt (gateRow x Wi bi) (gateRow h Wh bh) h p q := by
  unfold k0_pay1
  simp only [shapeCast_self]
  have s0 : ∀ X : FVec Ideal S1x3072 .f32, extractStridedSlice S1x1024 ![0, 0] X slices_S1x3072_o0_0_S1x1024 (ix2 p q) = X (ix2 p (col0 q)) :=
    fun X => slice2_axis1_apply 0 X slices_S1x3072_o0_0_S1x1024 p q (col0 q) (Nat.zero_add _).symm
  have s1 : ∀ X : FVec Ideal S1x3072 .f32, extractStridedSlice S1x1024 ![0, 1024] X slices_S1x3072_o0_1024_S1x1024 (ix2 p q) = X (ix2 p (col1 q)) :=
    fun X => slice2_axis1_apply 1024 X slices_S1x3072_o0_1024_S1x1024 p q (col1 q) rfl
  have s2 : ∀ X : FVec Ideal S1x3072 .f32, extractStridedSlice S1x1024 ![0, 2048] X slices_S1x3072_o0_2048_S1x1024 (ix2 p q) = X (ix2 p (col2 q)) :=
    fun X => slice2_axis1_apply 2048 X slices_S1x3072_o0_2048_S1x1024 p q (col2 q) rfl
  show (Ideal.ofBits .f32 0x3F800000#32
        - Ideal.logistic (extractStridedSlice S1x1024 ![0, 1024] (gateRow x Wi bi) slices_S1x3072_o0_1024_S1x1024 (ix2 p q)
            + extractStridedSlice S1x1024 ![0, 1024] (gateRow h Wh bh) slices_S1x3072_o0_1024_S1x1024 (ix2 p q)))
      * Ideal.tanh (extractStridedSlice S1x1024 ![0, 2048] (gateRow x Wi bi) slices_S1x3072_o0_2048_S1x1024 (ix2 p q)
          + Ideal.logistic (extractStridedSlice S1x1024 ![0, 0] (gateRow x Wi bi) slices_S1x3072_o0_0_S1x1024 (ix2 p q)
              + extractStridedSlice S1x1024 ![0, 0] (gateRow h Wh bh) slices_S1x3072_o0_0_S1x1024 (ix2 p q))
            * extractStridedSlice S1x1024 ![0, 2048] (gateRow h Wh bh) slices_S1x3072_o0_2048_S1x1024 (ix2 p q))
      + Ideal.logistic (extractStridedSlice S1x1024 ![0, 1024] (gateRow x Wi bi) slices_S1x3072_o0_1024_S1x1024 (ix2 p q)
            + extractStridedSlice S1x1024 ![0, 1024] (gateRow h Wh bh) slices_S1x3072_o0_1024_S1x1024 (ix2 p q)) * h (ix2 p q) = _
  rw [s0, s0, s1, s1, s2, s2]
  rfl

end Kernel

section Reference
open Cert.ReferenceIdeal.Read

/-! ## The reference's stages read at an index

The generated index functions at a point (p, q), as the two-coordinate indices they are. -/

theorem lidx24 (p : Fin 1) (q : Fin 1024) (k : Fin 512) : lidx_main_v24 (ix2 p q) k = ix2 p k :=
  funext fun a => Fin.ext (by match a with | ⟨0, _⟩ => rfl | ⟨1, _⟩ => rfl)
theorem ridx24 (p : Fin 1) (q : Fin 1024) (k : Fin 512) : ridx_main_v24 (ix2 p q) k = ix2 k q :=
  funext fun a => Fin.ext (by match a with | ⟨0, _⟩ => rfl | ⟨1, _⟩ => rfl)
theorem lidx27 (p : Fin 1) (q : Fin 1024) (k : Fin 2048) : lidx_main_v27 (ix2 p q) k = ix2 p k :=
  funext fun a => Fin.ext (by match a with | ⟨0, _⟩ => rfl | ⟨1, _⟩ => rfl)
theorem ridx27 (p : Fin 1) (q : Fin 1024) (k : Fin 2048) : idx_main_v26 (ridx_main_v27 (ix2 p q) k) = ix2 q k :=
  funext fun a => Fin.ext (by match a with | ⟨0, _⟩ => rfl | ⟨1, _⟩ => rfl)
theorem idx28 (p : Fin 1) (q : Fin 1024) : idx_main_v28 (ix2 p q) = ix1 q :=
  funext fun a => Fin.ext (by match a with | ⟨0, _⟩ => rfl)
theorem lidx32 (p : Fin 1) (j : Fin 3072) (k : Fin 1024) : lidx_main_v32 (ix2 p j) k = ix2 p k :=
  funext fun a => Fin.ext (by match a with | ⟨0, _⟩ => rfl | ⟨1, _⟩ => rfl)
theorem ridx32 (p : Fin 1) (j : Fin 3072) (k : Fin 1024) : idx_main_v31 (ridx_main_v32 (ix2 p j) k) = ix2 j k :=
  funext fun a => Fin.ext (by match a with | ⟨0, _⟩ => rfl | ⟨1, _⟩ => rfl)
theorem idx33 (p : Fin 1) (j : Fin 3072) : idx_main_v33 (ix2 p j) = ix1 j :=
  funext fun a => Fin.ext (by match a with | ⟨0, _⟩ => rfl)
theorem lidx36 (p : Fin 1) (j : Fin 3072) (k : Fin 1024) : lidx_main_v36 (ix2 p j) k = ix2 p k :=
  funext fun a => Fin.ext (by match a with | ⟨0, _⟩ => rfl | ⟨1, _⟩ => rfl)
theorem ridx36 (p : Fin 1) (j : Fin 3072) (k : Fin 1024) : idx_main_v35 (ridx_main_v36 (ix2 p j) k) = ix2 j k :=
  funext fun a => Fin.ext (by match a with | ⟨0, _⟩ => rfl | ⟨1, _⟩ => rfl)
theorem idx37 (p : Fin 1) (j : Fin 3072) : idx_main_v37 (ix2 p j) = ix1 j :=
  funext fun a => Fin.ext (by match a with | ⟨0, _⟩ => rfl)
theorem idx39 (p : Fin 1) (q : Fin 1024) : idx_main_v39 (ix2 p q) = ix2 p (col0 q) :=
  funext fun a => Fin.ext (by match a with | ⟨0, _⟩ => rfl | ⟨1, _⟩ => rfl)
theorem idx40 (p : Fin 1) (q : Fin 1024) : idx_main_v40 (ix2 p q) = ix2 p (col1 q) :=
  funext fun a => Fin.ext (by match a with | ⟨0, _⟩ => rfl | ⟨1, _⟩ => rfl)
theorem idx41 (p : Fin 1) (q : Fin 1024) : idx_main_v41 (ix2 p q) = ix2 p (col2 q) :=
  funext fun a => Fin.ext (by match a with | ⟨0, _⟩ => rfl | ⟨1, _⟩ => rfl)
theorem idx42 (p : Fin 1) (q : Fin 1024) : idx_main_v42 (ix2 p q) = ix2 p (col0 q) :=
  funext fun a => Fin.ext (by match a with | ⟨0, _⟩ => rfl | ⟨1, _⟩ => rfl)
theorem idx43 (p : Fin 1) (q : Fin 1024) : idx_main_v43 (ix2 p q) = ix2 p (col1 q) :=
  funext fun a => Fin.ext (by match a with | ⟨0, _⟩ => rfl | ⟨1, _⟩ => rfl)
theorem idx44 (p : Fin 1) (q : Fin 1024) : idx_main_v44 (ix2 p q) = ix2 p (col2 q) :=
  funext fun a => Fin.ext (by match a with | ⟨0, _⟩ => rfl | ⟨1, _⟩ => rfl)

/-- The reference's combined row at (p, q): its joined row against row q of the combining matrix (column q of the
    transposed one), plus the bias, cut off below at the zero word. -/
theorem ref30_apply (x0 : (⟨Cert.ReferenceIdeal.S1, .i32⟩ : BufTy).Contents (Elt Ideal))
    (x1 : (⟨Cert.ReferenceIdeal.S1x1x1024, .f32⟩ : BufTy).Contents (Elt Ideal))
    (x2 : (⟨Cert.ReferenceIdeal.S512x1024, .f32⟩ : BufTy).Contents (Elt Ideal))
    (x3 : (⟨Cert.ReferenceIdeal.S50257x1024, .f32⟩ : BufTy).Contents (Elt Ideal))
    (x4 : (⟨Cert.ReferenceIdeal.S512x2048, .f32⟩ : BufTy).Contents (Elt Ideal))
    (x5 : (⟨Cert.ReferenceIdeal.S512, .f32⟩ : BufTy).Contents (Elt Ideal))
    (x6 : (⟨Cert.ReferenceIdeal.S1024x2048, .f32⟩ : BufTy).Contents (Elt Ideal))
    (x7 : (⟨Cert.ReferenceIdeal.S1024, .f32⟩ : BufTy).Contents (Elt Ideal)) (p : Fin 1) (q : Fin 1024) :
    val_main_v30 (F := Ideal) x0 x1 x2 x3 x4 x5 x6 x7 (ix2 p q)
      = max ((∑ k : Fin 2048, val_main_v25 (F := Ideal) x0 x1 x2 x3 x4 x5 (ix2 p k) * x6 (ix2 q k)) + x7 (ix1 q))
          (Ideal.ofBits .f32 0x00000000#32) := by
  rw [val_main_v30_apply, val_main_v29_apply, val_main_v27_apply, val_main_v28_apply, val_main_call0_v0_apply,
    val_main_call0_cst_apply, idx28 p q]
  rw [Finset.sum_congr rfl fun k _ => show
      val_main_v25 (F := Ideal) x0 x1 x2 x3 x4 x5 (lidx_main_v27 (ix2 p q) k) * val_main_v26 (F := Ideal) x6 (ridx_main_v27 (ix2 p q) k)
        = val_main_v25 (F := Ideal) x0 x1 x2 x3 x4 x5 (ix2 p k) * x6 (ix2 q k) by
    rw [val_main_v26_apply, lidx27 p q k, ridx27 p q k]]
  rfl

/-- The reference's input-side pre-activations at (p, j): the combined row against row j of W_ih, plus b_ih j. -/
theorem ref34_apply (x0 : (⟨Cert.ReferenceIdeal.S1, .i32⟩ : BufTy).Contents (Elt Ideal))
    (x1 : (⟨Cert.ReferenceIdeal.S1x1x1024, .f32⟩ : BufTy).Contents (Elt Ideal))
    (x2 : (⟨Cert.ReferenceIdeal.S512x1024, .f32⟩ : BufTy).Contents (Elt Ideal))
    (x3 : (⟨Cert.ReferenceIdeal.S50257x1024, .f32⟩ : BufTy).Contents (Elt Ideal))
    (x4 : (⟨Cert.ReferenceIdeal.S512x2048, .f32⟩ : BufTy).Contents (Elt Ideal))
    (x5 : (⟨Cert.ReferenceIdeal.S512, .f32⟩ : BufTy).Contents (Elt Ideal))
    (x6 : (⟨Cert.ReferenceIdeal.S1024x2048, .f32⟩ : BufTy).Contents (Elt Ideal))
    (x7 : (⟨Cert.ReferenceIdeal.S1024, .f32⟩ : BufTy).Contents (Elt Ideal))
    (x8 : (⟨Cert.ReferenceIdeal.S3072x1024, .f32⟩ : BufTy).Contents (Elt Ideal)) (x10 : (⟨Cert.ReferenceIdeal.S3072, .f32⟩ : BufTy).Contents (Elt Ideal)) (p : Fin 1) (j : Fin 3072) :
    val_main_v34 (F := Ideal) x0 x1 x2 x3 x4 x5 x6 x7 x8 x10 (ix2 p j)
      = (∑ k : Fin 1024, val_main_v30 (F := Ideal) x0 x1 x2 x3 x4 x5 x6 x7 (ix2 p k) * x8 (ix2 j k)) + x10 (ix1 j) := by
  rw [val_main_v34_apply, val_main_v32_apply, val_main_v33_apply, idx33 p j]
  rw [Finset.sum_congr rfl fun k _ => show
      val_main_v30 (F := Ideal) x0 x1 x2 x3 x4 x5 x6 x7 (lidx_main_v32 (ix2 p j) k) * val_main_v31 (F := Ideal) x8 (ridx_main_v32 (ix2 p j) k)
        = val_main_v30 (F := Ideal) x0 x1 x2 x3 x4 x5 x6 x7 (ix2 p k) * x8 (ix2 j k) by
    rw [val_main_v31_apply, lidx32 p j k, ridx32 p j k]]
  rfl

/-- The reference's hidden-side pre-activations at (p, j): the hidden row against row j of W_hh, plus b_hh j. -/
theorem ref38_apply (x1 : (⟨Cert.ReferenceIdeal.S1x1x1024, .f32⟩ : BufTy).Contents (Elt Ideal)) (x9 : (⟨Cert.ReferenceIdeal.S3072x1024, .f32⟩ : BufTy).Contents (Elt Ideal)) (x11 : (⟨Cert.ReferenceIdeal.S3072, .f32⟩ : BufTy).Contents (Elt Ideal)) (p : Fin 1) (j : Fin 3072) :
    val_main_v38 (F := Ideal) x1 x9 x11 (ix2 p j)
      = (∑ k : Fin 1024, val_main_v7 (F := Ideal) x1 (ix2 p k) * x9 (ix2 j k)) + x11 (ix1 j) := by
  rw [val_main_v38_apply, val_main_v36_apply, val_main_v37_apply, idx37 p j]
  rw [Finset.sum_congr rfl fun k _ => show
      val_main_v7 (F := Ideal) x1 (lidx_main_v36 (ix2 p j) k) * val_main_v35 (F := Ideal) x9 (ridx_main_v36 (ix2 p j) k)
        = val_main_v7 (F := Ideal) x1 (ix2 p k) * x9 (ix2 j k) by
    rw [val_main_v35_apply, lidx36 p j k, ridx36 p j k]]
  rfl

/-- The logistic function as the reference spells it, 1 / (1 + exp(−s)) with the word of 1.0 for each 1. -/
theorem logistic_spelt (s : EReal) :
    Ideal.div (Ideal.ofBits .f32 0x3F800000#32) (Ideal.ofBits .f32 0x3F800000#32 + Ideal.exp (-s)) = Ideal.logistic s := by
  rw [one_f32]; rfl

/-- The reference's new hidden row at (p, q) is the gate arithmetic on its two rows of pre-activations. -/
theorem ref66_apply (x0 : (⟨Cert.ReferenceIdeal.S1, .i32⟩ : BufTy).Contents (Elt Ideal))
    (x1 : (⟨Cert.ReferenceIdeal.S1x1x1024, .f32⟩ : BufTy).Contents (Elt Ideal))
    (x2 : (⟨Cert.ReferenceIdeal.S512x1024, .f32⟩ : BufTy).Contents (Elt Ideal))
    (x3 : (⟨Cert.ReferenceIdeal.S50257x1024, .f32⟩ : BufTy).Contents (Elt Ideal))
    (x4 : (⟨Cert.ReferenceIdeal.S512x2048, .f32⟩ : BufTy).Contents (Elt Ideal))
    (x5 : (⟨Cert.ReferenceIdeal.S512, .f32⟩ : BufTy).Contents (Elt Ideal))
    (x6 : (⟨Cert.ReferenceIdeal.S1024x2048, .f32⟩ : BufTy).Contents (Elt Ideal))
    (x7 : (⟨Cert.ReferenceIdeal.S1024, .f32⟩ : BufTy).Contents (Elt Ideal))
    (x8 : (⟨Cert.ReferenceIdeal.S3072x1024, .f32⟩ : BufTy).Contents (Elt Ideal)) (x9 : (⟨Cert.ReferenceIdeal.S3072x1024, .f32⟩ : BufTy).Contents (Elt Ideal)) (x10 : (⟨Cert.ReferenceIdeal.S3072, .f32⟩ : BufTy).Contents (Elt Ideal)) (x11 : (⟨Cert.ReferenceIdeal.S3072, .f32⟩ : BufTy).Contents (Elt Ideal)) (p : Fin 1) (q : Fin 1024) :
    val_main_v66 (F := Ideal) x0 x1 x2 x3 x4 x5 x6 x7 x8 x9 x10 x11 (ix2 p q)
      = gruAt (val_main_v34 (F := Ideal) x0 x1 x2 x3 x4 x5 x6 x7 x8 x10) (val_main_v38 (F := Ideal) x1 x9 x11)
          (val_main_v7 (F := Ideal) x1) p q := by
  simp only [val_main_v66_apply, val_main_v65_apply, val_main_v64_apply, val_main_v63_apply, val_main_v62_apply,
    val_main_cst_7_apply, val_main_v61_apply, val_main_v60_apply, val_main_v59_apply, val_main_v58_apply,
    val_main_v57_apply, val_main_cst_6_apply, val_main_v56_apply, val_main_v55_apply, val_main_cst_5_apply,
    val_main_v54_apply, val_main_v53_apply, val_main_v52_apply, val_main_v51_apply, val_main_v50_apply,
    val_main_cst_4_apply, val_main_v49_apply, val_main_v48_apply, val_main_cst_3_apply, val_main_v47_apply,
    val_main_v46_apply, val_main_v45_apply, val_main_v44_apply, val_main_v43_apply, val_main_v42_apply,
    val_main_v41_apply, val_main_v40_apply, val_main_v39_apply]
  rw [idx39 p q, idx40 p q, idx41 p q, idx42 p q, idx43 p q, idx44 p q]
  unfold gruAt
  rw [← logistic_spelt, ← logistic_spelt]
  rfl

end Reference

section Assembly
open Cert.ReferenceIdeal.Read

/-- The combined row: the kernel's is the reference's, given that the attention weights agree. -/
theorem comb_eq (x0 : (⟨Cert.ReferenceIdeal.S1, .i32⟩ : BufTy).Contents (Elt Ideal))
    (x1 : (⟨Cert.ReferenceIdeal.S1x1x1024, .f32⟩ : BufTy).Contents (Elt Ideal))
    (x2 : (⟨Cert.ReferenceIdeal.S512x1024, .f32⟩ : BufTy).Contents (Elt Ideal))
    (x3 : (⟨Cert.ReferenceIdeal.S50257x1024, .f32⟩ : BufTy).Contents (Elt Ideal))
    (x4 : (⟨Cert.ReferenceIdeal.S512x2048, .f32⟩ : BufTy).Contents (Elt Ideal))
    (x5 : (⟨Cert.ReferenceIdeal.S512, .f32⟩ : BufTy).Contents (Elt Ideal))
    (x6 : (⟨Cert.ReferenceIdeal.S1024x2048, .f32⟩ : BufTy).Contents (Elt Ideal))
    (x7 : (⟨Cert.ReferenceIdeal.S1024, .f32⟩ : BufTy).Contents (Elt Ideal))
    (hattn : Cert.KernelIdeal.Gen.k0_pay4 (F := Ideal) (val_main_v6 x0 x3) (val_main_v7 x1) x4
        (shapeCast Cert.KernelIdeal.S1x512 x5 Cert.KernelIdeal.Gen.shapeCasts_S512_S1x512)
      = val_main_v23 (F := Ideal) x0 x1 x3 x4 x5) :
    Cert.KernelIdeal.Gen.k0_pay5 (F := Ideal) (val_main_v6 x0 x3) (val_main_v7 x1) x4
        (shapeCast Cert.KernelIdeal.S1x512 x5 Cert.KernelIdeal.Gen.shapeCasts_S512_S1x512) x2 x6
        (shapeCast Cert.KernelIdeal.S1x1024 x7 Cert.KernelIdeal.Gen.shapeCasts_S1024_S1x1024)
      = val_main_v30 (F := Ideal) x0 x1 x2 x3 x4 x5 x6 x7 := by
  -- the context row: both sum the attention weights against the encoder outputs over the 512 positions
  have hctx : ctxRow (val_main_v23 (F := Ideal) x0 x1 x3 x4 x5) x2 = val_main_v24 (F := Ideal) x0 x1 x2 x3 x4 x5 := by
    funext i
    obtain ⟨p, q, rfl⟩ : ∃ (p : Fin 1) (q : Fin 1024), i = ix2 p q := ⟨i 0, i 1, eq_ix2 i⟩
    rw [ctxRow_apply, val_main_v24_apply]
    exact Finset.sum_congr rfl fun k _ => by rw [lidx24 p q k, ridx24 p q k]
  funext i
  obtain ⟨p, q, rfl⟩ : ∃ (p : Fin 1) (q : Fin 1024), i = ix2 p q := ⟨i 0, i 1, eq_ix2 i⟩
  rw [pay5_apply, ref30_apply, hattn, hctx, shapeCast_a_1a_apply]
  rfl

/-- The input-side pre-activations: over the reference's combined row, the kernel's row is the reference's. -/
theorem gx_eq (x0 : (⟨Cert.ReferenceIdeal.S1, .i32⟩ : BufTy).Contents (Elt Ideal))
    (x1 : (⟨Cert.ReferenceIdeal.S1x1x1024, .f32⟩ : BufTy).Contents (Elt Ideal))
    (x2 : (⟨Cert.ReferenceIdeal.S512x1024, .f32⟩ : BufTy).Contents (Elt Ideal))
    (x3 : (⟨Cert.ReferenceIdeal.S50257x1024, .f32⟩ : BufTy).Contents (Elt Ideal))
    (x4 : (⟨Cert.ReferenceIdeal.S512x2048, .f32⟩ : BufTy).Contents (Elt Ideal))
    (x5 : (⟨Cert.ReferenceIdeal.S512, .f32⟩ : BufTy).Contents (Elt Ideal))
    (x6 : (⟨Cert.ReferenceIdeal.S1024x2048, .f32⟩ : BufTy).Contents (Elt Ideal))
    (x7 : (⟨Cert.ReferenceIdeal.S1024, .f32⟩ : BufTy).Contents (Elt Ideal))
    (x8 : (⟨Cert.ReferenceIdeal.S3072x1024, .f32⟩ : BufTy).Contents (Elt Ideal)) (x10 : (⟨Cert.ReferenceIdeal.S3072, .f32⟩ : BufTy).Contents (Elt Ideal)) :
    gateRow (val_main_v30 (F := Ideal) x0 x1 x2 x3 x4 x5 x6 x7) x8
        (shapeCast Cert.KernelIdeal.S1x3072 x10 Cert.KernelIdeal.Gen.shapeCasts_S3072_S1x3072)
      = val_main_v34 (F := Ideal) x0 x1 x2 x3 x4 x5 x6 x7 x8 x10 := by
  funext i
  obtain ⟨p, j, rfl⟩ : ∃ (p : Fin 1) (j : Fin 3072), i = ix2 p j := ⟨i 0, i 1, eq_ix2 i⟩
  rw [gateRow_apply, ref34_apply, shapeCast_a_1a_apply]

/-- The hidden-side pre-activations likewise, over the hidden row. -/
theorem gh_eq (x1 : (⟨Cert.ReferenceIdeal.S1x1x1024, .f32⟩ : BufTy).Contents (Elt Ideal)) (x9 : (⟨Cert.ReferenceIdeal.S3072x1024, .f32⟩ : BufTy).Contents (Elt Ideal)) (x11 : (⟨Cert.ReferenceIdeal.S3072, .f32⟩ : BufTy).Contents (Elt Ideal)) :
    gateRow (val_main_v7 (F := Ideal) x1) x9
        (shapeCast Cert.KernelIdeal.S1x3072 x11 Cert.KernelIdeal.Gen.shapeCasts_S3072_S1x3072)
      = val_main_v38 (F := Ideal) x1 x9 x11 := by
  funext i
  obtain ⟨p, j, rfl⟩ : ∃ (p : Fin 1) (j : Fin 3072), i = ix2 p j := ⟨i 0, i 1, eq_ix2 i⟩
  rw [gateRow_apply, ref38_apply, shapeCast_a_1a_apply]

/-- The new hidden row, given that the attention weights agree. -/
theorem hnew_eq_of_attn (x0 : (⟨Cert.ReferenceIdeal.S1, .i32⟩ : BufTy).Contents (Elt Ideal))
    (x1 : (⟨Cert.ReferenceIdeal.S1x1x1024, .f32⟩ : BufTy).Contents (Elt Ideal))
    (x2 : (⟨Cert.ReferenceIdeal.S512x1024, .f32⟩ : BufTy).Contents (Elt Ideal))
    (x3 : (⟨Cert.ReferenceIdeal.S50257x1024, .f32⟩ : BufTy).Contents (Elt Ideal))
    (x4 : (⟨Cert.ReferenceIdeal.S512x2048, .f32⟩ : BufTy).Contents (Elt Ideal))
    (x5 : (⟨Cert.ReferenceIdeal.S512, .f32⟩ : BufTy).Contents (Elt Ideal))
    (x6 : (⟨Cert.ReferenceIdeal.S1024x2048, .f32⟩ : BufTy).Contents (Elt Ideal))
    (x7 : (⟨Cert.ReferenceIdeal.S1024, .f32⟩ : BufTy).Contents (Elt Ideal))
    (x8 x9 : (⟨Cert.ReferenceIdeal.S3072x1024, .f32⟩ : BufTy).Contents (Elt Ideal))
    (x10 x11 : (⟨Cert.ReferenceIdeal.S3072, .f32⟩ : BufTy).Contents (Elt Ideal))
    (hattn : Cert.KernelIdeal.Gen.k0_pay4 (F := Ideal) (val_main_v6 x0 x3) (val_main_v7 x1) x4
        (shapeCast Cert.KernelIdeal.S1x512 x5 Cert.KernelIdeal.Gen.shapeCasts_S512_S1x512)
      = val_main_v23 (F := Ideal) x0 x1 x3 x4 x5) :
    Cert.KernelIdeal.Gen.k0_pay1 (F := Ideal) (Cert.KernelIdeal.Gen.k0_pay3 (val_main_v7 x1))
        (Cert.KernelIdeal.Gen.k0_pay5 (val_main_v6 x0 x3) (val_main_v7 x1) x4
          (shapeCast Cert.KernelIdeal.S1x512 x5 Cert.KernelIdeal.Gen.shapeCasts_S512_S1x512) x2 x6
          (shapeCast Cert.KernelIdeal.S1x1024 x7 Cert.KernelIdeal.Gen.shapeCasts_S1024_S1x1024))
        x8 (shapeCast Cert.KernelIdeal.S1x3072 x10 Cert.KernelIdeal.Gen.shapeCasts_S3072_S1x3072)
        x9 (shapeCast Cert.KernelIdeal.S1x3072 x11 Cert.KernelIdeal.Gen.shapeCasts_S3072_S1x3072)
      = val_main_v66 (F := Ideal) x0 x1 x2 x3 x4 x5 x6 x7 x8 x9 x10 x11 := by
  have hh : Cert.KernelIdeal.Gen.k0_pay3 (F := Ideal) (val_main_v7 x1) = val_main_v7 (F := Ideal) x1 :=
    shapeCast_self _ _
  funext i
  obtain ⟨p, q, rfl⟩ : ∃ (p : Fin 1) (q : Fin 1024), i = ix2 p q := ⟨i 0, i 1, eq_ix2 i⟩
  rw [comb_eq x0 x1 x2 x3 x4 x5 x6 x7 hattn, hh, pay1_apply, ref66_apply, gx_eq, gh_eq]

end Assembly

end Gru

open Cert.ReferenceIdeal.Read

/-- The kernel's new hidden row is the reference's, entry by entry. -/
theorem hnew_eq (x0 : (⟨Cert.ReferenceIdeal.S1, .i32⟩ : BufTy).Contents (Elt Ideal))
    (x1 : (⟨Cert.ReferenceIdeal.S1x1x1024, .f32⟩ : BufTy).Contents (Elt Ideal))
    (x2 : (⟨Cert.ReferenceIdeal.S512x1024, .f32⟩ : BufTy).Contents (Elt Ideal))
    (x3 : (⟨Cert.ReferenceIdeal.S50257x1024, .f32⟩ : BufTy).Contents (Elt Ideal))
    (x4 : (⟨Cert.ReferenceIdeal.S512x2048, .f32⟩ : BufTy).Contents (Elt Ideal))
    (x5 : (⟨Cert.ReferenceIdeal.S512, .f32⟩ : BufTy).Contents (Elt Ideal))
    (x6 : (⟨Cert.ReferenceIdeal.S1024x2048, .f32⟩ : BufTy).Contents (Elt Ideal))
    (x7 : (⟨Cert.ReferenceIdeal.S1024, .f32⟩ : BufTy).Contents (Elt Ideal))
    (x8 x9 : (⟨Cert.ReferenceIdeal.S3072x1024, .f32⟩ : BufTy).Contents (Elt Ideal))
    (x10 x11 : (⟨Cert.ReferenceIdeal.S3072, .f32⟩ : BufTy).Contents (Elt Ideal)) :
    Cert.KernelIdeal.Gen.k0_pay1 (F := Ideal) (Cert.KernelIdeal.Gen.k0_pay3 (val_main_v7 x1))
        (Cert.KernelIdeal.Gen.k0_pay5 (val_main_v6 x0 x3) (val_main_v7 x1) x4
          (shapeCast Cert.KernelIdeal.S1x512 x5 Cert.KernelIdeal.Gen.shapeCasts_S512_S1x512) x2 x6
          (shapeCast Cert.KernelIdeal.S1x1024 x7 Cert.KernelIdeal.Gen.shapeCasts_S1024_S1x1024))
        x8 (shapeCast Cert.KernelIdeal.S1x3072 x10 Cert.KernelIdeal.Gen.shapeCasts_S3072_S1x3072)
        x9 (shapeCast Cert.KernelIdeal.S1x3072 x11 Cert.KernelIdeal.Gen.shapeCasts_S3072_S1x3072)
      = val_main_v66 (F := Ideal) x0 x1 x2 x3 x4 x5 x6 x7 x8 x9 x10 x11 :=
  Gru.hnew_eq_of_attn x0 x1 x2 x3 x4 x5 x6 x7 x8 x9 x10 x11 (attn_eq x0 x1 x3 x4 x5)

end Cert.Bridge

end
-- ==== Proof.Take.lean ====
/-
  The embedded row. Both programs wrap a negative index once by adding 50257 and gather that row of the embedding
  table; the kernel side then keeps the row only if the wrapped index lies in 0..50256 and otherwise puts the NaN word
  in every column. For an index in -50257..50256, which the precondition states, the wrapped index is in range, the
  test is true in every column, and the two rows are one term.
-/
import proofs.«421128_j85564338471302_3_alg».proof.KernelIdeal
import proofs.«421128_j85564338471302_3_alg».proof.Pre_finite_inputs
import proofs.«421128_j85564338471302_3_alg».proof.Proof.Gen.KernelIdeal.Launch
import proofs.«421128_j85564338471302_3_alg».proof.Proof.Gen.Pre_finite_inputs
import proofs.«421128_j85564338471302_3_alg».proof.Proof.RefRead
import Idealize.ShloMosaic.Lib.ValueIdx
import Idealize.ShloMosaic.Lib.StableHlo.Run
import Idealize.ShloMosaic.Lib.StableHlo.Predicate
import Idealize.ShloMosaic.Lib.ReduceAll

noncomputable section

open Idealize.ShloMosaic Idealize.ShloMosaic.TcCoe Idealize.SL.Sem

namespace Cert.Bridge

/-! ### The kernel side's lookup as one function of the index and the table -/

section Kernel

open Cert.KernelIdeal Cert.KernelIdeal.Gen

variable {F : FTy → Type} [FloatOps F]

/-- The wrapped index: the index word, plus 50257 when it is negative, as a 1 × 1 array. -/
def kIdx (x0 : (⟨S1, .i32⟩ : BufTy).Contents (Elt F)) : (⟨S1x1, .i32⟩ : BufTy).Contents (Elt F) :=
  broadcastInDim S1x1 ![0] bcast_S1_S1x1_0
    (select (cmpi .slt x0 (broadcastInDim S1 ![] bcast_S_S1 (constantI S_ 32 0#32)))
      (addi x0 (broadcastInDim S1 ![] bcast_S_S1 (constantI S_ 32 50257#32))) x0)

/-- The bit "the wrapped index lies in 0..50256", and-reduced over the one index. -/
def kOk (x0 : (⟨S1, .i32⟩ : BufTy).Contents (Elt F)) : (⟨S1, .i1⟩ : BufTy).Contents (Elt F) :=
  Host.reduce IntOp.andi
    (andi (cmpi .sge (kIdx (F := F) x0) (broadcastInDim S1x1 ![] bcast_S_S1x1 (constantI S_ 32 0#32)))
      (cmpi .sle (kIdx (F := F) x0) (broadcastInDim S1x1 ![1] bcast_S1_S1x1_1 (constantI S1 32 50256#32))))
    (constantI S_ 1 1#1) reducesTo_S1x1_S1_d1 h_S_

/-- The kernel side's lookup: the gathered row where the bit is set, the NaN word elsewhere. -/
def kTake (x0 : (⟨S1, .i32⟩ : BufTy).Contents (Elt F)) (x3 : (⟨S50257x1024, .f32⟩ : BufTy).Contents (Elt F)) :
    (⟨S1x1024, .f32⟩ : BufTy).Contents (Elt F) :=
  select (broadcastInDim S1x1024 ![0] bcast_S1_S1x1024_0 (kOk (F := F) x0))
    (Host.gather gather_S50257x1024_S1x1_S1x1024_1_0_n_n_0_1_11024 x3 (kIdx (F := F) x0))
    (broadcastInDim S1x1024 ![] bcast_S_S1x1024 (constant (F := F) S_ .f32 0x7FC00000#32))

set_option maxRecDepth 8192 in
set_option maxHeartbeats 4000000 in
/-- The first stretch of host operations leaves the lookup of the two arguments in the row's buffer. -/
theorem take_after (W : Valuation τ sig (Elt F)) :
    StableHlo.after (Cert.KernelIdeal.Gen.hostOps0 (F := F)) W (Proc.devRef .tc Cert.KernelIdeal.main_v0)
      = kTake (F := F) (W (Proc.devRef .tc main_arg0)) (W (Proc.devRef .tc main_arg3)) := by
  after_results_simp <;> rfl

end Kernel

/-! ### Words: one-bit folds, and the wrapped index in range -/

/-- A left fold by `and` over one-bit words that are all 1, started at 1, is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have h1 : IntOp.andi (1#1) (1#1) = 1#1 := by decide
    rw [List.foldl_cons, hf a, h1]
    exact foldl_andi_ones f hf l

/-- A reduce by `and` from 1 over an array of ones is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

theorem toInt_0 : (0#32 : BitVec 32).toInt = 0 := BitVec.toInt_zero
theorem toInt_50256 : (50256#32 : BitVec 32).toInt = 50256 := by
  exact_mod_cast StableHlo.Predicate.toInt_ofNat_small 50256 (by omega)
theorem toInt_50257 : (50257#32 : BitVec 32).toInt = 50257 := by
  exact_mod_cast StableHlo.Predicate.toInt_ofNat_small 50257 (by omega)
/-- The word 4294917039 is −50257 read signed. -/
theorem toInt_neg50257 : (4294917039#32 : BitVec 32).toInt = -50257 := by
  rw [BitVec.toInt_eq_toNat_cond, BitVec.toNat_ofNat]
  omega

/-- A word in −50257..50256, with 50257 added once when it is negative, lies in 0..50256. -/
theorem wrap_in_range (w : BitVec 32) (hlo : (-50257 : Int) ≤ w.toInt) (hhi : w.toInt < 50257) :
    IntOp.cmpi .sge (Scalar.select (IntOp.cmpi .slt w 0#32) (IntOp.addi w 50257#32) w) 0#32 = 1#1
      ∧ IntOp.cmpi .sle (Scalar.select (IntOp.cmpi .slt w 0#32) (IntOp.addi w 50257#32) w) 50256#32 = 1#1 := by
  by_cases hneg : w.toInt < 0
  · have hc : IntOp.cmpi .slt w 0#32 = 1#1 := IntOp.cmpi_slt.2 (by rw [toInt_0]; exact hneg)
    have hr : (IntOp.addi w 50257#32).toInt = w.toInt + 50257 := by
      unfold IntOp.addi
      rw [BitVec.toInt_add, toInt_50257]
      exact Int.bmod_eq_of_le_mul_two (by omega) (by omega)
    rw [hc, ValueIdx.select_one]
    exact ⟨IntOp.cmpi_sge.2 (by rw [hr, toInt_0]; omega), IntOp.cmpi_sle.2 (by rw [hr, toInt_50256]; omega)⟩
  · have hc : IntOp.cmpi .slt w 0#32 = 0#1 :=
      ValueIdx.eq_zero_of_ne_one (fun h => hneg (by have := IntOp.cmpi_slt.1 h; rwa [toInt_0] at this))
    rw [hc, ValueIdx.select_zero]
    exact ⟨IntOp.cmpi_sge.2 (by rw [toInt_0]; omega), IntOp.cmpi_sle.2 (by rw [toInt_50256]; omega)⟩

/-- A one-element array has one index. -/
theorem idx1_eq (j : (⟨1, ![1]⟩ : Shape).Idx) : j = ValueIdx.ix1 0 := by
  rw [ValueIdx.eq_ix1 j]
  exact congrArg ValueIdx.ix1 (Subsingleton.elim (α := Fin 1) _ _)

/-! ### In range the lookup is the reference's gathered row -/

section Eq

open Cert.KernelIdeal Cert.KernelIdeal.Gen

variable {F : FTy → Type} [FloatOps F]

/-- The wrapped index at its one position, as words. -/
theorem kIdx_apply (x0 : (⟨S1, .i32⟩ : BufTy).Contents (Elt F)) (i : S1x1.Idx) :
    kIdx (F := F) x0 i = Scalar.select (IntOp.cmpi .slt (x0 (ValueIdx.ix1 0)) 0#32)
      (IntOp.addi (x0 (ValueIdx.ix1 0)) 50257#32) (x0 (ValueIdx.ix1 0)) := by
  unfold kIdx broadcastInDim
  rw [idx1_eq (fun a => _)]
  rfl

/-- In range, the and-reduced bit is 1. -/
theorem kOk_eq_one (x0 : (⟨S1, .i32⟩ : BufTy).Contents (Elt F))
    (hlo : (-50257 : Int) ≤ (x0 (ValueIdx.ix1 0)).toInt) (hhi : (x0 (ValueIdx.ix1 0)).toInt < 50257) (k : S1.Idx) :
    kOk (F := F) x0 k = 1#1 := by
  unfold kOk
  refine reduce_andi_ones _ _ _ _ (fun i => ?_) (fun _ => rfl) k
  obtain ⟨h1, h2⟩ := wrap_in_range (x0 (ValueIdx.ix1 0)) hlo hhi
  refine IntOp.andi_eq_one.2 ⟨?_, ?_⟩
  · show IntOp.cmpi .sge (kIdx (F := F) x0 i) 0#32 = 1#1
    rw [kIdx_apply]; exact h1
  · show IntOp.cmpi .sle (kIdx (F := F) x0 i) 50256#32 = 1#1
    rw [kIdx_apply]; exact h2

/-- The two programs wrap the index by one term. -/
theorem kIdx_eq (x0 : (⟨S1, .i32⟩ : BufTy).Contents (Elt F)) : kIdx (F := F) x0 = Cert.ReferenceIdeal.Read.val_main_v5 (F := F) x0 := rfl

/-- In range, the kernel side's lookup is the reference's gathered row. -/
theorem kTake_eq' (x0 : (⟨S1, .i32⟩ : BufTy).Contents (Elt F)) (x3 : (⟨S50257x1024, .f32⟩ : BufTy).Contents (Elt F))
    (hlo : (-50257 : Int) ≤ (x0 (ValueIdx.ix1 0)).toInt) (hhi : (x0 (ValueIdx.ix1 0)).toInt < 50257) :
    kTake (F := F) x0 x3 = Cert.ReferenceIdeal.Read.val_main_v6 (F := F) x0 x3 := by
  funext j
  have hb : broadcastInDim S1x1024 ![0] bcast_S1_S1x1024_0 (kOk (F := F) x0) j = 1#1 := by
    unfold broadcastInDim
    exact kOk_eq_one x0 hlo hhi _
  unfold kTake
  rw [ValueIdx.select_apply, hb, ValueIdx.select_one, kIdx_eq]
  rfl

theorem kTake_eq (x0 : (⟨S1, .i32⟩ : BufTy).Contents (Elt Ideal)) (x3 : (⟨S50257x1024, .f32⟩ : BufTy).Contents (Elt Ideal))
    (hlo : (-50257 : Int) ≤ (x0 (ValueIdx.ix1 0)).toInt) (hhi : (x0 (ValueIdx.ix1 0)).toInt < 50257) :
    kTake (F := Ideal) x0 x3 = Cert.ReferenceIdeal.Read.val_main_v6 (F := Ideal) x0 x3 :=
  kTake_eq' x0 x3 hlo hhi

end Eq

/-! ### The index range, read out of the printed precondition -/

section Pre

open Cert.Pre_finite_inputs

variable [Cert.Pre_finite_inputs.Facts] {F : FTy → Type} [FloatOps F]

/-- The last part of the printed precondition all ones: both index comparisons are 1 at the one index. -/
theorem part4_of_ones (v63 : IVec S_ 1) (v65 v67 : IVec S1 1)
    (h : fn_part4 (F := F) v63 v65 v67 = fun _ => 1#1) :
    v65 (ValueIdx.ix1 0) = 1#1 ∧ v67 (ValueIdx.ix1 0) = 1#1 := by
  have h0 := congrFun h ValueIdx.ix0
  unfold fn_part4 at h0
  dsimp only at h0
  have h69 := (IntOp.andi_eq_one.1 h0).2
  haveI : Subsingleton S_.Idx := ⟨fun a b => funext fun d => d.elim0⟩
  have h68 := Host.reduce_andi_all _ _ _ _ _ h69 (ValueIdx.ix1 0)
  exact IntOp.andi_eq_one.1 h68

/-- The printed precondition all ones states the index range −50257 ≤ index < 50257. -/
theorem range_of_pre' (a0 : IVec S1 32) (a1 : FVec F S1x1x1024 .f32) (a2 : FVec F S512x1024 .f32) (a3 : FVec F S50257x1024 .f32)
    (a4 : FVec F S512x2048 .f32) (a5 : FVec F S512 .f32) (a6 : FVec F S1024x2048 .f32) (a7 : FVec F S1024 .f32)
    (a8 : FVec F S3072x1024 .f32) (a9 : FVec F S3072x1024 .f32) (a10 : FVec F S3072 .f32) (a11 : FVec F S3072 .f32)
    (a12 : FVec F S50257x1024 .f32) (a13 : FVec F S50257 .f32)
    (h : fn (F := F) a0 a1 a2 a3 a4 a5 a6 a7 a8 a9 a10 a11 a12 a13 = fun _ => 1#1) :
    (-50257 : Int) ≤ (a0 (ValueIdx.ix1 0)).toInt ∧ (a0 (ValueIdx.ix1 0)).toInt < 50257 := by
  unfold fn fn_part1 fn_part2 fn_part3 at h
  obtain ⟨h65, h67⟩ := part4_of_ones _ _ _ h
  have hge : (4294917039#32 : BitVec 32).toInt ≤ (a0 (ValueIdx.ix1 0)).toInt := IntOp.cmpi_sge.1 h65
  have hlt : (a0 (ValueIdx.ix1 0)).toInt < (50257#32 : BitVec 32).toInt := IntOp.cmpi_slt.1 h67
  rw [toInt_neg50257] at hge
  rw [toInt_50257] at hlt
  exact ⟨hge, hlt⟩

theorem range_of_pre (a0 : IVec S1 32) (a1 : FVec Ideal S1x1x1024 .f32) (a2 : FVec Ideal S512x1024 .f32) (a3 : FVec Ideal S50257x1024 .f32)
    (a4 : FVec Ideal S512x2048 .f32) (a5 : FVec Ideal S512 .f32) (a6 : FVec Ideal S1024x2048 .f32) (a7 : FVec Ideal S1024 .f32)
    (a8 : FVec Ideal S3072x1024 .f32) (a9 : FVec Ideal S3072x1024 .f32) (a10 : FVec Ideal S3072 .f32) (a11 : FVec Ideal S3072 .f32)
    (a12 : FVec Ideal S50257x1024 .f32) (a13 : FVec Ideal S50257 .f32)
    (h : fn (F := Ideal) a0 a1 a2 a3 a4 a5 a6 a7 a8 a9 a10 a11 a12 a13 = fun _ => 1#1) :
    (-50257 : Int) ≤ (a0 (ValueIdx.ix1 0)).toInt ∧ (a0 (ValueIdx.ix1 0)).toInt < 50257 :=
  range_of_pre' a0 a1 a2 a3 a4 a5 a6 a7 a8 a9 a10 a11 a12 a13 h

end Pre

end Cert.Bridge

end
-- ==== Proof.Tail.lean ====
/-
  The end of the program. After its two kernel calls the kernel's program turns the row of 50257 vocabulary logits into
  log-probabilities with the host's log-softmax: the row less its maximum, less the logarithm of the sum of the
  exponentials of those differences; then it gives the new hidden row a leading unit axis. The reference ends with the
  same operations on its own logits and its own hidden row. Both are the one function `lsm`, respectively the one
  broadcast, of what they are applied to, for any float values.
-/
import proofs.«421128_j85564338471302_3_alg».proof.KernelIdeal
import proofs.«421128_j85564338471302_3_alg».proof.Proof.Gen.KernelIdeal.Launch
import proofs.«421128_j85564338471302_3_alg».proof.Proof.RefRead
import Idealize.ShloMosaic.Lib.StableHlo.Run

noncomputable section

open Idealize.ShloMosaic Idealize.ShloMosaic.TcCoe Idealize.SL.Sem Idealize.ShloMosaic.StableHlo

namespace Cert.Bridge

variable {F : FTy → Type} [FloatOps F]

/-! ## The log-softmax of the row of 50257 vocabulary logits -/

/-- The log-softmax as the host computes it: the row less its maximum (joined once more with `-∞`), then less the
    logarithm of the sum of the exponentials of those differences. -/
def lsm (x : Vec F Cert.KernelIdeal.S1x50257 .f32) : Vec F Cert.KernelIdeal.S1x50257 .f32 :=
  have m : FVec F Cert.KernelIdeal.S1 .f32 :=
    maximumf
      (broadcastInDim Cert.KernelIdeal.S1 ![] Cert.KernelIdeal.Gen.bcast_S_S1 (constant Cert.KernelIdeal.S_ .f32 0xFF800000#32))
      (Host.reduce (FloatOps.maximumf (F := F) (φ := .f32)) x (constant Cert.KernelIdeal.S_ .f32 0xFF800000#32)
        Cert.KernelIdeal.Gen.reducesTo_S1x50257_S1_d1 Cert.KernelIdeal.Gen.h_S_)
  have d : FVec F Cert.KernelIdeal.S1x50257 .f32 :=
    subf x (broadcastInDim Cert.KernelIdeal.S1x50257 ![0, 1] Cert.KernelIdeal.Gen.bcast_S1x1_S1x50257_0_1
      (broadcastInDim Cert.KernelIdeal.S1x1 ![0] Cert.KernelIdeal.Gen.bcast_S1_S1x1_0 m))
  have s : FVec F Cert.KernelIdeal.S1 .f32 :=
    Host.reduceAdd (Host.exp d) (constant Cert.KernelIdeal.S_ .f32 0x00000000#32)
      Cert.KernelIdeal.Gen.reducesTo_S1x50257_S1_d1 Cert.KernelIdeal.Gen.h_S_
  subf d (broadcastInDim Cert.KernelIdeal.S1x50257 ![0, 1] Cert.KernelIdeal.Gen.bcast_S1x1_S1x50257_0_1
    (Host.log (broadcastInDim Cert.KernelIdeal.S1x1 ![0] Cert.KernelIdeal.Gen.bcast_S1_S1x1_0 s)))

/-! ## The kernel's program after its two calls -/

/-- Contents moved to a typed reference's buffer type and back are unchanged. -/
theorem ofBuf_toBuf {sig : RefSig} {T : BufTy} {Val : EltTy → Type} (x : StableHlo.TRef sig T) (v : T.Contents Val) :
    x.ofBuf (x.toBuf v) = v := by
  obtain ⟨r, h, h1, h2⟩ := x
  subst h
  rfl

set_option maxHeartbeats 1000000 in
/-- The fifteen host operations after the second call leave, in the result's buffer, the log-softmax of what the
    second call's result buffer held. -/
theorem tail_kernel (W : Valuation Cert.KernelIdeal.τ Cert.KernelIdeal.sig (Elt F)) :
    StableHlo.after (Cert.KernelIdeal.Gen.hostOps2 (F := F)) W (Proc.devRef .tc Cert.KernelIdeal.main_v9)
      = lsm (W (Proc.devRef .tc Cert.KernelIdeal.main_v8)) := by
  after_results_simp
  simp only [ofBuf_toBuf]
  rfl

/-- The one host operation after them puts the new hidden row, with a leading unit axis, in its buffer. -/
theorem bcast_kernel (W : Valuation Cert.KernelIdeal.τ Cert.KernelIdeal.sig (Elt F)) :
    StableHlo.after (Cert.KernelIdeal.Gen.hostOps2_1 (F := F)) W (Proc.devRef .tc Cert.KernelIdeal.main_v10)
      = broadcastInDim Cert.KernelIdeal.S1x1x1024 ![1, 2] Cert.KernelIdeal.Gen.bcast_S1x1024_S1x1x1024_1_2
          (W (Proc.devRef .tc Cert.KernelIdeal.main_v7_1)) := by
  after_results

/-! ## The reference's last stages -/

/-- The reference's log-probabilities are the log-softmax of its vocabulary logits: its call's stages, unfolded, are
    that composition. -/
theorem tail_ref (x0 : (⟨Cert.ReferenceIdeal.S1, .i32⟩ : BufTy).Contents (Elt F)) (x1 : (⟨Cert.ReferenceIdeal.S1x1x1024, .f32⟩ : BufTy).Contents (Elt F))
    (x2 : (⟨Cert.ReferenceIdeal.S512x1024, .f32⟩ : BufTy).Contents (Elt F)) (x3 : (⟨Cert.ReferenceIdeal.S50257x1024, .f32⟩ : BufTy).Contents (Elt F))
    (x4 : (⟨Cert.ReferenceIdeal.S512x2048, .f32⟩ : BufTy).Contents (Elt F)) (x5 : (⟨Cert.ReferenceIdeal.S512, .f32⟩ : BufTy).Contents (Elt F))
    (x6 : (⟨Cert.ReferenceIdeal.S1024x2048, .f32⟩ : BufTy).Contents (Elt F)) (x7 : (⟨Cert.ReferenceIdeal.S1024, .f32⟩ : BufTy).Contents (Elt F))
    (x8 x9 : (⟨Cert.ReferenceIdeal.S3072x1024, .f32⟩ : BufTy).Contents (Elt F)) (x10 x11 : (⟨Cert.ReferenceIdeal.S3072, .f32⟩ : BufTy).Contents (Elt F))
    (x12 : (⟨Cert.ReferenceIdeal.S50257x1024, .f32⟩ : BufTy).Contents (Elt F)) (x13 : (⟨Cert.ReferenceIdeal.S50257, .f32⟩ : BufTy).Contents (Elt F)) :
    Cert.ReferenceIdeal.Read.val_main_v71 (F := F) x0 x1 x2 x3 x4 x5 x6 x7 x8 x9 x10 x11 x12 x13
      = lsm (Cert.ReferenceIdeal.Read.val_main_v70 (F := F) x0 x1 x2 x3 x4 x5 x6 x7 x8 x9 x10 x11 x12 x13) := by
  unfold Cert.ReferenceIdeal.Read.val_main_v71 Cert.ReferenceIdeal.Read.val_main_call1_v10 Cert.ReferenceIdeal.Read.val_main_call1_v9
    Cert.ReferenceIdeal.Read.val_main_call1_v8 Cert.ReferenceIdeal.Read.val_main_call1_v7 Cert.ReferenceIdeal.Read.val_main_call1_v6
    Cert.ReferenceIdeal.Read.val_main_call1_v5 Cert.ReferenceIdeal.Read.val_main_call1_v4 Cert.ReferenceIdeal.Read.val_main_call1_v3
    Cert.ReferenceIdeal.Read.val_main_call1_v2 Cert.ReferenceIdeal.Read.val_main_call1_v1 Cert.ReferenceIdeal.Read.val_main_call1_v0
    Cert.ReferenceIdeal.Read.val_main_call1_cst Cert.ReferenceIdeal.Read.val_main_call1_cst_0 Cert.ReferenceIdeal.Read.val_main_call1_cst_1
  generalize Cert.ReferenceIdeal.Read.val_main_v70 (F := F) x0 x1 x2 x3 x4 x5 x6 x7 x8 x9 x10 x11 x12 x13 = y
  rfl

/-- The reference's new hidden state is its new hidden row with a leading unit axis: the stage's definition. -/
theorem bcast_ref (x0 : (⟨Cert.ReferenceIdeal.S1, .i32⟩ : BufTy).Contents (Elt F)) (x1 : (⟨Cert.ReferenceIdeal.S1x1x1024, .f32⟩ : BufTy).Contents (Elt F))
    (x2 : (⟨Cert.ReferenceIdeal.S512x1024, .f32⟩ : BufTy).Contents (Elt F)) (x3 : (⟨Cert.ReferenceIdeal.S50257x1024, .f32⟩ : BufTy).Contents (Elt F))
    (x4 : (⟨Cert.ReferenceIdeal.S512x2048, .f32⟩ : BufTy).Contents (Elt F)) (x5 : (⟨Cert.ReferenceIdeal.S512, .f32⟩ : BufTy).Contents (Elt F))
    (x6 : (⟨Cert.ReferenceIdeal.S1024x2048, .f32⟩ : BufTy).Contents (Elt F)) (x7 : (⟨Cert.ReferenceIdeal.S1024, .f32⟩ : BufTy).Contents (Elt F))
    (x8 x9 : (⟨Cert.ReferenceIdeal.S3072x1024, .f32⟩ : BufTy).Contents (Elt F)) (x10 x11 : (⟨Cert.ReferenceIdeal.S3072, .f32⟩ : BufTy).Contents (Elt F)) :
    Cert.ReferenceIdeal.Read.val_main_v72 (F := F) x0 x1 x2 x3 x4 x5 x6 x7 x8 x9 x10 x11
      = broadcastInDim Cert.KernelIdeal.S1x1x1024 ![1, 2] Cert.KernelIdeal.Gen.bcast_S1x1024_S1x1x1024_1_2
          (Cert.ReferenceIdeal.Read.val_main_v66 (F := F) x0 x1 x2 x3 x4 x5 x6 x7 x8 x9 x10 x11) := rfl

end Cert.Bridge

end
-- ==== Proof.KIMain.lean ====
/-
  The idealized kernel program's three results as the reference's stages of the arguments. Under the precondition the
  index lies in -50257..50256, so the kernel side's lookup is the reference's gathered row; the six reshapes are the
  reference's; the first call leaves the attention weights and the new hidden row, which are the reference's stages
  v23 and v66; the second call leaves in the logits array the inner products of the new hidden row with the rows of
  the vocabulary matrix plus the biases, the reference's stage v70; the log-softmax and the last broadcast are the
  same operations in both programs.
-/
import proofs.«421128_j85564338471302_3_alg».proof.Proof.KIRun
import proofs.«421128_j85564338471302_3_alg».proof.Proof.KIVal0
import proofs.«421128_j85564338471302_3_alg».proof.Proof.KIProj
import proofs.«421128_j85564338471302_3_alg».proof.Proof.Attn
import proofs.«421128_j85564338471302_3_alg».proof.Proof.Gru
import proofs.«421128_j85564338471302_3_alg».proof.Proof.Proj
import proofs.«421128_j85564338471302_3_alg».proof.Proof.Take
import proofs.«421128_j85564338471302_3_alg».proof.Proof.Tail
import proofs.«421128_j85564338471302_3_alg».proof.Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat RDat Cfg Window BodyObligation BodyObligationLoose cellOf)
open Cert.ReferenceIdeal.Read Cert.Bridge

variable (m : (ℓ : Loc nD τ sig) → Buf (Elt Ideal) ℓ) (ρ : Dev nD → PrngReg)

/-- The launch contents of argument `k` on core `c`. -/
abbrev ar0 (c : Dev nD) := m ((c.tc : Thread nD τ).loc main_arg0)
abbrev ar1 (c : Dev nD) := m ((c.tc : Thread nD τ).loc main_arg1)
abbrev ar2 (c : Dev nD) := m ((c.tc : Thread nD τ).loc main_arg2)
abbrev ar3 (c : Dev nD) := m ((c.tc : Thread nD τ).loc main_arg3)
abbrev ar4 (c : Dev nD) := m ((c.tc : Thread nD τ).loc main_arg4)
abbrev ar5 (c : Dev nD) := m ((c.tc : Thread nD τ).loc main_arg5)
abbrev ar6 (c : Dev nD) := m ((c.tc : Thread nD τ).loc main_arg6)
abbrev ar7 (c : Dev nD) := m ((c.tc : Thread nD τ).loc main_arg7)
abbrev ar8 (c : Dev nD) := m ((c.tc : Thread nD τ).loc main_arg8)
abbrev ar9 (c : Dev nD) := m ((c.tc : Thread nD τ).loc main_arg9)
abbrev ar10 (c : Dev nD) := m ((c.tc : Thread nD τ).loc main_arg10)
abbrev ar11 (c : Dev nD) := m ((c.tc : Thread nD τ).loc main_arg11)
abbrev ar12 (c : Dev nD) := m ((c.tc : Thread nD τ).loc main_arg12)
abbrev ar13 (c : Dev nD) := m ((c.tc : Thread nD τ).loc main_arg13)

/-- A buffer the log-softmax and the last broadcast do not write, other than the logits array, is as the second call
    found it. -/
theorem W6_to_W3 (c : Dev nD) (f : Out8 (F := Ideal) c) (r : Ref sig .tc) (h21 : r ∉ hostOps2_1_W) (h2 : r ∉ hostOps2_W)
    (h8 : r ≠ main_v8) : W6 m c f (Proc.devRef .tc r) = W3 m c (Proc.devRef .tc r) :=
  calc W6 m c f (Proc.devRef .tc r)
    _ = W5 m c f (Proc.devRef .tc r) := StableHlo.after_of_writes_sub hostOps2_1 _ hostOps2_1_writes h21
    _ = W4 m c f (Proc.devRef .tc r) := StableHlo.after_of_writes_sub hostOps2 _ hostOps2_writes h2
    _ = W3 m c (Proc.devRef .tc r) := W4_of_ne m c f r h8

/-- An argument as the first call finds it. -/
theorem U2_arg (c : Dev nD) (r : Ref sig .tc) (h01 : r ∉ hostOps0_1_W) (h00 : r ∉ hostOps0_W) :
    U2 m c r = m ((c.tc : Thread nD τ).loc r) :=
  (V2_of m c r h01).trans ((V1_of m c r h00).trans rfl)

section Values

variable [hP : Cert.Pre_finite_inputs.Facts] (hpre : Cert.Pre_KernelIdeal m)

include hpre in
/-- The kernel side's embedded row is the reference's gathered row: the precondition puts the index in range. -/
theorem U2_v0 (c : Dev nD) : U2 m c main_v0 = val_main_v6 (F := Ideal) (ar0 m c) (ar3 m c) := by
  obtain ⟨hlo, hhi⟩ := range_of_pre _ _ _ _ _ _ _ _ _ _ _ _ _ _ (hpre c)
  exact (V2_of m c main_v0 (by decide)).trans ((take_after (F := Ideal) (V0 m c)).trans (kTake_eq _ _ hlo hhi))

/-- The six reshapes, read off the launch contents. -/
theorem U2_v1 (c : Dev nD) : U2 m c main_v1 = val_main_v7 (F := Ideal) (ar1 m c) := by
  have h := after01_main_v1 (F := Ideal) (V1 m c)
  rw [V1_of m c main_arg1 (by decide)] at h
  exact h
theorem U2_v2 (c : Dev nD) : U2 m c main_v2 = shapeCast S1x512 (ar5 m c) shapeCasts_S512_S1x512 := by
  have h := after01_main_v2 (F := Ideal) (V1 m c)
  rw [V1_of m c main_arg5 (by decide)] at h
  exact h
theorem U2_v3 (c : Dev nD) : U2 m c main_v3 = shapeCast S1x1024 (ar7 m c) shapeCasts_S1024_S1x1024 := by
  have h := after01_main_v3 (F := Ideal) (V1 m c)
  rw [V1_of m c main_arg7 (by decide)] at h
  exact h
theorem U2_v4 (c : Dev nD) : U2 m c main_v4 = shapeCast S1x3072 (ar10 m c) shapeCasts_S3072_S1x3072 := by
  have h := after01_main_v4 (F := Ideal) (V1 m c)
  rw [V1_of m c main_arg10 (by decide)] at h
  exact h
theorem U2_v5 (c : Dev nD) : U2 m c main_v5 = shapeCast S1x3072 (ar11 m c) shapeCasts_S3072_S1x3072 := by
  have h := after01_main_v5 (F := Ideal) (V1 m c)
  rw [V1_of m c main_arg11 (by decide)] at h
  exact h
theorem U2_v6 (c : Dev nD) : U2 m c main_v6 = shapeCast S1x50257 (ar13 m c) shapeCasts_S50257_S1x50257 := by
  have h := after01_main_v6 (F := Ideal) (V1 m c)
  rw [V1_of m c main_arg13 (by decide)] at h
  exact h

include hpre in
/-- What the first call leaves in the attention-weights array is the reference's stage v23. -/
theorem attn_val (c : Dev nD) :
    W3 m c (Proc.devRef .tc main_v7_0) = val_main_v23 (F := Ideal) (ar0 m c) (ar1 m c) (ar3 m c) (ar4 m c) (ar5 m c) := by
  refine (W3_arr m c 11).trans ((attn_final (U2 m) c).trans ?_)
  rw [U2_v0 m hpre c, U2_v1 m c, U2_v2 m c, U2_arg m c main_arg4 (by decide) (by decide)]
  exact attn_eq _ _ _ _ _

include hpre in
/-- What it leaves in the hidden-row array is the reference's stage v66. -/
theorem hid_val (c : Dev nD) :
    W3 m c (Proc.devRef .tc main_v7_1) = val_main_v66 (F := Ideal) (ar0 m c) (ar1 m c) (ar2 m c) (ar3 m c) (ar4 m c) (ar5 m c) (ar6 m c) (ar7 m c) (ar8 m c) (ar9 m c) (ar10 m c) (ar11 m c) := by
  refine (W3_arr m c 12).trans ((hid_final (U2 m) c).trans ?_)
  rw [U2_v0 m hpre c, U2_v1 m c, U2_v2 m c, U2_v3 m c, U2_v4 m c, U2_v5 m c,
    U2_arg m c main_arg4 (by decide) (by decide), U2_arg m c main_arg2 (by decide) (by decide),
    U2_arg m c main_arg6 (by decide) (by decide), U2_arg m c main_arg8 (by decide) (by decide),
    U2_arg m c main_arg9 (by decide) (by decide)]
  exact hnew_eq _ _ _ _ _ _ _ _ _ _ _ _

include hpre in
/-- What the second call leaves in the logits array, when its window is not forgotten, is the reference's stage v70. -/
theorem logits_val (c : Dev nD) :
    (dat1 (F := Ideal) (U3 m) c).arrAt 3 cfg1.N = val_main_v70 (F := Ideal) (ar0 m c) (ar1 m c) (ar2 m c) (ar3 m c) (ar4 m c) (ar5 m c) (ar6 m c) (ar7 m c) (ar8 m c) (ar9 m c) (ar10 m c) (ar11 m c) (ar12 m c) (ar13 m c) := by
  rw [logits_final (U3 m) c]
  rw [show U3 m c main_v7_1 = val_main_v66 (F := Ideal) (ar0 m c) (ar1 m c) (ar2 m c) (ar3 m c) (ar4 m c) (ar5 m c) (ar6 m c) (ar7 m c) (ar8 m c) (ar9 m c) (ar10 m c) (ar11 m c) from hid_val m hpre c,
    show U3 m c main_arg12 = ar12 m c from (W3_of_ne m c main_arg12 (by decide)).trans (U2_arg m c main_arg12 (by decide) (by decide)),
    show U3 m c main_v6 = shapeCast S1x50257 (ar13 m c) shapeCasts_S50257_S1x50257 from (W3_of_ne m c main_v6 (by decide)).trans (U2_v6 m c)]
  exact logits_ref_eq _ _ _ _ _ _ _ _ _ _ _ _ _ _

include hpre in
/-- THE VALUES. Under the precondition every weakly fair execution of the idealized kernel program terminates with its
    three results at the reference's stages v71, v72, v23 of the arguments, and the arguments unchanged. -/
theorem values : θ_run defs (onTc (τ := τ) (main (F := Ideal))) ⟨m, fun _ => 0, ρ⟩ (fun r => ∀ c : Dev nD,
      r.2.mem ((c.tc : Thread nD τ).loc main_v9) = val_main_v71 (F := Ideal) (ar0 m c) (ar1 m c) (ar2 m c) (ar3 m c) (ar4 m c) (ar5 m c) (ar6 m c) (ar7 m c) (ar8 m c) (ar9 m c) (ar10 m c) (ar11 m c) (ar12 m c) (ar13 m c)
      ∧ r.2.mem ((c.tc : Thread nD τ).loc main_v10) = val_main_v72 (F := Ideal) (ar0 m c) (ar1 m c) (ar2 m c) (ar3 m c) (ar4 m c) (ar5 m c) (ar6 m c) (ar7 m c) (ar8 m c) (ar9 m c) (ar10 m c) (ar11 m c)
      ∧ r.2.mem ((c.tc : Thread nD τ).loc main_v7_0) = val_main_v23 (F := Ideal) (ar0 m c) (ar1 m c) (ar3 m c) (ar4 m c) (ar5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine (θ_run defs _ _).mono (fun r h c => ?_)
    (run_all m ρ fgtNone (fun _ _ => rfl) (fun c => body_obligation1 (U3 m) rowIndep c))
  have hargs := Final.args m fgtNone (h c)
  obtain ⟨f, hf, hm⟩ := h c
  have hf' : f = (dat1 (F := Ideal) (U3 m) c).arrAt 3 cfg1.N := hf rfl
  refine ⟨?_, ?_, ?_, hargs⟩
  · -- the log-probabilities: the shared log-softmax of the logits
    refine (hm _ (mem_uc main_v9 (by decide))).trans ?_
    refine (StableHlo.after_of_writes_sub hostOps2_1 _ hostOps2_1_writes (by decide)).trans ?_
    refine (tail_kernel (F := Ideal) (W4 m c f)).trans ?_
    rw [W4_out m c f, hf', logits_val m hpre c]
    exact (tail_ref _ _ _ _ _ _ _ _ _ _ _ _ _ _).symm
  · -- the new hidden state: the broadcast of the hidden row
    refine (hm _ (mem_uc main_v10 (by decide))).trans ?_
    refine (bcast_kernel (F := Ideal) (W5 m c f)).trans ?_
    rw [show W5 m c f (Proc.devRef .tc main_v7_1) = W3 m c (Proc.devRef .tc main_v7_1) from
      (StableHlo.after_of_writes_sub hostOps2 _ hostOps2_writes (by decide)).trans (W4_of_ne m c f main_v7_1 (by decide)),
      hid_val m hpre c]
    exact (bcast_ref _ _ _ _ _ _ _ _ _ _ _ _).symm
  · -- the attention weights
    refine (hm _ (mem_uc main_v7_0 (by decide))).trans ?_
    exact (W6_to_W3 m c f main_v7_0 (by decide) (by decide) (by decide)).trans (attn_val m hpre c)

end Values

end Cert.KernelIdeal.Hand

end
-- ==== Proof.RefStagesDefs.lean ====
/-
  The reference program's run, stretch by stretch. Its 99 host operations are cut into eight stretches (the lookup and
  the first reshape; the attention weights; the combined row; the two gate pre-activations; the gates and the new hidden
  row; the logits; the log-softmax; the last broadcast). Between two stretches only a few buffers matter: the arguments,
  which no operation writes, and the intermediate results later stretches read. Each stretch takes the statement
  "these buffers hold their stages of the arguments" across; chaining the eight gives the three results at their stages.
-/
import proofs.«421128_j85564338471302_3_alg».proof.Proof.RefOps
import proofs.«421128_j85564338471302_3_alg».proof.Proof.RefRead

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 1 to 10 of @main. -/
abbrev st1 : List (HloOp τ sig (Elt F)) :=
  [ nullary main_c (constantI S_ 32 0#32),
    unary main_c main_v0 (broadcastInDim S1 ![] bcast_S_S1 : (⟨S_, .i32⟩ : BufTy).Contents (Elt F) → (⟨S1, .i32⟩ : BufTy).Contents (Elt F)),
    binary main_arg0 main_v0 main_v1 (cmpi .slt : (⟨S1, .i32⟩ : BufTy).Contents (Elt F) → (⟨S1, .i32⟩ : BufTy).Contents (Elt F) → (⟨S1, .i1⟩ : BufTy).Contents (Elt F)),
    nullary main_c_0 (constantI S_ 32 50257#32),
    unary main_c_0 main_v2 (broadcastInDim S1 ![] bcast_S_S1 : (⟨S_, .i32⟩ : BufTy).Contents (Elt F) → (⟨S1, .i32⟩ : BufTy).Contents (Elt F)),
    binary main_arg0 main_v2 main_v3 (addi : (⟨S1, .i32⟩ : BufTy).Contents (Elt F) → (⟨S1, .i32⟩ : BufTy).Contents (Elt F) → (⟨S1, .i32⟩ : BufTy).Contents (Elt F)),
    ternary main_v1 main_v3 main_arg0 main_v4 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v4 main_v5 (broadcastInDim S1x1 ![0] bcast_S1_S1x1_0 : (⟨S1, .i32⟩ : BufTy).Contents (Elt F) → (⟨S1x1, .i32⟩ : BufTy).Contents (Elt F)),
    binary main_arg3 main_v5 main_v6 ((fun x i => Host.gather gather_S50257x1024_S1x1_S1x1024_1_0_n_n_0_1_11024 x i) : (⟨S50257x1024, .f32⟩ : BufTy).Contents (Elt F) → (⟨S1x1, .i32⟩ : BufTy).Contents (Elt F) → (⟨S1x1024, .f32⟩ : BufTy).Contents (Elt F)),
    reshape main_arg1 main_v7 rfl shapeCasts_S1x1x1024_S1x1024 ]

/-- Operations 11 to 29 of @main. -/
abbrev st2 : List (HloOp τ sig (Elt F)) :=
  [ binary main_v6 main_v7 main_v8 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg4 main_v9 ((transpose S2048x512 [1, 0] · transposes_S512x2048_S2048x512_1_0) : (⟨S512x2048, .f32⟩ : BufTy).Contents (Elt F) → (⟨S2048x512, .f32⟩ : BufTy).Contents (Elt F)),
    binary main_v8 main_v9 main_v10 ((fun l r => Host.dotGeneral dot_S1x2048_S2048x512_S1x512_1_0_0_1_n_n none l r) : (⟨S1x2048, .f32⟩ : BufTy).Contents (Elt F) → (⟨S2048x512, .f32⟩ : BufTy).Contents (Elt F) → (⟨S1x512, .f32⟩ : BufTy).Contents (Elt F)),
    unary main_arg5 main_v11 (broadcastInDim S1x512 ![1] bcast_S512_S1x512_1 : (⟨S512, .f32⟩ : BufTy).Contents (Elt F) → (⟨S1x512, .f32⟩ : BufTy).Contents (Elt F)),
    binary main_v10 main_v11 main_v12 (addf : (⟨S1x512, .f32⟩ : BufTy).Contents (Elt F) → (⟨S1x512, .f32⟩ : BufTy).Contents (Elt F) → (⟨S1x512, .f32⟩ : BufTy).Contents (Elt F)),
    nullary main_cst (constant S_ .f32 0xFF800000#32),
    binary main_v12 main_cst main_v13 ((fun x v => Host.reduce FloatOps.maximumf x v reducesTo_S1x512_S1_d1 h_S_) : (⟨S1x512, .f32⟩ : BufTy).Contents (Elt F) → (⟨S_, .f32⟩ : BufTy).Contents (Elt F) → (⟨S1, .f32⟩ : BufTy).Contents (Elt F)),
    nullary main_cst_1 (constant S_ .f32 0xFF800000#32),
    unary main_cst_1 main_v14 (broadcastInDim S1 ![] bcast_S_S1 : (⟨S_, .f32⟩ : BufTy).Contents (Elt F) → (⟨S1, .f32⟩ : BufTy).Contents (Elt F)),
    binary main_v14 main_v13 main_v15 (maximumf : (⟨S1, .f32⟩ : BufTy).Contents (Elt F) → (⟨S1, .f32⟩ : BufTy).Contents (Elt F) → (⟨S1, .f32⟩ : BufTy).Contents (Elt F)),
    unary main_v15 main_v16 (broadcastInDim S1x1 ![0] bcast_S1_S1x1_0 : (⟨S1, .f32⟩ : BufTy).Contents (Elt F) → (⟨S1x1, .f32⟩ : BufTy).Contents (Elt F)),
    unary main_v16 main_v17 (broadcastInDim S1x512 ![0, 1] bcast_S1x1_S1x512_0_1 : (⟨S1x1, .f32⟩ : BufTy).Contents (Elt F) → (⟨S1x512, .f32⟩ : BufTy).Contents (Elt F)),
    binary main_v12 main_v17 main_v18 (subf : (⟨S1x512, .f32⟩ : BufTy).Contents (Elt F) → (⟨S1x512, .f32⟩ : BufTy).Contents (Elt F) → (⟨S1x512, .f32⟩ : BufTy).Contents (Elt F)),
    unary main_v18 main_v19 (Host.exp : (⟨S1x512, .f32⟩ : BufTy).Contents (Elt F) → (⟨S1x512, .f32⟩ : BufTy).Contents (Elt F)),
    nullary main_cst_2 (constant S_ .f32 0x00000000#32),
    binary main_v19 main_cst_2 main_v20 ((fun x v => Host.reduceAdd x v reducesTo_S1x512_S1_d1 h_S_) : (⟨S1x512, .f32⟩ : BufTy).Contents (Elt F) → (⟨S_, .f32⟩ : BufTy).Contents (Elt F) → (⟨S1, .f32⟩ : BufTy).Contents (Elt F)),
    unary main_v20 main_v21 (broadcastInDim S1x1 ![0] bcast_S1_S1x1_0 : (⟨S1, .f32⟩ : BufTy).Contents (Elt F) → (⟨S1x1, .f32⟩ : BufTy).Contents (Elt F)),
    unary main_v21 main_v22 (broadcastInDim S1x512 ![0, 1] bcast_S1x1_S1x512_0_1 : (⟨S1x1, .f32⟩ : BufTy).Contents (Elt F) → (⟨S1x512, .f32⟩ : BufTy).Contents (Elt F)),
    binary main_v19 main_v22 main_v23 (Host.divf : (⟨S1x512, .f32⟩ : BufTy).Contents (Elt F) → (⟨S1x512, .f32⟩ : BufTy).Contents (Elt F) → (⟨S1x512, .f32⟩ : BufTy).Contents (Elt F)) ]

/-- Operations 30 to 38 of @main. -/
abbrev st3 : List (HloOp τ sig (Elt F)) :=
  [ binary main_v23 main_arg2 main_v24 ((fun l r => Host.dotGeneral dot_S1x512_S512x1024_S1x1024_1_0_0_1_n_n none l r) : (⟨S1x512, .f32⟩ : BufTy).Contents (Elt F) → (⟨S512x1024, .f32⟩ : BufTy).Contents (Elt F) → (⟨S1x1024, .f32⟩ : BufTy).Contents (Elt F)),
    binary main_v6 main_v24 main_v25 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg6 main_v26 ((transpose S2048x1024 [1, 0] · transposes_S1024x2048_S2048x1024_1_0) : (⟨S1024x2048, .f32⟩ : BufTy).Contents (Elt F) → (⟨S2048x1024, .f32⟩ : BufTy).Contents (Elt F)),
    binary main_v25 main_v26 main_v27 ((fun l r => Host.dotGeneral dot_S1x2048_S2048x1024_S1x1024_1_0_0_1_n_n none l r) : (⟨S1x2048, .f32⟩ : BufTy).Contents (Elt F) → (⟨S2048x1024, .f32⟩ : BufTy).Contents (Elt F) → (⟨S1x1024, .f32⟩ : BufTy).Contents (Elt F)),
    unary main_arg7 main_v28 (broadcastInDim S1x1024 ![1] bcast_S1024_S1x1024_1 : (⟨S1024, .f32⟩ : BufTy).Contents (Elt F) → (⟨S1x1024, .f32⟩ : BufTy).Contents (Elt F)),
    binary main_v27 main_v28 main_v29 (addf : (⟨S1x1024, .f32⟩ : BufTy).Contents (Elt F) → (⟨S1x1024, .f32⟩ : BufTy).Contents (Elt F) → (⟨S1x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x1024, .f32⟩) main_call0_v0) (broadcastInDim S1x1024 ![] bcast_S_S1x1024),
    TRef.binary (TRef.of (T := ⟨S1x1024, .f32⟩) main_v29) (TRef.of (T := ⟨S1x1024, .f32⟩) main_call0_v0) (TRef.of (T := ⟨S1x1024, .f32⟩) main_v30) maximumf ]

/-- Operations 39 to 46 of @main. -/
abbrev st4 : List (HloOp τ sig (Elt F)) :=
  [ unary main_arg8 main_v31 ((transpose S1024x3072 [1, 0] · transposes_S3072x1024_S1024x3072_1_0) : (⟨S3072x1024, .f32⟩ : BufTy).Contents (Elt F) → (⟨S1024x3072, .f32⟩ : BufTy).Contents (Elt F)),
    binary main_v30 main_v31 main_v32 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg10 main_v33 (broadcastInDim S1x3072 ![1] bcast_S3072_S1x3072_1 : (⟨S3072, .f32⟩ : BufTy).Contents (Elt F) → (⟨S1x3072, .f32⟩ : BufTy).Contents (Elt F)),
    binary main_v32 main_v33 main_v34 (addf : (⟨S1x3072, .f32⟩ : BufTy).Contents (Elt F) → (⟨S1x3072, .f32⟩ : BufTy).Contents (Elt F) → (⟨S1x3072, .f32⟩ : BufTy).Contents (Elt F)),
    unary main_arg9 main_v35 ((transpose S1024x3072 [1, 0] · transposes_S3072x1024_S1024x3072_1_0) : (⟨S3072x1024, .f32⟩ : BufTy).Contents (Elt F) → (⟨S1024x3072, .f32⟩ : BufTy).Contents (Elt F)),
    binary main_v7 main_v35 main_v36 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg11 main_v37 (broadcastInDim S1x3072 ![1] bcast_S3072_S1x3072_1 : (⟨S3072, .f32⟩ : BufTy).Contents (Elt F) → (⟨S1x3072, .f32⟩ : BufTy).Contents (Elt F)),
    binary main_v36 main_v37 main_v38 (addf : (⟨S1x3072, .f32⟩ : BufTy).Contents (Elt F) → (⟨S1x3072, .f32⟩ : BufTy).Contents (Elt F) → (⟨S1x3072, .f32⟩ : BufTy).Contents (Elt F)) ]

/-- Operations 47 to 79 of @main. -/
abbrev st5 : List (HloOp τ sig (Elt F)) :=
  [ unary main_v34 main_v39 ((extractStridedSlice S1x1024 ![0, 0] · slices_S1x3072_S1x1024_0_0) : (⟨S1x3072, .f32⟩ : BufTy).Contents (Elt F) → (⟨S1x1024, .f32⟩ : BufTy).Contents (Elt F)),
    unary main_v34 main_v40 ((extractStridedSlice S1x1024 ![0, 1024] · slices_S1x3072_S1x1024_0_1024) : (⟨S1x3072, .f32⟩ : BufTy).Contents (Elt F) → (⟨S1x1024, .f32⟩ : BufTy).Contents (Elt F)),
    unary main_v34 main_v41 ((extractStridedSlice S1x1024 ![0, 2048] · slices_S1x3072_S1x1024_0_2048) : (⟨S1x3072, .f32⟩ : BufTy).Contents (Elt F) → (⟨S1x1024, .f32⟩ : BufTy).Contents (Elt F)),
    unary main_v38 main_v42 ((extractStridedSlice S1x1024 ![0, 0] · slices_S1x3072_S1x1024_0_0) : (⟨S1x3072, .f32⟩ : BufTy).Contents (Elt F) → (⟨S1x1024, .f32⟩ : BufTy).Contents (Elt F)),
    unary main_v38 main_v43 ((extractStridedSlice S1x1024 ![0, 1024] · slices_S1x3072_S1x1024_0_1024) : (⟨S1x3072, .f32⟩ : BufTy).Contents (Elt F) → (⟨S1x1024, .f32⟩ : BufTy).Contents (Elt F)),
    unary main_v38 main_v44 ((extractStridedSlice S1x1024 ![0, 2048] · slices_S1x3072_S1x1024_0_2048) : (⟨S1x3072, .f32⟩ : BufTy).Contents (Elt F) → (⟨S1x1024, .f32⟩ : BufTy).Contents (Elt F)),
    binary main_v39 main_v42 main_v45 (addf : (⟨S1x1024, .f32⟩ : BufTy).Contents (Elt F) → (⟨S1x1024, .f32⟩ : BufTy).Contents (Elt F) → (⟨S1x1024, .f32⟩ : BufTy).Contents (Elt F)),
    unary main_v45 main_v46 (Host.negf : (⟨S1x1024, .f32⟩ : BufTy).Contents (Elt F) → (⟨S1x1024, .f32⟩ : BufTy).Contents (Elt F)),
    unary main_v46 main_v47 (Host.exp : (⟨S1x1024, .f32⟩ : BufTy).Contents (Elt F) → (⟨S1x1024, .f32⟩ : BufTy).Contents (Elt F)),
    nullary main_cst_3 (constant S_ .f32 0x3F800000#32),
    unary main_cst_3 main_v48 (broadcastInDim S1x1024 ![] bcast_S_S1x1024 : (⟨S_, .f32⟩ : BufTy).Contents (Elt F) → (⟨S1x1024, .f32⟩ : BufTy).Contents (Elt F)),
    binary main_v48 main_v47 main_v49 (addf : (⟨S1x1024, .f32⟩ : BufTy).Contents (Elt F) → (⟨S1x1024, .f32⟩ : BufTy).Contents (Elt F) → (⟨S1x1024, .f32⟩ : BufTy).Contents (Elt F)),
    nullary main_cst_4 (constant S_ .f32 0x3F800000#32),
    unary main_cst_4 main_v50 (broadcastInDim S1x1024 ![] bcast_S_S1x1024 : (⟨S_, .f32⟩ : BufTy).Contents (Elt F) → (⟨S1x1024, .f32⟩ : BufTy).Contents (Elt F)),
    binary main_v50 main_v49 main_v51 (Host.divf : (⟨S1x1024, .f32⟩ : BufTy).Contents (Elt F) → (⟨S1x1024, .f32⟩ : BufTy).Contents (Elt F) → (⟨S1x1024, .f32⟩ : BufTy).Contents (Elt F)),
    binary main_v40 main_v43 main_v52 (addf : (⟨S1x1024, .f32⟩ : BufTy).Contents (Elt F) → (⟨S1x1024, .f32⟩ : BufTy).Contents (Elt F) → (⟨S1x1024, .f32⟩ : BufTy).Contents (Elt F)),
    unary main_v52 main_v53 (Host.negf : (⟨S1x1024, .f32⟩ : BufTy).Contents (Elt F) → (⟨S1x1024, .f32⟩ : BufTy).Contents (Elt F)),
    unary main_v53 main_v54 (Host.exp : (⟨S1x1024, .f32⟩ : BufTy).Contents (Elt F) → (⟨S1x1024, .f32⟩ : BufTy).Contents (Elt F)),
    nullary main_cst_5 (constant S_ .f32 0x3F800000#32),
    unary main_cst_5 main_v55 (broadcastInDim S1x1024 ![] bcast_S_S1x1024 : (⟨S_, .f32⟩ : BufTy).Contents (Elt F) → (⟨S1x1024, .f32⟩ : BufTy).Contents (Elt F)),
    binary main_v55 main_v54 main_v56 (addf : (⟨S1x1024, .f32⟩ : BufTy).Contents (Elt F) → (⟨S1x1024, .f32⟩ : BufTy).Contents (Elt F) → (⟨S1x1024, .f32⟩ : BufTy).Contents (Elt F)),
    nullary main_cst_6 (constant S_ .f32 0x3F800000#32),
    unary main_cst_6 main_v57 (broadcastInDim S1x1024 ![] bcast_S_S1x1024 : (⟨S_, .f32⟩ : BufTy).Contents (Elt F) → (⟨S1x1024, .f32⟩ : BufTy).Contents (Elt F)),
    binary main_v57 main_v56 main_v58 (Host.divf : (⟨S1x1024, .f32⟩ : BufTy).Contents (Elt F) → (⟨S1x1024, .f32⟩ : BufTy).Contents (Elt F) → (⟨S1x1024, .f32⟩ : BufTy).Contents (Elt F)),
    binary main_v51 main_v44 main_v59 (mulf : (⟨S1x1024, .f32⟩ : BufTy).Contents (Elt F) → (⟨S1x1024, .f32⟩ : BufTy).Contents (Elt F) → (⟨S1x1024, .f32⟩ : BufTy).Contents (Elt F)),
    binary main_v41 main_v59 main_v60 (addf : (⟨S1x1024, .f32⟩ : BufTy).Contents (Elt F) → (⟨S1x1024, .f32⟩ : BufTy).Contents (Elt F) → (⟨S1x1024, .f32⟩ : BufTy).Contents (Elt F)),
    unary main_v60 main_v61 (Host.tanh : (⟨S1x1024, .f32⟩ : BufTy).Contents (Elt F) → (⟨S1x1024, .f32⟩ : BufTy).Contents (Elt F)),
    nullary main_cst_7 (constant S_ .f32 0x3F800000#32),
    unary main_cst_7 main_v62 (broadcastInDim S1x1024 ![] bcast_S_S1x1024 : (⟨S_, .f32⟩ : BufTy).Contents (Elt F) → (⟨S1x1024, .f32⟩ : BufTy).Contents (Elt F)),
    binary main_v62 main_v58 main_v63 (subf : (⟨S1x1024, .f32⟩ : BufTy).Contents (Elt F) → (⟨S1x1024, .f32⟩ : BufTy).Contents (Elt F) → (⟨S1x1024, .f32⟩ : BufTy).Contents (Elt F)),
    binary main_v63 main_v61 main_v64 (mulf : (⟨S1x1024, .f32⟩ : BufTy).Contents (Elt F) → (⟨S1x1024, .f32⟩ : BufTy).Contents (Elt F) → (⟨S1x1024, .f32⟩ : BufTy).Contents (Elt F)),
    binary main_v58 main_v7 main_v65 (mulf : (⟨S1x1024, .f32⟩ : BufTy).Contents (Elt F) → (⟨S1x1024, .f32⟩ : BufTy).Contents (Elt F) → (⟨S1x1024, .f32⟩ : BufTy).Contents (Elt F)),
    binary main_v64 main_v65 main_v66 (addf : (⟨S1x1024, .f32⟩ : BufTy).Contents (Elt F) → (⟨S1x1024, .f32⟩ : BufTy).Contents (Elt F) → (⟨S1x1024, .f32⟩ : BufTy).Contents (Elt F)) ]

/-- Operations 80 to 83 of @main. -/
abbrev st6 : List (HloOp τ sig (Elt F)) :=
  [ unary main_arg12 main_v67 ((transpose S1024x50257 [1, 0] · transposes_S50257x1024_S1024x50257_1_0) : (⟨S50257x1024, .f32⟩ : BufTy).Contents (Elt F) → (⟨S1024x50257, .f32⟩ : BufTy).Contents (Elt F)),
    binary main_v66 main_v67 main_v68 ((fun l r => Host.dotGeneral dot_S1x1024_S1024x50257_S1x50257_1_0_0_1_n_n none l r) : (⟨S1x1024, .f32⟩ : BufTy).Contents (Elt F) → (⟨S1024x50257, .f32⟩ : BufTy).Contents (Elt F) → (⟨S1x50257, .f32⟩ : BufTy).Contents (Elt F)),
    unary main_arg13 main_v69 (broadcastInDim S1x50257 ![1] bcast_S50257_S1x50257_1 : (⟨S50257, .f32⟩ : BufTy).Contents (Elt F) → (⟨S1x50257, .f32⟩ : BufTy).Contents (Elt F)),
    binary main_v68 main_v69 main_v70 (addf : (⟨S1x50257, .f32⟩ : BufTy).Contents (Elt F) → (⟨S1x50257, .f32⟩ : BufTy).Contents (Elt F) → (⟨S1x50257, .f32⟩ : BufTy).Contents (Elt F)) ]

/-- Operations 84 to 98 of @main. -/
abbrev st7 : List (HloOp τ sig (Elt F)) :=
  [ TRef.nullary (TRef.of (T := ⟨S_, .f32⟩) main_call1_cst) (constant S_ .f32 0xFF800000#32),
    TRef.binary (TRef.of (T := ⟨S1x50257, .f32⟩) main_v70) (TRef.of (T := ⟨S_, .f32⟩) main_call1_cst) (TRef.of (T := ⟨S1, .f32⟩) main_call1_v0) (fun x v => Host.reduce FloatOps.maximumf x v reducesTo_S1x50257_S1_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S1, .f32⟩) main_call1_v1) (broadcastInDim S1 ![] bcast_S_S1),
    TRef.binary (TRef.of (T := ⟨S1, .f32⟩) main_call1_v1) (TRef.of (T := ⟨S1, .f32⟩) main_call1_v0) (TRef.of (T := ⟨S1, .f32⟩) main_call1_v2) maximumf,
    TRef.unary (TRef.of (T := ⟨S1, .f32⟩) main_call1_v2) (TRef.of (T := ⟨S1x1, .f32⟩) main_call1_v3) (broadcastInDim S1x1 ![0] bcast_S1_S1x1_0),
    TRef.unary (TRef.of (T := ⟨S1x1, .f32⟩) main_call1_v3) (TRef.of (T := ⟨S1x50257, .f32⟩) main_call1_v4) (broadcastInDim S1x50257 ![0, 1] bcast_S1x1_S1x50257_0_1),
    TRef.binary (TRef.of (T := ⟨S1x50257, .f32⟩) main_v70) (TRef.of (T := ⟨S1x50257, .f32⟩) main_call1_v4) (TRef.of (T := ⟨S1x50257, .f32⟩) main_call1_v5) subf,
    TRef.unary (TRef.of (T := ⟨S1x50257, .f32⟩) main_call1_v5) (TRef.of (T := ⟨S1x50257, .f32⟩) main_call1_v6) Host.exp,
    TRef.nullary (TRef.of (T := ⟨S_, .f32⟩) main_call1_cst_1) (constant S_ .f32 0x00000000#32),
    TRef.binary (TRef.of (T := ⟨S1x50257, .f32⟩) main_call1_v6) (TRef.of (T := ⟨S_, .f32⟩) main_call1_cst_1) (TRef.of (T := ⟨S1, .f32⟩) main_call1_v7) (fun x v => Host.reduceAdd x v reducesTo_S1x50257_S1_d1 h_S_),
    TRef.unary (TRef.of (T := ⟨S1, .f32⟩) main_call1_v7) (TRef.of (T := ⟨S1x1, .f32⟩) main_call1_v8) (broadcastInDim S1x1 ![0] bcast_S1_S1x1_0),
    TRef.unary (TRef.of (T := ⟨S1x1, .f32⟩) main_call1_v8) (TRef.of (T := ⟨S1x1, .f32⟩) main_call1_v9) Host.log,
    TRef.unary (TRef.of (T := ⟨S1x1, .f32⟩) main_call1_v9) (TRef.of (T := ⟨S1x50257, .f32⟩) main_call1_v10) (broadcastInDim S1x50257 ![0, 1] bcast_S1x1_S1x50257_0_1),
    TRef.binary (TRef.of (T := ⟨S1x50257, .f32⟩) main_call1_v5) (TRef.of (T := ⟨S1x50257, .f32⟩) main_call1_v10) (TRef.of (T := ⟨S1x50257, .f32⟩) main_v71) subf ]

/-- Operations 99 to 99 of @main. -/
abbrev st8 : List (HloOp τ sig (Elt F)) :=
  [ unary main_v66 main_v72 (broadcastInDim S1x1x1024 ![1, 2] bcast_S1x1024_S1x1x1024_1_2 : (⟨S1x1024, .f32⟩ : BufTy).Contents (Elt F) → (⟨S1x1x1024, .f32⟩ : BufTy).Contents (Elt F)) ]

/-- @main's operations are the eight stretches in order. -/
theorem ops_split : (ops : List (HloOp τ sig (Elt F))) = st1 ++ (st2 ++ (st3 ++ (st4 ++ (st5 ++ (st6 ++ (st7 ++ st8)))))) := rfl

/-- What the buffers hold after the first zero stretches: the arguments as launched, the live intermediate results at their stages. -/
def Inv0 (a0 : (⟨S1, .i32⟩ : BufTy).Contents (Elt F)) (a1 : (⟨S1x1x1024, .f32⟩ : BufTy).Contents (Elt F)) (a2 : (⟨S512x1024, .f32⟩ : BufTy).Contents (Elt F)) (a3 : (⟨S50257x1024, .f32⟩ : BufTy).Contents (Elt F)) (a4 : (⟨S512x2048, .f32⟩ : BufTy).Contents (Elt F)) (a5 : (⟨S512, .f32⟩ : BufTy).Contents (Elt F)) (a6 : (⟨S1024x2048, .f32⟩ : BufTy).Contents (Elt F)) (a7 : (⟨S1024, .f32⟩ : BufTy).Contents (Elt F)) (a8 : (⟨S3072x1024, .f32⟩ : BufTy).Contents (Elt F)) (a9 : (⟨S3072x1024, .f32⟩ : BufTy).Contents (Elt F)) (a10 : (⟨S3072, .f32⟩ : BufTy).Contents (Elt F)) (a11 : (⟨S3072, .f32⟩ : BufTy).Contents (Elt F)) (a12 : (⟨S50257x1024, .f32⟩ : BufTy).Contents (Elt F)) (a13 : (⟨S50257, .f32⟩ : BufTy).Contents (Elt F)) (W : Valuation τ sig (Elt F)) : Prop :=
  (W (Proc.devRef .tc main_arg0) = a0 ∧ W (Proc.devRef .tc main_arg1) = a1 ∧ W (Proc.devRef .tc main_arg2) = a2 ∧ W (Proc.devRef .tc main_arg3) = a3 ∧ W (Proc.devRef .tc main_arg4) = a4 ∧ W (Proc.devRef .tc main_arg5) = a5 ∧ W (Proc.devRef .tc main_arg6) = a6 ∧ W (Proc.devRef .tc main_arg7) = a7 ∧ W (Proc.devRef .tc main_arg8) = a8 ∧ W (Proc.devRef .tc main_arg9) = a9 ∧ W (Proc.devRef .tc main_arg10) = a10 ∧ W (Proc.devRef .tc main_arg11) = a11 ∧ W (Proc.devRef .tc main_arg12) = a12 ∧ W (Proc.devRef .tc main_arg13) = a13)

/-- What the buffers hold after the first one stretches: the arguments as launched, the live intermediate results at their stages. -/
def Inv1 (a0 : (⟨S1, .i32⟩ : BufTy).Contents (Elt F)) (a1 : (⟨S1x1x1024, .f32⟩ : BufTy).Contents (Elt F)) (a2 : (⟨S512x1024, .f32⟩ : BufTy).Contents (Elt F)) (a3 : (⟨S50257x1024, .f32⟩ : BufTy).Contents (Elt F)) (a4 : (⟨S512x2048, .f32⟩ : BufTy).Contents (Elt F)) (a5 : (⟨S512, .f32⟩ : BufTy).Contents (Elt F)) (a6 : (⟨S1024x2048, .f32⟩ : BufTy).Contents (Elt F)) (a7 : (⟨S1024, .f32⟩ : BufTy).Contents (Elt F)) (a8 : (⟨S3072x1024, .f32⟩ : BufTy).Contents (Elt F)) (a9 : (⟨S3072x1024, .f32⟩ : BufTy).Contents (Elt F)) (a10 : (⟨S3072, .f32⟩ : BufTy).Contents (Elt F)) (a11 : (⟨S3072, .f32⟩ : BufTy).Contents (Elt F)) (a12 : (⟨S50257x1024, .f32⟩ : BufTy).Contents (Elt F)) (a13 : (⟨S50257, .f32⟩ : BufTy).Contents (Elt F)) (W : Valuation τ sig (Elt F)) : Prop :=
  (W (Proc.devRef .tc main_arg0) = a0 ∧ W (Proc.devRef .tc main_arg1) = a1 ∧ W (Proc.devRef .tc main_arg2) = a2 ∧ W (Proc.devRef .tc main_arg3) = a3 ∧ W (Proc.devRef .tc main_arg4) = a4 ∧ W (Proc.devRef .tc main_arg5) = a5 ∧ W (Proc.devRef .tc main_arg6) = a6 ∧ W (Proc.devRef .tc main_arg7) = a7 ∧ W (Proc.devRef .tc main_arg8) = a8 ∧ W (Proc.devRef .tc main_arg9) = a9 ∧ W (Proc.devRef .tc main_arg10) = a10 ∧ W (Proc.devRef .tc main_arg11) = a11 ∧ W (Proc.devRef .tc main_arg12) = a12 ∧ W (Proc.devRef .tc main_arg13) = a13)
    ∧ W (Proc.devRef .tc main_v6) = val_main_v6 (F := F) a0 a3
    ∧ W (Proc.devRef .tc main_v7) = val_main_v7 (F := F) a1

/-- What the buffers hold after the first two stretches: the arguments as launched, the live intermediate results at their stages. -/
def Inv2 (a0 : (⟨S1, .i32⟩ : BufTy).Contents (Elt F)) (a1 : (⟨S1x1x1024, .f32⟩ : BufTy).Contents (Elt F)) (a2 : (⟨S512x1024, .f32⟩ : BufTy).Contents (Elt F)) (a3 : (⟨S50257x1024, .f32⟩ : BufTy).Contents (Elt F)) (a4 : (⟨S512x2048, .f32⟩ : BufTy).Contents (Elt F)) (a5 : (⟨S512, .f32⟩ : BufTy).Contents (Elt F)) (a6 : (⟨S1024x2048, .f32⟩ : BufTy).Contents (Elt F)) (a7 : (⟨S1024, .f32⟩ : BufTy).Contents (Elt F)) (a8 : (⟨S3072x1024, .f32⟩ : BufTy).Contents (Elt F)) (a9 : (⟨S3072x1024, .f32⟩ : BufTy).Contents (Elt F)) (a10 : (⟨S3072, .f32⟩ : BufTy).Contents (Elt F)) (a11 : (⟨S3072, .f32⟩ : BufTy).Contents (Elt F)) (a12 : (⟨S50257x1024, .f32⟩ : BufTy).Contents (Elt F)) (a13 : (⟨S50257, .f32⟩ : BufTy).Contents (Elt F)) (W : Valuation τ sig (Elt F)) : Prop :=
  (W (Proc.devRef .tc main_arg0) = a0 ∧ W (Proc.devRef .tc main_arg1) = a1 ∧ W (Proc.devRef .tc main_arg2) = a2 ∧ W (Proc.devRef .tc main_arg3) = a3 ∧ W (Proc.devRef .tc main_arg4) = a4 ∧ W (Proc.devRef .tc main_arg5) = a5 ∧ W (Proc.devRef .tc main_arg6) = a6 ∧ W (Proc.devRef .tc main_arg7) = a7 ∧ W (Proc.devRef .tc main_arg8) = a8 ∧ W (Proc.devRef .tc main_arg9) = a9 ∧ W (Proc.devRef .tc main_arg10) = a10 ∧ W (Proc.devRef .tc main_arg11) = a11 ∧ W (Proc.devRef .tc main_arg12) = a12 ∧ W (Proc.devRef .tc main_arg13) = a13)
    ∧ W (Proc.devRef .tc main_v6) = val_main_v6 (F := F) a0 a3
    ∧ W (Proc.devRef .tc main_v7) = val_main_v7 (F := F) a1
    ∧ W (Proc.devRef .tc main_v23) = val_main_v23 (F := F) a0 a1 a3 a4 a5

/-- What the buffers hold after the first three stretches: the arguments as launched, the live intermediate results at their stages. -/
def Inv3 (a0 : (⟨S1, .i32⟩ : BufTy).Contents (Elt F)) (a1 : (⟨S1x1x1024, .f32⟩ : BufTy).Contents (Elt F)) (a2 : (⟨S512x1024, .f32⟩ : BufTy).Contents (Elt F)) (a3 : (⟨S50257x1024, .f32⟩ : BufTy).Contents (Elt F)) (a4 : (⟨S512x2048, .f32⟩ : BufTy).Contents (Elt F)) (a5 : (⟨S512, .f32⟩ : BufTy).Contents (Elt F)) (a6 : (⟨S1024x2048, .f32⟩ : BufTy).Contents (Elt F)) (a7 : (⟨S1024, .f32⟩ : BufTy).Contents (Elt F)) (a8 : (⟨S3072x1024, .f32⟩ : BufTy).Contents (Elt F)) (a9 : (⟨S3072x1024, .f32⟩ : BufTy).Contents (Elt F)) (a10 : (⟨S3072, .f32⟩ : BufTy).Contents (Elt F)) (a11 : (⟨S3072, .f32⟩ : BufTy).Contents (Elt F)) (a12 : (⟨S50257x1024, .f32⟩ : BufTy).Contents (Elt F)) (a13 : (⟨S50257, .f32⟩ : BufTy).Contents (Elt F)) (W : Valuation τ sig (Elt F)) : Prop :=
  (W (Proc.devRef .tc main_arg0) = a0 ∧ W (Proc.devRef .tc main_arg1) = a1 ∧ W (Proc.devRef .tc main_arg2) = a2 ∧ W (Proc.devRef .tc main_arg3) = a3 ∧ W (Proc.devRef .tc main_arg4) = a4 ∧ W (Proc.devRef .tc main_arg5) = a5 ∧ W (Proc.devRef .tc main_arg6) = a6 ∧ W (Proc.devRef .tc main_arg7) = a7 ∧ W (Proc.devRef .tc main_arg8) = a8 ∧ W (Proc.devRef .tc main_arg9) = a9 ∧ W (Proc.devRef .tc main_arg10) = a10 ∧ W (Proc.devRef .tc main_arg11) = a11 ∧ W (Proc.devRef .tc main_arg12) = a12 ∧ W (Proc.devRef .tc main_arg13) = a13)
    ∧ W (Proc.devRef .tc main_v7) = val_main_v7 (F := F) a1
    ∧ W (Proc.devRef .tc main_v23) = val_main_v23 (F := F) a0 a1 a3 a4 a5
    ∧ W (Proc.devRef .tc main_v30) = val_main_v30 (F := F) a0 a1 a2 a3 a4 a5 a6 a7

/-- What the buffers hold after the first four stretches: the arguments as launched, the live intermediate results at their stages. -/
def Inv4 (a0 : (⟨S1, .i32⟩ : BufTy).Contents (Elt F)) (a1 : (⟨S1x1x1024, .f32⟩ : BufTy).Contents (Elt F)) (a2 : (⟨S512x1024, .f32⟩ : BufTy).Contents (Elt F)) (a3 : (⟨S50257x1024, .f32⟩ : BufTy).Contents (Elt F)) (a4 : (⟨S512x2048, .f32⟩ : BufTy).Contents (Elt F)) (a5 : (⟨S512, .f32⟩ : BufTy).Contents (Elt F)) (a6 : (⟨S1024x2048, .f32⟩ : BufTy).Contents (Elt F)) (a7 : (⟨S1024, .f32⟩ : BufTy).Contents (Elt F)) (a8 : (⟨S3072x1024, .f32⟩ : BufTy).Contents (Elt F)) (a9 : (⟨S3072x1024, .f32⟩ : BufTy).Contents (Elt F)) (a10 : (⟨S3072, .f32⟩ : BufTy).Contents (Elt F)) (a11 : (⟨S3072, .f32⟩ : BufTy).Contents (Elt F)) (a12 : (⟨S50257x1024, .f32⟩ : BufTy).Contents (Elt F)) (a13 : (⟨S50257, .f32⟩ : BufTy).Contents (Elt F)) (W : Valuation τ sig (Elt F)) : Prop :=
  (W (Proc.devRef .tc main_arg0) = a0 ∧ W (Proc.devRef .tc main_arg1) = a1 ∧ W (Proc.devRef .tc main_arg2) = a2 ∧ W (Proc.devRef .tc main_arg3) = a3 ∧ W (Proc.devRef .tc main_arg4) = a4 ∧ W (Proc.devRef .tc main_arg5) = a5 ∧ W (Proc.devRef .tc main_arg6) = a6 ∧ W (Proc.devRef .tc main_arg7) = a7 ∧ W (Proc.devRef .tc main_arg8) = a8 ∧ W (Proc.devRef .tc main_arg9) = a9 ∧ W (Proc.devRef .tc main_arg10) = a10 ∧ W (Proc.devRef .tc main_arg11) = a11 ∧ W (Proc.devRef .tc main_arg12) = a12 ∧ W (Proc.devRef .tc main_arg13) = a13)
    ∧ W (Proc.devRef .tc main_v7) = val_main_v7 (F := F) a1
    ∧ W (Proc.devRef .tc main_v23) = val_main_v23 (F := F) a0 a1 a3 a4 a5
    ∧ W (Proc.devRef .tc main_v34) = val_main_v34 (F := F) a0 a1 a2 a3 a4 a5 a6 a7 a8 a10
    ∧ W (Proc.devRef .tc main_v38) = val_main_v38 (F := F) a1 a9 a11

/-- What the buffers hold after the first five stretches: the arguments as launched, the live intermediate results at their stages. -/
def Inv5 (a0 : (⟨S1, .i32⟩ : BufTy).Contents (Elt F)) (a1 : (⟨S1x1x1024, .f32⟩ : BufTy).Contents (Elt F)) (a2 : (⟨S512x1024, .f32⟩ : BufTy).Contents (Elt F)) (a3 : (⟨S50257x1024, .f32⟩ : BufTy).Contents (Elt F)) (a4 : (⟨S512x2048, .f32⟩ : BufTy).Contents (Elt F)) (a5 : (⟨S512, .f32⟩ : BufTy).Contents (Elt F)) (a6 : (⟨S1024x2048, .f32⟩ : BufTy).Contents (Elt F)) (a7 : (⟨S1024, .f32⟩ : BufTy).Contents (Elt F)) (a8 : (⟨S3072x1024, .f32⟩ : BufTy).Contents (Elt F)) (a9 : (⟨S3072x1024, .f32⟩ : BufTy).Contents (Elt F)) (a10 : (⟨S3072, .f32⟩ : BufTy).Contents (Elt F)) (a11 : (⟨S3072, .f32⟩ : BufTy).Contents (Elt F)) (a12 : (⟨S50257x1024, .f32⟩ : BufTy).Contents (Elt F)) (a13 : (⟨S50257, .f32⟩ : BufTy).Contents (Elt F)) (W : Valuation τ sig (Elt F)) : Prop :=
  (W (Proc.devRef .tc main_arg0) = a0 ∧ W (Proc.devRef .tc main_arg1) = a1 ∧ W (Proc.devRef .tc main_arg2) = a2 ∧ W (Proc.devRef .tc main_arg3) = a3 ∧ W (Proc.devRef .tc main_arg4) = a4 ∧ W (Proc.devRef .tc main_arg5) = a5 ∧ W (Proc.devRef .tc main_arg6) = a6 ∧ W (Proc.devRef .tc main_arg7) = a7 ∧ W (Proc.devRef .tc main_arg8) = a8 ∧ W (Proc.devRef .tc main_arg9) = a9 ∧ W (Proc.devRef .tc main_arg10) = a10 ∧ W (Proc.devRef .tc main_arg11) = a11 ∧ W (Proc.devRef .tc main_arg12) = a12 ∧ W (Proc.devRef .tc main_arg13) = a13)
    ∧ W (Proc.devRef .tc main_v23) = val_main_v23 (F := F) a0 a1 a3 a4 a5
    ∧ W (Proc.devRef .tc main_v66) = val_main_v66 (F := F) a0 a1 a2 a3 a4 a5 a6 a7 a8 a9 a10 a11

/-- What the buffers hold after the first six stretches: the arguments as launched, the live intermediate results at their stages. -/
def Inv6 (a0 : (⟨S1, .i32⟩ : BufTy).Contents (Elt F)) (a1 : (⟨S1x1x1024, .f32⟩ : BufTy).Contents (Elt F)) (a2 : (⟨S512x1024, .f32⟩ : BufTy).Contents (Elt F)) (a3 : (⟨S50257x1024, .f32⟩ : BufTy).Contents (Elt F)) (a4 : (⟨S512x2048, .f32⟩ : BufTy).Contents (Elt F)) (a5 : (⟨S512, .f32⟩ : BufTy).Contents (Elt F)) (a6 : (⟨S1024x2048, .f32⟩ : BufTy).Contents (Elt F)) (a7 : (⟨S1024, .f32⟩ : BufTy).Contents (Elt F)) (a8 : (⟨S3072x1024, .f32⟩ : BufTy).Contents (Elt F)) (a9 : (⟨S3072x1024, .f32⟩ : BufTy).Contents (Elt F)) (a10 : (⟨S3072, .f32⟩ : BufTy).Contents (Elt F)) (a11 : (⟨S3072, .f32⟩ : BufTy).Contents (Elt F)) (a12 : (⟨S50257x1024, .f32⟩ : BufTy).Contents (Elt F)) (a13 : (⟨S50257, .f32⟩ : BufTy).Contents (Elt F)) (W : Valuation τ sig (Elt F)) : Prop :=
  (W (Proc.devRef .tc main_arg0) = a0 ∧ W (Proc.devRef .tc main_arg1) = a1 ∧ W (Proc.devRef .tc main_arg2) = a2 ∧ W (Proc.devRef .tc main_arg3) = a3 ∧ W (Proc.devRef .tc main_arg4) = a4 ∧ W (Proc.devRef .tc main_arg5) = a5 ∧ W (Proc.devRef .tc main_arg6) = a6 ∧ W (Proc.devRef .tc main_arg7) = a7 ∧ W (Proc.devRef .tc main_arg8) = a8 ∧ W (Proc.devRef .tc main_arg9) = a9 ∧ W (Proc.devRef .tc main_arg10) = a10 ∧ W (Proc.devRef .tc main_arg11) = a11 ∧ W (Proc.devRef .tc main_arg12) = a12 ∧ W (Proc.devRef .tc main_arg13) = a13)
    ∧ W (Proc.devRef .tc main_v23) = val_main_v23 (F := F) a0 a1 a3 a4 a5
    ∧ W (Proc.devRef .tc main_v66) = val_main_v66 (F := F) a0 a1 a2 a3 a4 a5 a6 a7 a8 a9 a10 a11
    ∧ W (Proc.devRef .tc main_v70) = val_main_v70 (F := F) a0 a1 a2 a3 a4 a5 a6 a7 a8 a9 a10 a11 a12 a13

/-- What the buffers hold after the first seven stretches: the arguments as launched, the live intermediate results at their stages. -/
def Inv7 (a0 : (⟨S1, .i32⟩ : BufTy).Contents (Elt F)) (a1 : (⟨S1x1x1024, .f32⟩ : BufTy).Contents (Elt F)) (a2 : (⟨S512x1024, .f32⟩ : BufTy).Contents (Elt F)) (a3 : (⟨S50257x1024, .f32⟩ : BufTy).Contents (Elt F)) (a4 : (⟨S512x2048, .f32⟩ : BufTy).Contents (Elt F)) (a5 : (⟨S512, .f32⟩ : BufTy).Contents (Elt F)) (a6 : (⟨S1024x2048, .f32⟩ : BufTy).Contents (Elt F)) (a7 : (⟨S1024, .f32⟩ : BufTy).Contents (Elt F)) (a8 : (⟨S3072x1024, .f32⟩ : BufTy).Contents (Elt F)) (a9 : (⟨S3072x1024, .f32⟩ : BufTy).Contents (Elt F)) (a10 : (⟨S3072, .f32⟩ : BufTy).Contents (Elt F)) (a11 : (⟨S3072, .f32⟩ : BufTy).Contents (Elt F)) (a12 : (⟨S50257x1024, .f32⟩ : BufTy).Contents (Elt F)) (a13 : (⟨S50257, .f32⟩ : BufTy).Contents (Elt F)) (W : Valuation τ sig (Elt F)) : Prop :=
  (W (Proc.devRef .tc main_arg0) = a0 ∧ W (Proc.devRef .tc main_arg1) = a1 ∧ W (Proc.devRef .tc main_arg2) = a2 ∧ W (Proc.devRef .tc main_arg3) = a3 ∧ W (Proc.devRef .tc main_arg4) = a4 ∧ W (Proc.devRef .tc main_arg5) = a5 ∧ W (Proc.devRef .tc main_arg6) = a6 ∧ W (Proc.devRef .tc main_arg7) = a7 ∧ W (Proc.devRef .tc main_arg8) = a8 ∧ W (Proc.devRef .tc main_arg9) = a9 ∧ W (Proc.devRef .tc main_arg10) = a10 ∧ W (Proc.devRef .tc main_arg11) = a11 ∧ W (Proc.devRef .tc main_arg12) = a12 ∧ W (Proc.devRef .tc main_arg13) = a13)
    ∧ W (Proc.devRef .tc main_v23) = val_main_v23 (F := F) a0 a1 a3 a4 a5
    ∧ W (Proc.devRef .tc main_v66) = val_main_v66 (F := F) a0 a1 a2 a3 a4 a5 a6 a7 a8 a9 a10 a11
    ∧ W (Proc.devRef .tc main_v71) = val_main_v71 (F := F) a0 a1 a2 a3 a4 a5 a6 a7 a8 a9 a10 a11 a12 a13

/-- What the buffers hold after the first eight stretches: the arguments as launched, the live intermediate results at their stages. -/
def Inv8 (a0 : (⟨S1, .i32⟩ : BufTy).Contents (Elt F)) (a1 : (⟨S1x1x1024, .f32⟩ : BufTy).Contents (Elt F)) (a2 : (⟨S512x1024, .f32⟩ : BufTy).Contents (Elt F)) (a3 : (⟨S50257x1024, .f32⟩ : BufTy).Contents (Elt F)) (a4 : (⟨S512x2048, .f32⟩ : BufTy).Contents (Elt F)) (a5 : (⟨S512, .f32⟩ : BufTy).Contents (Elt F)) (a6 : (⟨S1024x2048, .f32⟩ : BufTy).Contents (Elt F)) (a7 : (⟨S1024, .f32⟩ : BufTy).Contents (Elt F)) (a8 : (⟨S3072x1024, .f32⟩ : BufTy).Contents (Elt F)) (a9 : (⟨S3072x1024, .f32⟩ : BufTy).Contents (Elt F)) (a10 : (⟨S3072, .f32⟩ : BufTy).Contents (Elt F)) (a11 : (⟨S3072, .f32⟩ : BufTy).Contents (Elt F)) (a12 : (⟨S50257x1024, .f32⟩ : BufTy).Contents (Elt F)) (a13 : (⟨S50257, .f32⟩ : BufTy).Contents (Elt F)) (W : Valuation τ sig (Elt F)) : Prop :=
  (W (Proc.devRef .tc main_arg0) = a0 ∧ W (Proc.devRef .tc main_arg1) = a1 ∧ W (Proc.devRef .tc main_arg2) = a2 ∧ W (Proc.devRef .tc main_arg3) = a3 ∧ W (Proc.devRef .tc main_arg4) = a4 ∧ W (Proc.devRef .tc main_arg5) = a5 ∧ W (Proc.devRef .tc main_arg6) = a6 ∧ W (Proc.devRef .tc main_arg7) = a7 ∧ W (Proc.devRef .tc main_arg8) = a8 ∧ W (Proc.devRef .tc main_arg9) = a9 ∧ W (Proc.devRef .tc main_arg10) = a10 ∧ W (Proc.devRef .tc main_arg11) = a11 ∧ W (Proc.devRef .tc main_arg12) = a12 ∧ W (Proc.devRef .tc main_arg13) = a13)
    ∧ W (Proc.devRef .tc main_v23) = val_main_v23 (F := F) a0 a1 a3 a4 a5
    ∧ W (Proc.devRef .tc main_v71) = val_main_v71 (F := F) a0 a1 a2 a3 a4 a5 a6 a7 a8 a9 a10 a11 a12 a13
    ∧ W (Proc.devRef .tc main_v72) = val_main_v72 (F := F) a0 a1 a2 a3 a4 a5 a6 a7 a8 a9 a10 a11

end Cert.ReferenceIdeal.Value

end
-- ==== Proof.RefStepA.lean ====
/-
  The reference program's run, stretches one and two. The first stretch computes the looked-up row and the hidden row
  as one row; the second the attention weights. Each leaves the arguments as they were and the buffers later stretches
  read at their stages of the arguments.
-/
import proofs.«421128_j85564338471302_3_alg».proof.Proof.RefStagesDefs

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxHeartbeats 4000000 in
/-- The first stretch: the arguments stay, the looked-up row and the hidden row as one row are at their stages. -/
theorem step1 (a0 : (⟨S1, .i32⟩ : BufTy).Contents (Elt F)) (a1 : (⟨S1x1x1024, .f32⟩ : BufTy).Contents (Elt F)) (a2 : (⟨S512x1024, .f32⟩ : BufTy).Contents (Elt F)) (a3 : (⟨S50257x1024, .f32⟩ : BufTy).Contents (Elt F)) (a4 : (⟨S512x2048, .f32⟩ : BufTy).Contents (Elt F)) (a5 : (⟨S512, .f32⟩ : BufTy).Contents (Elt F)) (a6 : (⟨S1024x2048, .f32⟩ : BufTy).Contents (Elt F)) (a7 : (⟨S1024, .f32⟩ : BufTy).Contents (Elt F)) (a8 : (⟨S3072x1024, .f32⟩ : BufTy).Contents (Elt F)) (a9 : (⟨S3072x1024, .f32⟩ : BufTy).Contents (Elt F)) (a10 : (⟨S3072, .f32⟩ : BufTy).Contents (Elt F)) (a11 : (⟨S3072, .f32⟩ : BufTy).Contents (Elt F)) (a12 : (⟨S50257x1024, .f32⟩ : BufTy).Contents (Elt F)) (a13 : (⟨S50257, .f32⟩ : BufTy).Contents (Elt F)) (W : Valuation τ sig (Elt F))
    (h : Inv0 a0 a1 a2 a3 a4 a5 a6 a7 a8 a9 a10 a11 a12 a13 W) : Inv1 a0 a1 a2 a3 a4 a5 a6 a7 a8 a9 a10 a11 a12 a13 (after st1 W) := by
  unfold Inv0 at h
  unfold Inv1
  obtain ⟨h0, h1, h2, h3, h4, h5, h6, h7, h8, h9, h10, h11, h12, h13⟩ := h
  refine ⟨⟨?_, ?_, ?_, ?_, ?_, ?_, ?_, ?_, ?_, ?_, ?_, ?_, ?_, ?_⟩, ?_, ?_⟩ <;> after_results_simp
  · exact h0
  · exact h1
  · exact h2
  · exact h3
  · exact h4
  · exact h5
  · exact h6
  · exact h7
  · exact h8
  · exact h9
  · exact h10
  · exact h11
  · exact h12
  · exact h13
  · rw [h3, h0]
    unfold val_main_v6 val_main_v5 val_main_v4 val_main_v3 val_main_v2 val_main_v1 val_main_v0 val_main_c val_main_c_0
    rfl
  · rw [h1]
    unfold val_main_v7
    rfl

set_option maxHeartbeats 4000000 in
/-- The second stretch: the arguments and the two rows stay, the attention weights are at their stage. -/
theorem step2 (a0 : (⟨S1, .i32⟩ : BufTy).Contents (Elt F)) (a1 : (⟨S1x1x1024, .f32⟩ : BufTy).Contents (Elt F)) (a2 : (⟨S512x1024, .f32⟩ : BufTy).Contents (Elt F)) (a3 : (⟨S50257x1024, .f32⟩ : BufTy).Contents (Elt F)) (a4 : (⟨S512x2048, .f32⟩ : BufTy).Contents (Elt F)) (a5 : (⟨S512, .f32⟩ : BufTy).Contents (Elt F)) (a6 : (⟨S1024x2048, .f32⟩ : BufTy).Contents (Elt F)) (a7 : (⟨S1024, .f32⟩ : BufTy).Contents (Elt F)) (a8 : (⟨S3072x1024, .f32⟩ : BufTy).Contents (Elt F)) (a9 : (⟨S3072x1024, .f32⟩ : BufTy).Contents (Elt F)) (a10 : (⟨S3072, .f32⟩ : BufTy).Contents (Elt F)) (a11 : (⟨S3072, .f32⟩ : BufTy).Contents (Elt F)) (a12 : (⟨S50257x1024, .f32⟩ : BufTy).Contents (Elt F)) (a13 : (⟨S50257, .f32⟩ : BufTy).Contents (Elt F)) (W : Valuation τ sig (Elt F))
    (h : Inv1 a0 a1 a2 a3 a4 a5 a6 a7 a8 a9 a10 a11 a12 a13 W) : Inv2 a0 a1 a2 a3 a4 a5 a6 a7 a8 a9 a10 a11 a12 a13 (after st2 W) := by
  unfold Inv1 at h
  unfold Inv2
  obtain ⟨⟨h0, h1, h2, h3, h4, h5, h6, h7, h8, h9, h10, h11, h12, h13⟩, hv6, hv7⟩ := h
  refine ⟨⟨?_, ?_, ?_, ?_, ?_, ?_, ?_, ?_, ?_, ?_, ?_, ?_, ?_, ?_⟩, ?_, ?_, ?_⟩ <;> after_results_simp
  · exact h0
  · exact h1
  · exact h2
  · exact h3
  · exact h4
  · exact h5
  · exact h6
  · exact h7
  · exact h8
  · exact h9
  · exact h10
  · exact h11
  · exact h12
  · exact h13
  · exact hv6
  · exact hv7
  · rw [hv6, hv7, h4, h5]
    unfold val_main_v23 val_main_v22 val_main_v21 val_main_v20 val_main_cst_2 val_main_v19 val_main_v18 val_main_v17 val_main_v16
      val_main_v15 val_main_v14 val_main_cst_1 val_main_v13 val_main_cst val_main_v12 val_main_v11 val_main_v10 val_main_v9 val_main_v8
    rfl

end Cert.ReferenceIdeal.Value

end
-- ==== Proof.RefStepB.lean ====
/-
  The reference program's run, third and fourth stretch. The third stretch forms the context row, joins it to the
  embedded row, multiplies by the transposed combining matrix, adds the bias and cuts the row off below at zero; the
  fourth forms the two rows of gate pre-activations, each a product against a transposed matrix plus a broadcast bias.
  Each stretch writes only its own intermediate buffers, so every argument and every earlier live buffer is carried
  across unchanged, and each buffer the stretch computes holds, by the operations' own functions applied in order to
  what the stretch reads, exactly its stage of the arguments.
-/
import proofs.«421128_j85564338471302_3_alg».proof.Proof.RefStagesDefs

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Contents carried to a typed reference's buffer and back are unchanged. -/
theorem ofBuf_toBuf {T : BufTy} (x : StableHlo.TRef sig T) (v : T.Contents (Elt F)) : x.ofBuf (x.toBuf v) = v := by
  obtain ⟨r, h, h1, h2⟩ := x; subst h; rfl

/-- The third stretch takes the statement after two stretches to the statement after three. -/
theorem step3 (a0 : (⟨S1, .i32⟩ : BufTy).Contents (Elt F)) (a1 : (⟨S1x1x1024, .f32⟩ : BufTy).Contents (Elt F)) (a2 : (⟨S512x1024, .f32⟩ : BufTy).Contents (Elt F)) (a3 : (⟨S50257x1024, .f32⟩ : BufTy).Contents (Elt F)) (a4 : (⟨S512x2048, .f32⟩ : BufTy).Contents (Elt F)) (a5 : (⟨S512, .f32⟩ : BufTy).Contents (Elt F)) (a6 : (⟨S1024x2048, .f32⟩ : BufTy).Contents (Elt F)) (a7 : (⟨S1024, .f32⟩ : BufTy).Contents (Elt F)) (a8 : (⟨S3072x1024, .f32⟩ : BufTy).Contents (Elt F)) (a9 : (⟨S3072x1024, .f32⟩ : BufTy).Contents (Elt F)) (a10 : (⟨S3072, .f32⟩ : BufTy).Contents (Elt F)) (a11 : (⟨S3072, .f32⟩ : BufTy).Contents (Elt F)) (a12 : (⟨S50257x1024, .f32⟩ : BufTy).Contents (Elt F)) (a13 : (⟨S50257, .f32⟩ : BufTy).Contents (Elt F)) (W : Valuation τ sig (Elt F))
    (h : Inv2 a0 a1 a2 a3 a4 a5 a6 a7 a8 a9 a10 a11 a12 a13 W) : Inv3 a0 a1 a2 a3 a4 a5 a6 a7 a8 a9 a10 a11 a12 a13 (after st3 W) := by
  unfold Inv2 at h
  obtain ⟨⟨h0, h1, h2, h3, h4, h5, h6, h7, h8, h9, h10, h11, h12, h13⟩, hv6, hv7, hv23⟩ := h
  unfold Inv3
  refine ⟨⟨?_, ?_, ?_, ?_, ?_, ?_, ?_, ?_, ?_, ?_, ?_, ?_, ?_, ?_⟩, ?_, ?_, ?_⟩
  · show after st3 W (Proc.devRef .tc main_arg0) = a0
    after_results_simp
    exact h0
  · show after st3 W (Proc.devRef .tc main_arg1) = a1
    after_results_simp
    exact h1
  · show after st3 W (Proc.devRef .tc main_arg2) = a2
    after_results_simp
    exact h2
  · show after st3 W (Proc.devRef .tc main_arg3) = a3
    after_results_simp
    exact h3
  · show after st3 W (Proc.devRef .tc main_arg4) = a4
    after_results_simp
    exact h4
  · show after st3 W (Proc.devRef .tc main_arg5) = a5
    after_results_simp
    exact h5
  · show after st3 W (Proc.devRef .tc main_arg6) = a6
    after_results_simp
    exact h6
  · show after st3 W (Proc.devRef .tc main_arg7) = a7
    after_results_simp
    exact h7
  · show after st3 W (Proc.devRef .tc main_arg8) = a8
    after_results_simp
    exact h8
  · show after st3 W (Proc.devRef .tc main_arg9) = a9
    after_results_simp
    exact h9
  · show after st3 W (Proc.devRef .tc main_arg10) = a10
    after_results_simp
    exact h10
  · show after st3 W (Proc.devRef .tc main_arg11) = a11
    after_results_simp
    exact h11
  · show after st3 W (Proc.devRef .tc main_arg12) = a12
    after_results_simp
    exact h12
  · show after st3 W (Proc.devRef .tc main_arg13) = a13
    after_results_simp
    exact h13
  · show after st3 W (Proc.devRef .tc main_v7) = val_main_v7 (F := F) a1
    after_results_simp
    exact hv7
  · show after st3 W (Proc.devRef .tc main_v23) = val_main_v23 (F := F) a0 a1 a3 a4 a5
    after_results_simp
    exact hv23
  · show after st3 W (Proc.devRef .tc main_v30) = val_main_v30 (F := F) a0 a1 a2 a3 a4 a5 a6 a7
    after_results_simp
    simp only [ofBuf_toBuf]
    repeat (first | rw [binary_result] | (rw [binary_result_ne]; rotate_left; decide))
    rw [hv23, h2, hv6, h6, h7]
    unfold val_main_v30 val_main_v29 val_main_v28 val_main_v27 val_main_v26 val_main_v25 val_main_v24 val_main_call0_v0 val_main_call0_cst
    rfl

/-- The fourth stretch takes the statement after three stretches to the statement after four. -/
theorem step4 (a0 : (⟨S1, .i32⟩ : BufTy).Contents (Elt F)) (a1 : (⟨S1x1x1024, .f32⟩ : BufTy).Contents (Elt F)) (a2 : (⟨S512x1024, .f32⟩ : BufTy).Contents (Elt F)) (a3 : (⟨S50257x1024, .f32⟩ : BufTy).Contents (Elt F)) (a4 : (⟨S512x2048, .f32⟩ : BufTy).Contents (Elt F)) (a5 : (⟨S512, .f32⟩ : BufTy).Contents (Elt F)) (a6 : (⟨S1024x2048, .f32⟩ : BufTy).Contents (Elt F)) (a7 : (⟨S1024, .f32⟩ : BufTy).Contents (Elt F)) (a8 : (⟨S3072x1024, .f32⟩ : BufTy).Contents (Elt F)) (a9 : (⟨S3072x1024, .f32⟩ : BufTy).Contents (Elt F)) (a10 : (⟨S3072, .f32⟩ : BufTy).Contents (Elt F)) (a11 : (⟨S3072, .f32⟩ : BufTy).Contents (Elt F)) (a12 : (⟨S50257x1024, .f32⟩ : BufTy).Contents (Elt F)) (a13 : (⟨S50257, .f32⟩ : BufTy).Contents (Elt F)) (W : Valuation τ sig (Elt F))
    (h : Inv3 a0 a1 a2 a3 a4 a5 a6 a7 a8 a9 a10 a11 a12 a13 W) : Inv4 a0 a1 a2 a3 a4 a5 a6 a7 a8 a9 a10 a11 a12 a13 (after st4 W) := by
  unfold Inv3 at h
  obtain ⟨⟨h0, h1, h2, h3, h4, h5, h6, h7, h8, h9, h10, h11, h12, h13⟩, hv7, hv23, hv30⟩ := h
  unfold Inv4
  refine ⟨⟨?_, ?_, ?_, ?_, ?_, ?_, ?_, ?_, ?_, ?_, ?_, ?_, ?_, ?_⟩, ?_, ?_, ?_, ?_⟩
  · show after st4 W (Proc.devRef .tc main_arg0) = a0
    after_results
    exact h0
  · show after st4 W (Proc.devRef .tc main_arg1) = a1
    after_results
    exact h1
  · show after st4 W (Proc.devRef .tc main_arg2) = a2
    after_results
    exact h2
  · show after st4 W (Proc.devRef .tc main_arg3) = a3
    after_results
    exact h3
  · show after st4 W (Proc.devRef .tc main_arg4) = a4
    after_results
    exact h4
  · show after st4 W (Proc.devRef .tc main_arg5) = a5
    after_results
    exact h5
  · show after st4 W (Proc.devRef .tc main_arg6) = a6
    after_results
    exact h6
  · show after st4 W (Proc.devRef .tc main_arg7) = a7
    after_results
    exact h7
  · show after st4 W (Proc.devRef .tc main_arg8) = a8
    after_results
    exact h8
  · show after st4 W (Proc.devRef .tc main_arg9) = a9
    after_results
    exact h9
  · show after st4 W (Proc.devRef .tc main_arg10) = a10
    after_results
    exact h10
  · show after st4 W (Proc.devRef .tc main_arg11) = a11
    after_results
    exact h11
  · show after st4 W (Proc.devRef .tc main_arg12) = a12
    after_results
    exact h12
  · show after st4 W (Proc.devRef .tc main_arg13) = a13
    after_results
    exact h13
  · show after st4 W (Proc.devRef .tc main_v7) = val_main_v7 (F := F) a1
    after_results
    exact hv7
  · show after st4 W (Proc.devRef .tc main_v23) = val_main_v23 (F := F) a0 a1 a3 a4 a5
    after_results
    exact hv23
  · show after st4 W (Proc.devRef .tc main_v34) = val_main_v34 (F := F) a0 a1 a2 a3 a4 a5 a6 a7 a8 a10
    after_results_simp
    rw [hv30, h8, h10]
    unfold val_main_v34 val_main_v32 val_main_v31 val_main_v33
    rfl
  · show after st4 W (Proc.devRef .tc main_v38) = val_main_v38 (F := F) a1 a9 a11
    after_results_simp
    rw [hv7, h9, h11]
    unfold val_main_v38 val_main_v36 val_main_v35 val_main_v37
    rfl

end Cert.ReferenceIdeal.Value

end
-- ==== Proof.RefStepC.lean ====
/-
  The fifth stretch of the reference's run: from the two gate pre-activations, the three gates and the new hidden row.
  The stretch reads the two pre-activation rows and the reshaped previous hidden row, writes thirty-three buffers of its
  own, and leaves every other buffer as it found it; the last buffer it writes holds the new hidden row's stage.
-/
import proofs.«421128_j85564338471302_3_alg».proof.Proof.RefStagesDefs

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The buffers the fifth stretch writes. -/
abbrev st5_W : List (Ref sig .tc) := [main_v39, main_v40, main_v41, main_v42, main_v43, main_v44, main_v45, main_v46, main_v47, main_cst_3, main_v48, main_v49, main_cst_4, main_v50, main_v51, main_v52, main_v53, main_v54, main_cst_5, main_v55, main_v56, main_cst_6, main_v57, main_v58, main_v59, main_v60, main_v61, main_cst_7, main_v62, main_v63, main_v64, main_v65, main_v66]

/-- Every operation of the stretch writes one of them. -/
theorem st5_writes : (st5 : List (HloOp τ sig (Elt F))).Forall fun op => op.writes ⊆ (st5_W.map (Proc.devRef (τ := τ) .tc)).toFinset := by
  simp only [List.Forall]
  repeat' constructor
  all_goals (simp only [nullary_writes, unary_writes, binary_writes, Finset.singleton_subset_iff, List.mem_toFinset]; exact List.mem_map_of_mem (by decide))

/-- A buffer the stretch does not write holds after it what it held before. -/
theorem st5_keeps (W : Valuation τ sig (Elt F)) (r : Ref sig .tc) (h : r ∉ st5_W) :
    after st5 W (Proc.devRef .tc r) = W (Proc.devRef .tc r) :=
  after_of_writes_sub st5 W st5_writes h

set_option maxHeartbeats 4000000 in
/-- The fifth stretch takes the statement after four stretches to the statement after five. -/
theorem step5 (a0 : (⟨S1, .i32⟩ : BufTy).Contents (Elt F)) (a1 : (⟨S1x1x1024, .f32⟩ : BufTy).Contents (Elt F)) (a2 : (⟨S512x1024, .f32⟩ : BufTy).Contents (Elt F)) (a3 : (⟨S50257x1024, .f32⟩ : BufTy).Contents (Elt F)) (a4 : (⟨S512x2048, .f32⟩ : BufTy).Contents (Elt F)) (a5 : (⟨S512, .f32⟩ : BufTy).Contents (Elt F)) (a6 : (⟨S1024x2048, .f32⟩ : BufTy).Contents (Elt F)) (a7 : (⟨S1024, .f32⟩ : BufTy).Contents (Elt F)) (a8 : (⟨S3072x1024, .f32⟩ : BufTy).Contents (Elt F)) (a9 : (⟨S3072x1024, .f32⟩ : BufTy).Contents (Elt F)) (a10 : (⟨S3072, .f32⟩ : BufTy).Contents (Elt F)) (a11 : (⟨S3072, .f32⟩ : BufTy).Contents (Elt F)) (a12 : (⟨S50257x1024, .f32⟩ : BufTy).Contents (Elt F)) (a13 : (⟨S50257, .f32⟩ : BufTy).Contents (Elt F)) (W : Valuation τ sig (Elt F))
    (h : Inv4 a0 a1 a2 a3 a4 a5 a6 a7 a8 a9 a10 a11 a12 a13 W) : Inv5 a0 a1 a2 a3 a4 a5 a6 a7 a8 a9 a10 a11 a12 a13 (after st5 W) := by
  unfold Inv4 at h
  obtain ⟨⟨h0, h1, h2, h3, h4, h5, h6, h7, h8, h9, h10, h11, h12, h13⟩, hv7, hv23, hv34, hv38⟩ := h
  unfold Inv5
  refine ⟨⟨?_, ?_, ?_, ?_, ?_, ?_, ?_, ?_, ?_, ?_, ?_, ?_, ?_, ?_⟩, ?_, ?_⟩
  · exact (st5_keeps W main_arg0 (by decide)).trans h0
  · exact (st5_keeps W main_arg1 (by decide)).trans h1
  · exact (st5_keeps W main_arg2 (by decide)).trans h2
  · exact (st5_keeps W main_arg3 (by decide)).trans h3
  · exact (st5_keeps W main_arg4 (by decide)).trans h4
  · exact (st5_keeps W main_arg5 (by decide)).trans h5
  · exact (st5_keeps W main_arg6 (by decide)).trans h6
  · exact (st5_keeps W main_arg7 (by decide)).trans h7
  · exact (st5_keeps W main_arg8 (by decide)).trans h8
  · exact (st5_keeps W main_arg9 (by decide)).trans h9
  · exact (st5_keeps W main_arg10 (by decide)).trans h10
  · exact (st5_keeps W main_arg11 (by decide)).trans h11
  · exact (st5_keeps W main_arg12 (by decide)).trans h12
  · exact (st5_keeps W main_arg13 (by decide)).trans h13
  · exact (st5_keeps W main_v23 (by decide)).trans hv23
  · show after st5 W (Proc.devRef .tc main_v66) = val_main_v66 (F := F) a0 a1 a2 a3 a4 a5 a6 a7 a8 a9 a10 a11
    after_results_simp
    rw [hv34, hv38, hv7]
    simp only [val_main_v39, val_main_v40, val_main_v41, val_main_v42, val_main_v43, val_main_v44, val_main_v45, val_main_v46, val_main_v47, val_main_cst_3, val_main_v48, val_main_v49, val_main_cst_4, val_main_v50, val_main_v51, val_main_v52, val_main_v53, val_main_v54, val_main_cst_5, val_main_v55, val_main_v56, val_main_cst_6, val_main_v57, val_main_v58, val_main_v59, val_main_v60, val_main_v61, val_main_cst_7, val_main_v62, val_main_v63, val_main_v64, val_main_v65, val_main_v66]

end Cert.ReferenceIdeal.Value

end
-- ==== Proof.RefStepD.lean ====
/-
  The reference program's last three stretches. The logits' stretch writes the transposed vocabulary matrix, the
  product with the new hidden row, the broadcast biases and their sum; the log-softmax stretch writes the row maximum,
  the shifted row, its exponentials, their sum's logarithm and the difference; the last stretch broadcasts the new
  hidden row into the returned state. Each stretch reads the arguments and the live results where the statement before
  it places them, writes only buffers of its own, and so carries the statement across.
-/
import proofs.«421128_j85564338471302_3_alg».proof.Proof.RefStagesDefs

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Contents carried to a typed reference's buffer and back are the contents. -/
theorem ofBuf_toBuf_D {T : BufTy} (x : StableHlo.TRef sig T) (v : T.Contents (Elt F)) : x.ofBuf (x.toBuf v) = v := by
  obtain ⟨r, h, h1, h2⟩ := x; subst h; rfl

/-- The logits' stretch. -/
theorem step6 (a0 : (⟨S1, .i32⟩ : BufTy).Contents (Elt F)) (a1 : (⟨S1x1x1024, .f32⟩ : BufTy).Contents (Elt F)) (a2 : (⟨S512x1024, .f32⟩ : BufTy).Contents (Elt F)) (a3 : (⟨S50257x1024, .f32⟩ : BufTy).Contents (Elt F)) (a4 : (⟨S512x2048, .f32⟩ : BufTy).Contents (Elt F)) (a5 : (⟨S512, .f32⟩ : BufTy).Contents (Elt F)) (a6 : (⟨S1024x2048, .f32⟩ : BufTy).Contents (Elt F)) (a7 : (⟨S1024, .f32⟩ : BufTy).Contents (Elt F)) (a8 : (⟨S3072x1024, .f32⟩ : BufTy).Contents (Elt F)) (a9 : (⟨S3072x1024, .f32⟩ : BufTy).Contents (Elt F)) (a10 : (⟨S3072, .f32⟩ : BufTy).Contents (Elt F)) (a11 : (⟨S3072, .f32⟩ : BufTy).Contents (Elt F)) (a12 : (⟨S50257x1024, .f32⟩ : BufTy).Contents (Elt F)) (a13 : (⟨S50257, .f32⟩ : BufTy).Contents (Elt F)) (W : Valuation τ sig (Elt F))
    (h : Inv5 a0 a1 a2 a3 a4 a5 a6 a7 a8 a9 a10 a11 a12 a13 W) : Inv6 a0 a1 a2 a3 a4 a5 a6 a7 a8 a9 a10 a11 a12 a13 (after st6 W) := by
  unfold Inv5 at h
  obtain ⟨⟨h0, h1, h2, h3, h4, h5, h6, h7, h8, h9, h10, h11, h12, h13⟩, hv23, hv66⟩ := h
  unfold Inv6
  refine ⟨⟨?_, ?_, ?_, ?_, ?_, ?_, ?_, ?_, ?_, ?_, ?_, ?_, ?_, ?_⟩, ?_, ?_, ?_⟩
  · show after st6 W (Proc.devRef .tc main_arg0) = a0
    after_results
    exact h0
  · show after st6 W (Proc.devRef .tc main_arg1) = a1
    after_results
    exact h1
  · show after st6 W (Proc.devRef .tc main_arg2) = a2
    after_results
    exact h2
  · show after st6 W (Proc.devRef .tc main_arg3) = a3
    after_results
    exact h3
  · show after st6 W (Proc.devRef .tc main_arg4) = a4
    after_results
    exact h4
  · show after st6 W (Proc.devRef .tc main_arg5) = a5
    after_results
    exact h5
  · show after st6 W (Proc.devRef .tc main_arg6) = a6
    after_results
    exact h6
  · show after st6 W (Proc.devRef .tc main_arg7) = a7
    after_results
    exact h7
  · show after st6 W (Proc.devRef .tc main_arg8) = a8
    after_results
    exact h8
  · show after st6 W (Proc.devRef .tc main_arg9) = a9
    after_results
    exact h9
  · show after st6 W (Proc.devRef .tc main_arg10) = a10
    after_results
    exact h10
  · show after st6 W (Proc.devRef .tc main_arg11) = a11
    after_results
    exact h11
  · show after st6 W (Proc.devRef .tc main_arg12) = a12
    after_results
    exact h12
  · show after st6 W (Proc.devRef .tc main_arg13) = a13
    after_results
    exact h13
  · show after st6 W (Proc.devRef .tc main_v23) = _
    after_results
    exact hv23
  · show after st6 W (Proc.devRef .tc main_v66) = _
    after_results
    exact hv66
  · show after st6 W (Proc.devRef .tc main_v70) = _
    after_results
    rw [hv66, h12, h13]
    unfold val_main_v70 val_main_v68 val_main_v67 val_main_v69
    rfl

/-- The last stretch: the new hidden row broadcast into the returned state. -/
theorem step8 (a0 : (⟨S1, .i32⟩ : BufTy).Contents (Elt F)) (a1 : (⟨S1x1x1024, .f32⟩ : BufTy).Contents (Elt F)) (a2 : (⟨S512x1024, .f32⟩ : BufTy).Contents (Elt F)) (a3 : (⟨S50257x1024, .f32⟩ : BufTy).Contents (Elt F)) (a4 : (⟨S512x2048, .f32⟩ : BufTy).Contents (Elt F)) (a5 : (⟨S512, .f32⟩ : BufTy).Contents (Elt F)) (a6 : (⟨S1024x2048, .f32⟩ : BufTy).Contents (Elt F)) (a7 : (⟨S1024, .f32⟩ : BufTy).Contents (Elt F)) (a8 : (⟨S3072x1024, .f32⟩ : BufTy).Contents (Elt F)) (a9 : (⟨S3072x1024, .f32⟩ : BufTy).Contents (Elt F)) (a10 : (⟨S3072, .f32⟩ : BufTy).Contents (Elt F)) (a11 : (⟨S3072, .f32⟩ : BufTy).Contents (Elt F)) (a12 : (⟨S50257x1024, .f32⟩ : BufTy).Contents (Elt F)) (a13 : (⟨S50257, .f32⟩ : BufTy).Contents (Elt F)) (W : Valuation τ sig (Elt F))
    (h : Inv7 a0 a1 a2 a3 a4 a5 a6 a7 a8 a9 a10 a11 a12 a13 W) : Inv8 a0 a1 a2 a3 a4 a5 a6 a7 a8 a9 a10 a11 a12 a13 (after st8 W) := by
  unfold Inv7 at h
  obtain ⟨⟨h0, h1, h2, h3, h4, h5, h6, h7, h8, h9, h10, h11, h12, h13⟩, hv23, hv66, hv71⟩ := h
  unfold Inv8
  refine ⟨⟨?_, ?_, ?_, ?_, ?_, ?_, ?_, ?_, ?_, ?_, ?_, ?_, ?_, ?_⟩, ?_, ?_, ?_⟩
  · show after st8 W (Proc.devRef .tc main_arg0) = a0
    after_results
    exact h0
  · show after st8 W (Proc.devRef .tc main_arg1) = a1
    after_results
    exact h1
  · show after st8 W (Proc.devRef .tc main_arg2) = a2
    after_results
    exact h2
  · show after st8 W (Proc.devRef .tc main_arg3) = a3
    after_results
    exact h3
  · show after st8 W (Proc.devRef .tc main_arg4) = a4
    after_results
    exact h4
  · show after st8 W (Proc.devRef .tc main_arg5) = a5
    after_results
    exact h5
  · show after st8 W (Proc.devRef .tc main_arg6) = a6
    after_results
    exact h6
  · show after st8 W (Proc.devRef .tc main_arg7) = a7
    after_results
    exact h7
  · show after st8 W (Proc.devRef .tc main_arg8) = a8
    after_results
    exact h8
  · show after st8 W (Proc.devRef .tc main_arg9) = a9
    after_results
    exact h9
  · show after st8 W (Proc.devRef .tc main_arg10) = a10
    after_results
    exact h10
  · show after st8 W (Proc.devRef .tc main_arg11) = a11
    after_results
    exact h11
  · show after st8 W (Proc.devRef .tc main_arg12) = a12
    after_results
    exact h12
  · show after st8 W (Proc.devRef .tc main_arg13) = a13
    after_results
    exact h13
  · show after st8 W (Proc.devRef .tc main_v23) = _
    after_results
    exact hv23
  · show after st8 W (Proc.devRef .tc main_v71) = _
    after_results
    exact hv71
  · show after st8 W (Proc.devRef .tc main_v72) = _
    after_results
    rw [hv66]
    unfold val_main_v72
    rfl

/-- The log-softmax stretch. -/
theorem step7 (a0 : (⟨S1, .i32⟩ : BufTy).Contents (Elt F)) (a1 : (⟨S1x1x1024, .f32⟩ : BufTy).Contents (Elt F)) (a2 : (⟨S512x1024, .f32⟩ : BufTy).Contents (Elt F)) (a3 : (⟨S50257x1024, .f32⟩ : BufTy).Contents (Elt F)) (a4 : (⟨S512x2048, .f32⟩ : BufTy).Contents (Elt F)) (a5 : (⟨S512, .f32⟩ : BufTy).Contents (Elt F)) (a6 : (⟨S1024x2048, .f32⟩ : BufTy).Contents (Elt F)) (a7 : (⟨S1024, .f32⟩ : BufTy).Contents (Elt F)) (a8 : (⟨S3072x1024, .f32⟩ : BufTy).Contents (Elt F)) (a9 : (⟨S3072x1024, .f32⟩ : BufTy).Contents (Elt F)) (a10 : (⟨S3072, .f32⟩ : BufTy).Contents (Elt F)) (a11 : (⟨S3072, .f32⟩ : BufTy).Contents (Elt F)) (a12 : (⟨S50257x1024, .f32⟩ : BufTy).Contents (Elt F)) (a13 : (⟨S50257, .f32⟩ : BufTy).Contents (Elt F)) (W : Valuation τ sig (Elt F))
    (h : Inv6 a0 a1 a2 a3 a4 a5 a6 a7 a8 a9 a10 a11 a12 a13 W) : Inv7 a0 a1 a2 a3 a4 a5 a6 a7 a8 a9 a10 a11 a12 a13 (after st7 W) := by
  unfold Inv6 at h
  obtain ⟨⟨h0, h1, h2, h3, h4, h5, h6, h7, h8, h9, h10, h11, h12, h13⟩, hv23, hv66, hv70⟩ := h
  unfold Inv7
  refine ⟨⟨?_, ?_, ?_, ?_, ?_, ?_, ?_, ?_, ?_, ?_, ?_, ?_, ?_, ?_⟩, ?_, ?_, ?_⟩
  · show after st7 W (Proc.devRef .tc main_arg0) = a0
    after_results_simp
    exact h0
  · show after st7 W (Proc.devRef .tc main_arg1) = a1
    after_results_simp
    exact h1
  · show after st7 W (Proc.devRef .tc main_arg2) = a2
    after_results_simp
    exact h2
  · show after st7 W (Proc.devRef .tc main_arg3) = a3
    after_results_simp
    exact h3
  · show after st7 W (Proc.devRef .tc main_arg4) = a4
    after_results_simp
    exact h4
  · show after st7 W (Proc.devRef .tc main_arg5) = a5
    after_results_simp
    exact h5
  · show after st7 W (Proc.devRef .tc main_arg6) = a6
    after_results_simp
    exact h6
  · show after st7 W (Proc.devRef .tc main_arg7) = a7
    after_results_simp
    exact h7
  · show after st7 W (Proc.devRef .tc main_arg8) = a8
    after_results_simp
    exact h8
  · show after st7 W (Proc.devRef .tc main_arg9) = a9
    after_results_simp
    exact h9
  · show after st7 W (Proc.devRef .tc main_arg10) = a10
    after_results_simp
    exact h10
  · show after st7 W (Proc.devRef .tc main_arg11) = a11
    after_results_simp
    exact h11
  · show after st7 W (Proc.devRef .tc main_arg12) = a12
    after_results_simp
    exact h12
  · show after st7 W (Proc.devRef .tc main_arg13) = a13
    after_results_simp
    exact h13
  · show after st7 W (Proc.devRef .tc main_v23) = _
    after_results_simp
    exact hv23
  · show after st7 W (Proc.devRef .tc main_v66) = _
    after_results_simp
    exact hv66
  · show after st7 W (Proc.devRef .tc main_v71) = _
    after_results_simp
    simp only [ofBuf_toBuf_D]
    rw [hv70]
    unfold val_main_v71 val_main_call1_v10 val_main_call1_v9 val_main_call1_v8 val_main_call1_v7 val_main_call1_cst_1
      val_main_call1_v6 val_main_call1_v5 val_main_call1_v4 val_main_call1_v3 val_main_call1_v2 val_main_call1_v1
      val_main_call1_cst_0 val_main_call1_v0 val_main_call1_cst
    rfl

end Cert.ReferenceIdeal.Value

end
-- ==== Proof.RefRun.lean ====
/-
  The reference program's run: the library's run of its 99 host operations, read at the three results through the
  eight stretches — after the last stretch the log-probabilities, the new hidden state and the attention weights hold
  their stages of the arguments, and the arguments are as launched.
-/
import proofs.«421128_j85564338471302_3_alg».proof.Proof.RefStepA
import proofs.«421128_j85564338471302_3_alg».proof.Proof.RefStepB
import proofs.«421128_j85564338471302_3_alg».proof.Proof.RefStepC
import proofs.«421128_j85564338471302_3_alg».proof.Proof.RefStepD
import Idealize.ShloMosaic.Lib.Pipeline.Frame

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- After all 99 operations the last invariant holds of the launch contents' arguments. -/
theorem inv_final (m : (ℓ : Loc nD τ sig) → Buf (Elt F) ℓ) (c : Dev nD) :
    Inv8 (launchContents m c (Proc.devRef .tc main_arg0)) (launchContents m c (Proc.devRef .tc main_arg1)) (launchContents m c (Proc.devRef .tc main_arg2)) (launchContents m c (Proc.devRef .tc main_arg3)) (launchContents m c (Proc.devRef .tc main_arg4)) (launchContents m c (Proc.devRef .tc main_arg5)) (launchContents m c (Proc.devRef .tc main_arg6)) (launchContents m c (Proc.devRef .tc main_arg7)) (launchContents m c (Proc.devRef .tc main_arg8)) (launchContents m c (Proc.devRef .tc main_arg9)) (launchContents m c (Proc.devRef .tc main_arg10)) (launchContents m c (Proc.devRef .tc main_arg11)) (launchContents m c (Proc.devRef .tc main_arg12)) (launchContents m c (Proc.devRef .tc main_arg13)) (after (ops (F := F)) (launchContents m c)) := by
  rw [ops_split]
  simp only [StableHlo.after_append]
  exact step8 _ _ _ _ _ _ _ _ _ _ _ _ _ _ _ (step7 _ _ _ _ _ _ _ _ _ _ _ _ _ _ _ (step6 _ _ _ _ _ _ _ _ _ _ _ _ _ _ _
    (step5 _ _ _ _ _ _ _ _ _ _ _ _ _ _ _ (step4 _ _ _ _ _ _ _ _ _ _ _ _ _ _ _ (step3 _ _ _ _ _ _ _ _ _ _ _ _ _ _ _
    (step2 _ _ _ _ _ _ _ _ _ _ _ _ _ _ _ (step1 _ _ _ _ _ _ _ _ _ _ _ _ _ _ _
      ⟨rfl, rfl, rfl, rfl, rfl, rfl, rfl, rfl, rfl, rfl, rfl, rfl, rfl, rfl⟩)))))))

/-- On every device, for any float values, from any memory with zero counters: every weakly fair execution of @main
    terminates with each result at its stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v71) = val_main_v71 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v72) = val_main_v72 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v23) = val_main_v23 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => by
      obtain ⟨⟨h0, h1, h2, h3, h4, h5, h6, h7, h8, h9, h10, h11, h12, h13⟩, h23, h71, h72⟩ := inv_final m c
      exact ⟨(h c main_v71).trans h71, (h c main_v72).trans h72, (h c main_v23).trans h23,
        (h c main_arg0).trans h0, (h c main_arg1).trans h1, (h c main_arg2).trans h2, (h c main_arg3).trans h3,
        (h c main_arg4).trans h4, (h c main_arg5).trans h5, (h c main_arg6).trans h6, (h c main_arg7).trans h7,
        (h c main_arg8).trans h8, (h c main_arg9).trans h9, (h c main_arg10).trans h10, (h c main_arg11).trans h11,
        (h c main_arg12).trans h12, (h c main_arg13).trans h13⟩)
    (run_raw m ρ)

end Cert.ReferenceIdeal.Value

end
-- ==== Proof.lean ====
/-
  The certificate of one decoding step of an attention decoder with a GRU cell (embedding lookup, attention over 512
  encoder positions, combination, GRU, projection onto a vocabulary of 50257 entries in 17 tiles of 3072, log-softmax)
  against its plain reference, over the extended reals, for finite inputs and an index in -50257..50256.

  The three frames: each kernel program runs through the lookup, the first call, the second call and the log-softmax
  whatever the float instance, because the frame asks nothing of the logits the second call writes back (the last tile
  overhangs the vocabulary matrix, and the rows past it are words nobody names); the reference is straight-line.
  The values: at the extended reals a projected column inside the vocabulary is one inner product plus one bias, so it
  does not depend on the unnamed rows, and the three results are the reference's stages of the arguments.
-/
import proofs.«421128_j85564338471302_3_alg».proof.Defs
import proofs.«421128_j85564338471302_3_alg».proof.Proof.KRun
import proofs.«421128_j85564338471302_3_alg».proof.Proof.KIMain
import proofs.«421128_j85564338471302_3_alg».proof.Proof.RefRun
import proofs.«421128_j85564338471302_3_alg».proof.Proof.Gen.Kernel
import proofs.«421128_j85564338471302_3_alg».proof.Proof.Gen.KernelIdeal
import proofs.«421128_j85564338471302_3_alg».proof.Proof.Gen.ReferenceIdeal
import proofs.«421128_j85564338471302_3_alg».proof.Proof.Gen.Pre_finite_inputs
import Idealize.ShloMosaic.Adequacy
import Idealize.ShloMosaic.Init

set_option maxRecDepth 16384

noncomputable section

namespace Cert.Proof

open Idealize.ShloMosaic Idealize.ShloMosaic.TcCoe Idealize.SL.Sem
open Cert.ReferenceIdeal.Read

attribute [local instance] Cert.Kernel.Gen.facts Cert.KernelIdeal.Gen.facts Cert.ReferenceIdeal.Gen.facts Cert.Pre_finite_inputs.Gen.facts

/-- The word-level kernel program runs and leaves its arguments as launched. -/
theorem frame_k : Cert.frame_Kernel := fun m ρ _ => Cert.Kernel.Hand.frame_any (F := Bits) m ρ

/-- So does the idealized one. -/
theorem frame_ki : Cert.frame_KernelIdeal := fun m ρ _ => Cert.KernelIdeal.Hand.frame_any (F := Ideal) m ρ

/-- The reference runs and leaves its arguments as launched: its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

set_option maxHeartbeats 8000000 in
/-- From memories agreeing on the arguments both idealized programs end with the reference's stages v71, v72, v23 of
    the arguments: the log-probabilities, the new hidden state, the attention weights. -/
theorem algebraic : Cert.algebraic_KernelIdeal_ReferenceIdeal := by
  intro m ρ m' ρ' hpre hagree
  refine ⟨fun c => val_main_v71 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => val_main_v72 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => val_main_v23 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Hand.values m ρ hpre, ?_⟩
  refine (θ_run Cert.ReferenceIdeal.defs _ _).mono (fun r h c => ?_) (Cert.ReferenceIdeal.Value.run (F := Ideal) m' ρ')
  obtain ⟨h71, h72, h23, hargs⟩ := h c
  obtain ⟨e0, e1, e2, e3, e4, e5, e6, e7, e8, e9, e10, e11, e12, e13⟩ := hagree c
  refine ⟨?_, ?_, ?_, hargs⟩
  · rw [h71, e0, e1, e2, e3, e4, e5, e6, e7, e8, e9, e10, e11, e12, e13]
  · rw [h72, e0, e1, e2, e3, e4, e5, e6, e7, e8, e9, e10, e11]
  · rw [h23, e0, e1, e3, e4, e5]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
